-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg28 : FVec F S32x1 .f32) (main_arg29 : FVec F S1 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x1 .f32 := Host.absf main_arg28
  let main_cst_48 : FVec F S_ .f32 := constant S_ .f32 0x7F800000#32
  let main_v125 : FVec F S32x1 .f32 := broadcastInDim S32x1 ![] bcast_S_S32x1 main_cst_48
  let main_v126 : IVec S32x1 1 := cmpf .olt main_v124 main_v125
  let main_c_49 : IVec S_ 1 := constantI S_ 1 1#1
  let main_v127 : IVec S_ 1 := (fun x v => Host.reduce IntOp.andi x v reducesTo_S32x1_S_d0_1 h_S_) main_v126 main_c_49
  let main_v128 : IVec S_ 1 := andi main_v123 main_v127
  let main_v129 : FVec F S1 .f32 := Host.absf main_arg29
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg24 : FVec F S64x32 .f32) (main_arg25 : FVec F S32 .f32) (main_arg26 : FVec F S32x32 .f32) (main_arg27 : FVec F S32 .f32) (main_arg28 : FVec F S32x1 .f32) (main_arg29 : FVec F S1 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S64x32 .f32 := Host.absf main_arg24
  let main_cst_40 : FVec F S_ .f32 := constant S_ .f32 0x7F800000#32
  let main_v105 : FVec F S64x32 .f32 := broadcastInDim S64x32 ![] bcast_S_S64x32 main_cst_40
  let main_v106 : IVec S64x32 1 := cmpf .olt main_v104 main_v105
  let main_c_41 : IVec S_ 1 := constantI S_ 1 1#1
  let main_v107 : IVec S_ 1 := (fun x v => Host.reduce IntOp.andi x v reducesTo_S64x32_S_d0_1 h_S_) main_v106 main_c_41
  let main_v108 : IVec S_ 1 := andi main_v103 main_v107
  let main_v109 : FVec F S32 .f32 := Host.absf main_arg25
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32x32 .f32 := Host.absf main_arg26
  let main_cst_44 : FVec F S_ .f32 := constant S_ .f32 0x7F800000#32
  let main_v115 : FVec F S32x32 .f32 := broadcastInDim S32x32 ![] bcast_S_S32x32 main_cst_44
  let main_v116 : IVec S32x32 1 := cmpf .olt main_v114 main_v115
  let main_c_45 : IVec S_ 1 := constantI S_ 1 1#1
  let main_v117 : IVec S_ 1 := (fun x v => Host.reduce IntOp.andi x v reducesTo_S32x32_S_d0_1 h_S_) main_v116 main_c_45
  let main_v118 : IVec S_ 1 := andi main_v113 main_v117
  let main_v119 : FVec F S32 .f32 := Host.absf main_arg27
  fn_part7 (F := F) main_arg28 main_arg29 main_v118 main_v119

def fn_part5 {F : FTy → Type} [FloatOps F] (main_arg21 : FVec F S32 .f32) (main_arg22 : FVec F S32x32 .f32) (main_arg23 : FVec F S32 .f32) (main_arg24 : FVec F S64x32 .f32) (main_arg25 : FVec F S32 .f32) (main_arg26 : FVec F S32x32 .f32) (main_arg27 : FVec F S32 .f32) (main_arg28 : FVec F S32x1 .f32) (main_arg29 : FVec F S1 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg21
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg22
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32 .f32 := Host.absf main_arg23
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg24 main_arg25 main_arg26 main_arg27 main_arg28 main_arg29 main_v98 main_v101 main_c_39

def fn_part4 {F : FTy → Type} [FloatOps F] (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S64x32 .f32) (main_arg25 : FVec F S32 .f32) (main_arg26 : FVec F S32x32 .f32) (main_arg27 : FVec F S32 .f32) (main_arg28 : FVec F S32x1 .f32) (main_arg29 : FVec F S1 .f32) (main_v63 : IVec S_ 1) (main_v67 : IVec S_ 1) : IVec S_ 1 :=
  let main_v68 : IVec S_ 1 := andi main_v63 main_v67
  let main_v69 : FVec F S32 .f32 := Host.absf main_arg17
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg18
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg19
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_v83 main_v84 main_cst_32

def fn_part3 {F : FTy → Type} [FloatOps F] (main_arg14 : FVec F S32x32 .f32) (main_arg15 : FVec F S32 .f32) (main_arg16 : FVec F S32x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S64x32 .f32) (main_arg25 : FVec F S32 .f32) (main_arg26 : FVec F S32x32 .f32) (main_arg27 : FVec F S32 .f32) (main_arg28 : FVec F S32x1 .f32) (main_arg29 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg14
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg15
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg16
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg17 main_arg18 main_arg19 main_arg20 main_arg21 main_arg22 main_arg23 main_arg24 main_arg25 main_arg26 main_arg27 main_arg28 main_arg29 main_v63 main_v67

def fn_part2 {F : FTy → Type} [FloatOps F] (main_arg10 : FVec F S32x32 .f32) (main_arg11 : FVec F S32 .f32) (main_arg12 : FVec F S64x32 .f32) (main_arg13 : FVec F S32 .f32) (main_arg14 : FVec F S32x32 .f32) (main_arg15 : FVec F S32 .f32) (main_arg16 : FVec F S32x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S64x32 .f32) (main_arg25 : FVec F S32 .f32) (main_arg26 : FVec F S32x32 .f32) (main_arg27 : FVec F S32 .f32) (main_arg28 : FVec F S32x1 .f32) (main_arg29 : FVec F S1 .f32) (main_v33 : IVec S_ 1) : IVec S_ 1 :=
  let main_v34 : FVec F S32x32 .f32 := Host.absf main_arg10
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg11
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg12
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg7 : FVec F S32 .f32) (main_arg8 : FVec F S64x32 .f32) (main_arg9 : FVec F S32 .f32) (main_arg10 : FVec F S32x32 .f32) (main_arg11 : FVec F S32 .f32) (main_arg12 : FVec F S64x32 .f32) (main_arg13 : FVec F S32 .f32) (main_arg14 : FVec F S32x32 .f32) (main_arg15 : FVec F S32 .f32) (main_arg16 : FVec F S32x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S64x32 .f32) (main_arg25 : FVec F S32 .f32) (main_arg26 : FVec F S32x32 .f32) (main_arg27 : FVec F S32 .f32) (main_arg28 : FVec F S32x1 .f32) (main_arg29 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg8
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg9
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S100000x64 .f32) (main_arg1 : IVec S2x1600000 32) (main_arg2 : IVec S2x1600000 32) (main_arg3 : IVec S100000 32) (main_arg4 : FVec F S64x32 .f32) (main_arg5 : FVec F S32 .f32) (main_arg6 : FVec F S32x32 .f32) (main_arg7 : FVec F S32 .f32) (main_arg8 : FVec F S64x32 .f32) (main_arg9 : FVec F S32 .f32) (main_arg10 : FVec F S32x32 .f32) (main_arg11 : FVec F S32 .f32) (main_arg12 : FVec F S64x32 .f32) (main_arg13 : FVec F S32 .f32) (main_arg14 : FVec F S32x32 .f32) (main_arg15 : FVec F S32 .f32) (main_arg16 : FVec F S32x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S64x32 .f32) (main_arg25 : FVec F S32 .f32) (main_arg26 : FVec F S32x32 .f32) (main_arg27 : FVec F S32 .f32) (main_arg28 : FVec F S32x1 .f32) (main_arg29 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg4
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg6
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S2000x64 : Shape := ⟨2, ![2000, 64]⟩
abbrev S2000x32 : Shape := ⟨2, ![2000, 32]⟩
abbrev S1x32 : Shape := ⟨2, ![1, 32]⟩
abbrev S1600000x32 : Shape := ⟨2, ![1600000, 32]⟩
abbrev S100000x1 : Shape := ⟨2, ![100000, 1]⟩
abbrev S1024x32 : Shape := ⟨2, ![1024, 32]⟩
abbrev S2000x1 : Shape := ⟨2, ![2000, 1]⟩
abbrev S2000x1024 : Shape := ⟨2, ![2000, 1024]⟩
abbrev S1000x32 : Shape := ⟨2, ![1000, 32]⟩
abbrev S1000x1 : Shape := ⟨2, ![1000, 1]⟩
abbrev S1x1 : Shape := ⟨2, ![1, 1]⟩
abbrev S1000 : Shape := ⟨1, ![1000]⟩

abbrev nBuf : Space → Nat
  | .hbm => 116
  | .vmem => 67
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x1600000, .i32⟩
  | .hbm, ⟨3, _⟩ => ⟨S100000, .i32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S64x32, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S32x32, .f32⟩
  | .hbm, ⟨17, _⟩ => ⟨S32, .f32⟩
  | .hbm, ⟨18, _⟩ => ⟨S32x32, .f32⟩
  | .hbm, ⟨19, _⟩ => ⟨S32, .f32⟩
  | .hbm, ⟨20, _⟩ => ⟨S32x32, .f32⟩
  | .hbm, ⟨21, _⟩ => ⟨S32, .f32⟩
  | .hbm, ⟨22, _⟩ => ⟨S32x32, .f32⟩
  | .hbm, ⟨23, _⟩ => ⟨S32, .f32⟩
  | .hbm, ⟨24, _⟩ => ⟨S64x32, .f32⟩
  | .hbm, ⟨25, _⟩ => ⟨S32, .f32⟩
  | .hbm, ⟨26, _⟩ => ⟨S32x32, .f32⟩
  | .hbm, ⟨27, _⟩ => ⟨S32, .f32⟩
  | .hbm, ⟨28, _⟩ => ⟨S32x1, .f32⟩
  | .hbm, ⟨29, _⟩ => ⟨S1, .f32⟩
  | .hbm, ⟨30, _⟩ => ⟨S1x1600000, .i32⟩
  | .hbm, ⟨31, _⟩ => ⟨S1600000, .i32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S1x1600000, .i32⟩
  | .hbm, ⟨42, _⟩ => ⟨S1600000, .i32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x32, .f32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1x1600000, .i32⟩
  | .hbm, ⟨60, _⟩ => ⟨S1600000, .i32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S100000x32, .f32⟩
  | .hbm, ⟨66, _⟩ => ⟨S32x32, .f32⟩
  | .hbm, ⟨67, _⟩ => ⟨S32x32, .f32⟩
  | .hbm, ⟨68, _⟩ => ⟨S100000x32, .f32⟩
  | .hbm, ⟨69, _⟩ => ⟨S1x1600000, .i32⟩
  | .hbm, ⟨70, _⟩ => ⟨S1600000, .i32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x32, .f32⟩
  | .hbm, ⟨80, _⟩ => ⟨S1x1600000, .i32⟩
  | .hbm, ⟨81, _⟩ => ⟨S1600000, .i32⟩
  | .hbm, ⟨82, _⟩ => ⟨S_, .f32⟩
  | .hbm, ⟨83, _⟩ => ⟨S100000x32, .f32⟩
  | .hbm, ⟨84, _⟩ => ⟨S1600000x1, .i32⟩
  | .hbm, ⟨85, _⟩ => ⟨S100000x32, .f32⟩
  | .hbm, ⟨86, _⟩ => ⟨S100000x32, .f32⟩
  | .hbm, ⟨87, _⟩ => ⟨S1x1600000, .i32⟩
  | .hbm, ⟨88, _⟩ => ⟨S1600000, .i32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x32, .f32⟩
  | .hbm, ⟨98, _⟩ => ⟨S1x1600000, .i32⟩
  | .hbm, ⟨99, _⟩ => ⟨S1600000, .i32⟩
  | .hbm, ⟨100, _⟩ => ⟨S_, .f32⟩
  | .hbm, ⟨101, _⟩ => ⟨S100000x32, .f32⟩
  | .hbm, ⟨102, _⟩ => ⟨S1600000x1, .i32⟩
  | .hbm, ⟨103, _⟩ => ⟨S100000x32, .f32⟩
  | .hbm, ⟨104, _⟩ => ⟨S100000x32, .f32⟩
  | .hbm, ⟨105, _⟩ => ⟨S32x32, .f32⟩
  | .hbm, ⟨106, _⟩ => ⟨S32x32, .f32⟩
  | .hbm, ⟨107, _⟩ => ⟨S100000x32, .f32⟩
  | .hbm, ⟨108, _⟩ => ⟨S100000x1, .i32⟩
  | .hbm, ⟨109, _⟩ => ⟨S1024x32, .f32⟩
  | .hbm, ⟨110, _⟩ => ⟨S1000x32, .f32⟩
  | .hbm, ⟨111, _⟩ => ⟨S1000x1, .f32⟩
  | .hbm, ⟨112, _⟩ => ⟨S1x1, .f32⟩
  | .hbm, ⟨113, _⟩ => ⟨S1000x1, .f32⟩
  | .hbm, ⟨114, _⟩ => ⟨S1000x1, .f32⟩
  | .hbm, ⟨115, _⟩ => ⟨S1000, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S2000x32, .f32⟩
  | .local _ .vmem, ⟨9, _⟩ => ⟨S2000x32, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x32, .f32⟩
  | .local _ .vmem, ⟨15, _⟩ => ⟨S32, .f32⟩
  | .local _ .vmem, ⟨16, _⟩ => ⟨S32x32, .f32⟩
  | .local _ .vmem, ⟨17, _⟩ => ⟨S32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | .local _ .vmem, ⟨24, _⟩ => ⟨S32x32, .f32⟩
  | .local _ .vmem, ⟨25, _⟩ => ⟨S32x32, .f32⟩
  | .local _ .vmem, ⟨26, _⟩ => ⟨S32, .f32⟩
  | .local _ .vmem, ⟨27, _⟩ => ⟨S32x32, .f32⟩
  | .local _ .vmem, ⟨28, _⟩ => ⟨S32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S32x32, .f32⟩
  | .local _ .vmem, ⟨36, _⟩ => ⟨S32, .f32⟩
  | .local _ .vmem, ⟨37, _⟩ => ⟨S32x32, .f32⟩
  | .local _ .vmem, ⟨38, _⟩ => ⟨S32, .f32⟩
  | .local _ .vmem, ⟨39, _⟩ => ⟨S2000x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S2000x32, .f32⟩
  | .local _ .vmem, ⟨44, _⟩ => ⟨S2000x32, .f32⟩
  | .local _ .vmem, ⟨45, _⟩ => ⟨S32x32, .f32⟩
  | .local _ .vmem, ⟨46, _⟩ => ⟨S32, .f32⟩
  | .local _ .vmem, ⟨47, _⟩ => ⟨S32x32, .f32⟩
  | .local _ .vmem, ⟨48, _⟩ => ⟨S32, .f32⟩
  | .local _ .vmem, ⟨49, _⟩ => ⟨S2000x32, .f32⟩
  | .local _ .vmem, ⟨50, _⟩ => ⟨S2000x32, .f32⟩
  | .local _ .vmem, ⟨51, _⟩ => ⟨S2000x32, .f32⟩
  | .local _ .vmem, ⟨52, _⟩ => ⟨S2000x32, .f32⟩
  | .local _ .vmem, ⟨53, _⟩ => ⟨S2000x32, .f32⟩
  | .local _ .vmem, ⟨54, _⟩ => ⟨S2000x32, .f32⟩
  | .local _ .vmem, ⟨55, _⟩ => ⟨S32x32, .f32⟩
  | .local _ .vmem, ⟨56, _⟩ => ⟨S32x32, .f32⟩
  | .local _ .vmem, ⟨57, _⟩ => ⟨S32, .f32⟩
  | .local _ .vmem, ⟨58, _⟩ => ⟨S32x32, .f32⟩
  | .local _ .vmem, ⟨59, _⟩ => ⟨S32, .f32⟩
  | .local _ .vmem, ⟨60, _⟩ => ⟨S2000x32, .f32⟩
  | .local _ .vmem, ⟨61, _⟩ => ⟨S2000x32, .f32⟩
  | .local _ .vmem, ⟨62, _⟩ => ⟨S2000x1, .i32⟩
  | .local _ .vmem, ⟨63, _⟩ => ⟨S2000x1, .i32⟩
  | .local _ .vmem, ⟨64, _⟩ => ⟨S2000x32, .f32⟩
  | .local _ .vmem, ⟨65, _⟩ => ⟨S2000x32, .f32⟩
  | .local _ .vmem, ⟨66, _⟩ => ⟨S1024x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_c_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_1 : Ref sig .tc := ⟨.hbm, 50, rfl⟩
abbrev main_v17 : Ref sig .tc := ⟨.hbm, 51, rfl⟩
abbrev main_v18 : Ref sig .tc := ⟨.hbm, 52, rfl⟩
abbrev main_c_2 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_3 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_4 : Ref sig .tc := ⟨.hbm, 71, rfl⟩
abbrev main_v35 : Ref sig .tc := ⟨.hbm, 72, rfl⟩
abbrev main_v36 : Ref sig .tc := ⟨.hbm, 73, rfl⟩
abbrev main_c_5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_7 : Ref sig .tc := ⟨.hbm, 89, rfl⟩
abbrev main_v50 : Ref sig .tc := ⟨.hbm, 90, rfl⟩
abbrev main_v51 : Ref sig .tc := ⟨.hbm, 91, rfl⟩
abbrev main_c_8 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_9 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg6_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg6_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg7_0 : Ref sig .tc := ⟨.vmem, 60, rfl⟩
abbrev cc5_stg7_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem6_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem6_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem7_0 : DmaSem sig := 60
abbrev cc5_sem7_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x32 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1024x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  inb_S2000x32_S2000x32_0_0 : ∀ a, (![0, 0] : Fin 2 → Nat) a + S2000x32.size a ≤ S2000x32.size a
  h_S2000x32 : 0 < S2000x32.numel
  slices_S64x32_S32x32_0_0 : S64x32.Slices ![0, 0] S32x32
  slices_S64x32_S32x32_32_0 : S64x32.Slices ![32, 0] S32x32
  shapeCasts_S2000x32_S2000x32 : S2000x32.ShapeCasts S2000x32
  shapeCasts_S32x32_S32x32 : S32x32.ShapeCasts S32x32
  bcast_S_S100000x32 : S_.BroadcastsInDim S100000x32 (![] : Fin 0 → Fin S100000x32.rank)
  shapeCasts_S100000_S100000x1 : S100000.ShapeCasts S100000x1
  inb_S1024x32_S1024x32_0_0 : ∀ a, (![0, 0] : Fin 2 → Nat) a + S1024x32.size a ≤ S1024x32.size a
  h_S1024x32 : 0 < S1024x32.numel
  iota_S2000x1024_d1_w32 : S2000x1024.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  natLt_1_32 : 1 < 32
  shapeCasts_S1024x32_S1024x32 : S1024x32.ShapeCasts S1024x32
  slices_S1024x32_S1000x32_0_0 : S1024x32.Slices ![0, 0] S1000x32
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x32_S2000x32_1_0_0_1_n_n_wf : DotDims.WF S2000x64 S64x32 S2000x32 [1] [0] [0] [1] [] []
  dot_S2000x32_S32x32_S2000x32_1_0_0_1_n_n_wf : DotDims.WF S2000x32 S32x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S2000x1024_S2000x32_S1024x32_0_0_1_1_n_n_wf : DotDims.WF S2000x1024 S2000x32 S1024x32 [0] [0] [1] [1] [] []
  dot_S1000x32_S32x1_S1000x1_1_0_0_1_n_n_wf : DotDims.WF S1000x32 S32x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x32.size a ≤ S100000x32.size a
  hwx0_6 : ∀ i : grid0.Coords, EltTy.bits .f32 = 32 ∨ (Rect.block (s := S100000x32) S2000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x32.size a ≤ S100000x32.size a
  hwx1_6 : ∀ i : grid1.Coords, EltTy.bits .f32 = 32 ∨ (Rect.block (s := S100000x32) S2000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32.size a ≤ S32.size a
  hwx2_6 : ∀ i : grid2.Coords, EltTy.bits .f32 = 32 ∨ (Rect.block (s := S32) S32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x32.size a ≤ S100000x32.size a
  hwx2_7 : ∀ i : grid2.Coords, EltTy.bits .f32 = 32 ∨ (Rect.block (s := S100000x32) S2000x32.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32.size a ≤ S32.size a
  hwx3_3 : ∀ i : grid3.Coords, EltTy.bits .f32 = 32 ∨ (Rect.block (s := S32) S32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32.size a ≤ S32.size a
  hwx3_5 : ∀ i : grid3.Coords, EltTy.bits .f32 = 32 ∨ (Rect.block (s := S32) S32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x32.size a ≤ S100000x32.size a
  hwx3_6 : ∀ i : grid3.Coords, EltTy.bits .f32 = 32 ∨ (Rect.block (s := S100000x32) S2000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S100000x32.size a
  hwx4_1 : ∀ i : grid4.Coords, EltTy.bits .f32 = 32 ∨ (Rect.block (s := S100000x32) S2000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32.size a ≤ S32.size a
  hwx4_3 : ∀ i : grid4.Coords, EltTy.bits .f32 = 32 ∨ (Rect.block (s := S32) S32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32.size a ≤ S32.size a
  hwx4_5 : ∀ i : grid4.Coords, EltTy.bits .f32 = 32 ∨ (Rect.block (s := S32) S32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x32.size a ≤ S100000x32.size a
  hwx4_6 : ∀ i : grid4.Coords, EltTy.bits .f32 = 32 ∨ (Rect.block (s := S100000x32) S2000x32.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S100000x32.size a
  hwx5_1 : ∀ i : grid5.Coords, EltTy.bits .f32 = 32 ∨ (Rect.block (s := S100000x32) S2000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x32.size a ≤ S32x32.size a
  hwx5_2 : ∀ i : grid5.Coords, EltTy.bits .f32 = 32 ∨ (Rect.block (s := S32x32) S32x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x32.size a ≤ S32x32.size a
  hwx5_3 : ∀ i : grid5.Coords, EltTy.bits .f32 = 32 ∨ (Rect.block (s := S32x32) S32x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32.size a ≤ S32.size a
  hwx5_4 : ∀ i : grid5.Coords, EltTy.bits .f32 = 32 ∨ (Rect.block (s := S32) S32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x32.size a ≤ S32x32.size a
  hwx5_5 : ∀ i : grid5.Coords, EltTy.bits .f32 = 32 ∨ (Rect.block (s := S32x32) S32x32.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S32.size a ≤ S32.size a
  hwx5_6 : ∀ i : grid5.Coords, EltTy.bits .f32 = 32 ∨ (Rect.block (s := S32) S32.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x32.size a ≤ S100000x32.size a
  hwx5_7 : ∀ i : grid5.Coords, EltTy.bits .f32 = 32 ∨ (Rect.block (s := S100000x32) S2000x32.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x1.size a ≤ S100000x1.size a
  hwx6_0 : ∀ i : grid6.Coords, EltTy.bits .i32 = 32 ∨ (Rect.block (s := S100000x1) S2000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x32.size a ≤ S100000x32.size a
  hwx6_1 : ∀ i : grid6.Coords, EltTy.bits .f32 = 32 ∨ (Rect.block (s := S100000x32) S2000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x32.size a ≤ S1024x32.size a
  hwx6_2 : ∀ i : grid6.Coords, EltTy.bits .f32 = 32 ∨ (Rect.block (s := S1024x32) S1024x32.size (cc6_transform_2 i) (hinb6_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x1024_S2000x32_S1024x32_0_0_1_1_n_n : DotDims S2000x1024 S2000x32 S1024x32 where
  lhsContracting := [0]
  rhsContracting := [0]
  lhsNonContracting := [1]
  rhsNonContracting := [1]
  lhsBatch := []
  rhsBatch := []
  wf := dot_S2000x1024_S2000x32_S1024x32_0_0_1_1_n_n_wf
def dot_S1000x32_S32x1_S1000x1_1_0_0_1_n_n : DotDims S1000x32 S32x1 S1000x1 where
  lhsContracting := [1]
  rhsContracting := [0]
  lhsNonContracting := [0]
  rhsNonContracting := [1]
  lhsBatch := []
  rhsBatch := []
  wf := dot_S1000x32_S32x1_S1000x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v14) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v32) S2000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v32) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg19) S32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S2000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v32) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg20) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg21) S32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg22) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg23) S32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v62) S2000x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v47) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S32x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S32x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg25) S32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg26) S32x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg27) S32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v65) S2000x32.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v66) S2000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S2000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1024x32.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32 : Shape := ⟨2, ![1, 32]⟩
abbrev S1600000x32 : Shape := ⟨2, ![1600000, 32]⟩
abbrev S1000x32 : Shape := ⟨2, ![1000, 32]⟩
abbrev S100000x1 : Shape := ⟨2, ![100000, 1]⟩
abbrev S1000x1 : Shape := ⟨2, ![1000, 1]⟩
abbrev S1x1 : Shape := ⟨2, ![1, 1]⟩
abbrev S1000 : Shape := ⟨1, ![1000]⟩

abbrev nBuf : Space → Nat
  | .hbm => 185
  | .vmem => 0
  | .smem => 0
  | _ => 0

abbrev hbmTy0_0 (i : Nat) : BufTy := match i % 128 with
  | 0 => ⟨S100000x64, .f32⟩
  | 1 => ⟨S2x1600000, .i32⟩
  | 2 => ⟨S2x1600000, .i32⟩
  | 3 => ⟨S100000, .i32⟩
  | 4 => ⟨S64x32, .f32⟩
  | 5 => ⟨S32, .f32⟩
  | 6 => ⟨S32x32, .f32⟩
  | 7 => ⟨S32, .f32⟩
  | 8 => ⟨S64x32, .f32⟩
  | 9 => ⟨S32, .f32⟩
  | 10 => ⟨S32x32, .f32⟩
  | 11 => ⟨S32, .f32⟩
  | 12 => ⟨S64x32, .f32⟩
  | 13 => ⟨S32, .f32⟩
  | 14 => ⟨S32x32, .f32⟩
  | 15 => ⟨S32, .f32⟩
  | 16 => ⟨S32x32, .f32⟩
  | 17 => ⟨S32, .f32⟩
  | 18 => ⟨S32x32, .f32⟩
  | 19 => ⟨S32, .f32⟩
  | 20 => ⟨S32x32, .f32⟩
  | 21 => ⟨S32, .f32⟩
  | 22 => ⟨S32x32, .f32⟩
  | 23 => ⟨S32, .f32⟩
  | 24 => ⟨S64x32, .f32⟩
  | 25 => ⟨S32, .f32⟩
  | 26 => ⟨S32x32, .f32⟩
  | 27 => ⟨S32, .f32⟩
  | 28 => ⟨S32x1, .f32⟩
  | 29 => ⟨S1, .f32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1x1600000, .i32⟩
  | 42 => ⟨S1600000, .i32⟩
  | 43 => ⟨S_, .f32⟩
  | 44 => ⟨S100000x64, .f32⟩
  | 45 => ⟨S1600000x1, .i32⟩
  | 46 => ⟨S100000x64, .f32⟩
  | 47 => ⟨S100000x64, .f32⟩
  | 48 => ⟨S100000x32, .f32⟩
  | 49 => ⟨S1x32, .f32⟩
  | 50 => ⟨S100000x32, .f32⟩
  | 51 => ⟨S100000x32, .f32⟩
  | 52 => ⟨S_, .f32⟩
  | 53 => ⟨S100000x32, .f32⟩
  | 54 => ⟨S100000x32, .f32⟩
  | 55 => ⟨S100000x32, .f32⟩
  | 56 => ⟨S1x32, .f32⟩
  | 57 => ⟨S100000x32, .f32⟩
  | 58 => ⟨S100000x32, .f32⟩
  | 59 => ⟨S1x1600000, .i32⟩
  | 60 => ⟨S1600000, .i32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1x1600000, .i32⟩
  | 71 => ⟨S1600000, .i32⟩
  | 72 => ⟨S_, .f32⟩
  | 73 => ⟨S100000x64, .f32⟩
  | 74 => ⟨S1600000x1, .i32⟩
  | 75 => ⟨S100000x64, .f32⟩
  | 76 => ⟨S100000x64, .f32⟩
  | 77 => ⟨S100000x32, .f32⟩
  | 78 => ⟨S1x32, .f32⟩
  | 79 => ⟨S100000x32, .f32⟩
  | 80 => ⟨S100000x32, .f32⟩
  | 81 => ⟨S_, .f32⟩
  | 82 => ⟨S100000x32, .f32⟩
  | 83 => ⟨S100000x32, .f32⟩
  | 84 => ⟨S100000x32, .f32⟩
  | 85 => ⟨S1x32, .f32⟩
  | 86 => ⟨S100000x32, .f32⟩
  | 87 => ⟨S100000x32, .f32⟩
  | 88 => ⟨S100000x64, .f32⟩
  | 89 => ⟨S100000x32, .f32⟩
  | 90 => ⟨S1x32, .f32⟩
  | 91 => ⟨S100000x32, .f32⟩
  | 92 => ⟨S100000x32, .f32⟩
  | 93 => ⟨S_, .f32⟩
  | 94 => ⟨S100000x32, .f32⟩
  | 95 => ⟨S100000x32, .f32⟩
  | 96 => ⟨S100000x32, .f32⟩
  | 97 => ⟨S1x32, .f32⟩
  | 98 => ⟨S100000x32, .f32⟩
  | 99 => ⟨S100000x32, .f32⟩
  | 100 => ⟨S1x1600000, .i32⟩
  | 101 => ⟨S1600000, .i32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x32, .f32⟩
  | 111 => ⟨S1x1600000, .i32⟩
  | 112 => ⟨S1600000, .i32⟩
  | 113 => ⟨S_, .f32⟩
  | 114 => ⟨S100000x32, .f32⟩
  | 115 => ⟨S1600000x1, .i32⟩
  | 116 => ⟨S100000x32, .f32⟩
  | 117 => ⟨S100000x32, .f32⟩
  | 118 => ⟨S100000x32, .f32⟩
  | 119 => ⟨S1x32, .f32⟩
  | 120 => ⟨S100000x32, .f32⟩
  | 121 => ⟨S100000x32, .f32⟩
  | 122 => ⟨S_, .f32⟩
  | 123 => ⟨S100000x32, .f32⟩
  | 124 => ⟨S100000x32, .f32⟩
  | 125 => ⟨S100000x32, .f32⟩
  | 126 => ⟨S1x32, .f32⟩
  | 127 => ⟨S100000x32, .f32⟩
  | _ => ⟨S100000x64, .f32⟩

abbrev hbmTy0_1 (i : Nat) : BufTy := match i % 128 with
  | 0 => ⟨S100000x32, .f32⟩
  | 1 => ⟨S_, .f32⟩
  | 2 => ⟨S100000x32, .f32⟩
  | 3 => ⟨S100000x32, .f32⟩
  | 4 => ⟨S1x1600000, .i32⟩
  | 5 => ⟨S1600000, .i32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x32, .f32⟩
  | 15 => ⟨S1x1600000, .i32⟩
  | 16 => ⟨S1600000, .i32⟩
  | 17 => ⟨S_, .f32⟩
  | 18 => ⟨S100000x32, .f32⟩
  | 19 => ⟨S1600000x1, .i32⟩
  | 20 => ⟨S100000x32, .f32⟩
  | 21 => ⟨S100000x32, .f32⟩
  | 22 => ⟨S100000x32, .f32⟩
  | 23 => ⟨S1x32, .f32⟩
  | 24 => ⟨S100000x32, .f32⟩
  | 25 => ⟨S100000x32, .f32⟩
  | 26 => ⟨S_, .f32⟩
  | 27 => ⟨S100000x32, .f32⟩
  | 28 => ⟨S100000x32, .f32⟩
  | 29 => ⟨S100000x32, .f32⟩
  | 30 => ⟨S1x32, .f32⟩
  | 31 => ⟨S100000x32, .f32⟩
  | 32 => ⟨S100000x32, .f32⟩
  | 33 => ⟨S_, .f32⟩
  | 34 => ⟨S100000x32, .f32⟩
  | 35 => ⟨S100000x32, .f32⟩
  | 36 => ⟨S100000x64, .f32⟩
  | 37 => ⟨S100000x32, .f32⟩
  | 38 => ⟨S1x32, .f32⟩
  | 39 => ⟨S100000x32, .f32⟩
  | 40 => ⟨S100000x32, .f32⟩
  | 41 => ⟨S_, .f32⟩
  | 42 => ⟨S100000x32, .f32⟩
  | 43 => ⟨S100000x32, .f32⟩
  | 44 => ⟨S100000x32, .f32⟩
  | 45 => ⟨S1x32, .f32⟩
  | 46 => ⟨S100000x32, .f32⟩
  | 47 => ⟨S100000x32, .f32⟩
  | 48 => ⟨S_, .f32⟩
  | 49 => ⟨S1000x32, .f32⟩
  | 50 => ⟨S100000x1, .i32⟩
  | 51 => ⟨S1000x32, .f32⟩
  | 52 => ⟨S1000x1, .f32⟩
  | 53 => ⟨S1x1, .f32⟩
  | 54 => ⟨S1000x1, .f32⟩
  | 55 => ⟨S1000x1, .f32⟩
  | 56 => ⟨S1000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_c_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_call0_cst : Ref sig .tc := ⟨.hbm, 52, rfl⟩
abbrev main_call0_v0 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_1 : Ref sig .tc := ⟨.hbm, 61, rfl⟩
abbrev main_v26 : Ref sig .tc := ⟨.hbm, 62, rfl⟩
abbrev main_v27 : Ref sig .tc := ⟨.hbm, 63, rfl⟩
abbrev main_c_2 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_3 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call1_cst : Ref sig .tc := ⟨.hbm, 81, rfl⟩
abbrev main_call1_v0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_call2_cst : Ref sig .tc := ⟨.hbm, 93, rfl⟩
abbrev main_call2_v0 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_4 : Ref sig .tc := ⟨.hbm, 102, rfl⟩
abbrev main_v60 : Ref sig .tc := ⟨.hbm, 103, rfl⟩
abbrev main_v61 : Ref sig .tc := ⟨.hbm, 104, rfl⟩
abbrev main_c_5 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_6 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_call3_cst : Ref sig .tc := ⟨.hbm, 122, rfl⟩
abbrev main_call3_v0 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_call4_cst : Ref sig .tc := ⟨.hbm, 129, rfl⟩
abbrev main_call4_v0 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_7 : Ref sig .tc := ⟨.hbm, 134, rfl⟩
abbrev main_v85 : Ref sig .tc := ⟨.hbm, 135, rfl⟩
abbrev main_v86 : Ref sig .tc := ⟨.hbm, 136, rfl⟩
abbrev main_c_8 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_9 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_call5_cst : Ref sig .tc := ⟨.hbm, 154, rfl⟩
abbrev main_call5_v0 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_call6_cst : Ref sig .tc := ⟨.hbm, 161, rfl⟩
abbrev main_call6_v0 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_call7_cst : Ref sig .tc := ⟨.hbm, 169, rfl⟩
abbrev main_call7_v0 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_10 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  concatenates_S100000x32_S100000x32_S100000x64_d1 : Shape.Concatenates [S100000x32, S100000x32] S100000x64 1
  bcast_S_S1000x32 : S_.BroadcastsInDim S1000x32 (![] : Fin 0 → Fin S1000x32.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S1000x32_S100000x1_S100000x32_1_0_0_1_wf : ScatterDims.WF S1000x32 S100000x1 S100000x32 [1] [0] [0] 1
  dot_S1000x32_S32x1_S1000x1_1_0_0_1_n_n_wf : DotDims.WF S1000x32 S32x1 S1000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S1000x32_S100000x1_S100000x32_1_0_0_1 : ScatterDims S1000x32 S100000x1 S100000x32 where
  updateWindowDims := [1]
  insertedWindowDims := [0]
  scatterDimsToOperandDims := [0]
  indexVectorDim := 1
  wf := scatter_S1000x32_S100000x1_S100000x32_1_0_0_1_wf
def dot_S1000x32_S32x1_S1000x1_1_0_0_1_n_n : DotDims S1000x32 S32x1 S1000x1 where
  lhsContracting := [1]
  rhsContracting := [0]
  lhsNonContracting := [0]
  rhsNonContracting := [1]
  lhsBatch := []
  rhsBatch := []
  wf := dot_S1000x32_S32x1_S1000x1_1_0_0_1_n_n_wf

class Facts : Prop extends Facts₀ where

variable [Facts]
-- ==== Proof.KHost.lean ====
/-
  The kernel program's host operations between its pallas_calls, as functions of arbitrary arrays.

  Before each graph-isomorphism call the program aggregates the neighbours' features on the host: the edge
  list's first row names the source node of each edge and its second row the target; a source word below zero is
  wrapped by adding 100000; the source rows are gathered and scatter-added into the target rows of a zero array.
  `agg64` and `agg32` are that function of the features and the edge list, on 64 and on 32 features. Before each
  mixing call the first weight matrix is cut into its upper and lower 32 rows (`upper`, `lower`). Before the pooling
  call the graph words are laid out as a column (`column`), and after it the first 1000 of its 1024 rows go through
  the read-out (`tail`).
-/
import proofs.«412192_j67508295958858_4_alg».proof.Proof.Gen.KernelIdeal
import Idealize.ShloMosaic.PureOps.Ideal

noncomputable section

namespace Cert.KernelIdeal.Val

open Cert.KernelIdeal Cert.KernelIdeal.Gen Idealize.ShloMosaic

/-- An array of the kernel program's, at the ideal instance. -/
abbrev Arr (s : Shape) (e : EltTy) := (⟨s, e⟩ : BufTy).Contents (Elt Ideal)

/-- The edges' source words. -/
def srcWords (e : Arr S2x1600000 .i32) : Arr S1600000 .i32 :=
  shapeCast S1600000 (extractStridedSlice S1x1600000 ![0, 0] e slices_S2x1600000_S1x1600000_0_0) shapeCasts_S1x1600000_S1600000

/-- The edges' target words. -/
def tgtWords (e : Arr S2x1600000 .i32) : Arr S1600000 .i32 :=
  shapeCast S1600000 (extractStridedSlice S1x1600000 ![1, 0] e slices_S2x1600000_S1x1600000_1_0) shapeCasts_S1x1600000_S1600000

/-- The source words, a negative one wrapped by 100000, as a column. -/
def wrapped (e : Arr S2x1600000 .i32) : Arr S1600000x1 .i32 :=
  broadcastInDim S1600000x1 ![0] bcast_S1600000_S1600000x1_0
    (select (cmpi .slt (srcWords e) (broadcastInDim S1600000 ![] bcast_S_S1600000 (constantI S_ 32 0#32)))
      (addi (srcWords e) (broadcastInDim S1600000 ![] bcast_S_S1600000 (constantI S_ 32 100000#32)))
      (srcWords e))

/-- The neighbour aggregation on 64 features. -/
def agg64 (x : Arr S100000x64 .f32) (e : Arr S2x1600000 .i32) : Arr S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (tgtWords e))
    (Host.gather gather_S100000x64_S1600000x1_S1600000x64_1_0_n_n_0_1_164 x (wrapped e))

/-- The neighbour aggregation on 32 features. -/
def agg32 (h : Arr S100000x32 .f32) (e : Arr S2x1600000 .i32) : Arr S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 (tgtWords e))
    (Host.gather gather_S100000x32_S1600000x1_S1600000x32_1_0_n_n_0_1_132 h (wrapped e))

/-- The upper 32 rows of a 64-row weight matrix. -/
def upper (W : Arr S64x32 .f32) : Arr S32x32 .f32 := extractStridedSlice S32x32 ![0, 0] W slices_S64x32_S32x32_0_0
/-- The lower 32 rows of a 64-row weight matrix. -/
def lower (W : Arr S64x32 .f32) : Arr S32x32 .f32 := extractStridedSlice S32x32 ![32, 0] W slices_S64x32_S32x32_32_0

/-- The graph words as a column. -/
def column (bt : Arr S100000 .i32) : Arr S100000x1 .i32 := shapeCast S100000x1 bt shapeCasts_S100000_S100000x1

/-- The read-out on the first 1000 rows of the pooled array. -/
def tail (P : FVec Ideal S1024x32 .f32) (W : FVec Ideal S32x1 .f32) (b : FVec Ideal S1 .f32) : FVec Ideal S1000 .f32 :=
  shapeCast S1000
    (addf (F := Ideal) (Host.dotGeneral (F := Ideal) (φ₁ := .f32) (φ₂ := .f32) dot_S1000x32_S32x1_S1000x1_1_0_0_1_n_n none (extractStridedSlice S1000x32 ![0, 0] P slices_S1024x32_S1000x32_0_0) W)
      (broadcastInDim S1000x1 ![0, 1] bcast_S1x1_S1000x1_0_1 (broadcastInDim S1x1 ![1] bcast_S1_S1x1_1 b)))
    shapeCasts_S1000x1_S1000

end Cert.KernelIdeal.Val

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.Spec.lean ====
/-
  What the network computes on one row, as functions on the extended reals.

  A node's features go through a two-layer perceptron: `relu (r · W₁ + b₁) · W₂ + b₂`. `mlp` is that function of
  a row `r` of `K` features, read at output column `q`. The mixing layer takes the two branches' rows side by
  side; `mix` is the same perceptron written over the two halves of the first weight matrix, and `mlp_split` says
  the two agree: a contraction over 64 features is the contraction over the first 32 plus the contraction over
  the last 32, which needs nothing but the associativity and commutativity of the sum (so no finiteness).
  The graph pooling adds up the rows of each graph; `sum_rows` cuts a sum over the 100000 nodes into 50 consecutive
  blocks of 2000.
-/
import Idealize.ShloMosaic.PureOps.Ideal
import Idealize.ShloMosaic.Lib.ValueIdx
import proofs.«412192_j67508295958858_4_alg».proof.Proof.LibBlockSum

noncomputable section

namespace Cert.Spec

open Idealize.ShloMosaic Idealize.ShloMosaic.ValueIdx
open scoped BigOperators

/-- An `a × b` matrix of extended reals, indexed as an array of that shape. -/
abbrev Mat (a b : Nat) := (⟨2, ![a, b]⟩ : Shape).Idx → EReal
/-- A vector of `a` extended reals. -/
abbrev Vect (a : Nat) := (⟨1, ![a]⟩ : Shape).Idx → EReal

/-- The hidden unit `k` of the perceptron on the row `r`, before the rectifier: `(r · W₁)ₖ + b₁ₖ`. -/
def hidden {K : Nat} (r : Fin K → EReal) (W1 : Mat K 32) (b1 : Vect 32) (k : Fin 32) : EReal :=
  (∑ l : Fin K, r l * W1 (ix2 l k)) + b1 (ix1 k)

/-- The second layer on rectified hidden units `a`: `(relu a · W₂)_q + b₂_q`. -/
def outer (a : Fin 32 → EReal) (W2 : Mat 32 32) (b2 : Vect 32) (q : Fin 32) : EReal :=
  (∑ k : Fin 32, max (a k) 0 * W2 (ix2 k q)) + b2 (ix1 q)

/-- The two-layer perceptron on the row `r`, at output column `q`. -/
def mlp {K : Nat} (r : Fin K → EReal) (W1 : Mat K 32) (b1 : Vect 32) (W2 : Mat 32 32) (b2 : Vect 32) (q : Fin 32) : EReal :=
  outer (hidden r W1 b1) W2 b2 q

/-- The mixing perceptron on two rows of 32 features, the first weight matrix given as its upper and lower halves. -/
def mix (r1 r2 : Fin 32 → EReal) (Wa Wb : Mat 32 32) (b1 : Vect 32) (W2 : Mat 32 32) (b2 : Vect 32) (q : Fin 32) : EReal :=
  outer (fun k => ((∑ l : Fin 32, r1 l * Wa (ix2 l k)) + (∑ l : Fin 32, r2 l * Wb (ix2 l k))) + b1 (ix1 k)) W2 b2 q

/-- The first 32 of 64 positions. -/
abbrev lo (l : Fin 32) : Fin 64 := ⟨l.val, by omega⟩
/-- The last 32 of 64 positions. -/
abbrev hi (l : Fin 32) : Fin 64 := ⟨32 + l.val, by omega⟩

/-- A sum over 64 positions is the sum over the first 32 plus the sum over the last 32. -/
theorem sum_64 {M : Type*} [AddCommMonoid M] (f : Fin 64 → M) : ∑ l : Fin 64, f l = (∑ l : Fin 32, f (lo l)) + ∑ l : Fin 32, f (hi l) := by
  have h := Fin.sum_univ_add (a := 32) (b := 32) (fun i : Fin (32 + 32) => f ⟨i.val, i.isLt⟩)
  refine Eq.trans ?_ (h.trans ?_)
  · rfl
  · rfl

/-- The perceptron on a row of 64 features is the mixing perceptron on its two halves. -/
theorem mlp_split (r : Fin 64 → EReal) (W1 : Mat 64 32) (b1 : Vect 32) (W2 : Mat 32 32) (b2 : Vect 32) (q : Fin 32) :
    mlp r W1 b1 W2 b2 q
      = mix (fun l => r (lo l)) (fun l => r (hi l)) (fun i => W1 (ix2 (lo (i 0)) (i 1))) (fun i => W1 (ix2 (hi (i 0)) (i 1))) b1 W2 b2 q := by
  unfold mlp mix hidden
  refine congrArg (fun a => outer a W2 b2 q) (funext fun k => ?_)
  rw [sum_64]

/-! ## The layers on whole arrays -/

/-- The row coordinate of a matrix index. -/
abbrev row {a b : Nat} (i : (⟨2, ![a, b]⟩ : Shape).Idx) : Fin a := i 0
/-- The column coordinate of a matrix index. -/
abbrev col {a b : Nat} (i : (⟨2, ![a, b]⟩ : Shape).Idx) : Fin b := i 1

/-- A graph-isomorphism layer: the perceptron on each node's own features plus its aggregated neighbours'. -/
def gin {N K : Nat} (x agg : Mat N K) (W1 : Mat K 32) (b1 : Vect 32) (W2 : Mat 32 32) (b2 : Vect 32) : Mat N 32 :=
  fun i => mlp (fun l => x (ix2 (row i) l) + agg (ix2 (row i) l)) W1 b1 W2 b2 (col i)

/-- The rectifier on every entry. -/
def relu {N C : Nat} (y : Mat N C) : Mat N C := fun i => max (y i) 0

/-- Two branches' rows side by side: position `l` of 64 is the first branch's below 32, the second's from 32 on. -/
def beside (r1 r2 : Fin 32 → EReal) (l : Fin 64) : EReal :=
  if h : l.val < 32 then r1 ⟨l.val, h⟩ else r2 ⟨l.val - 32, by omega⟩

/-- The mixing layer: the perceptron on the two branches' rows side by side. -/
def mixing {N : Nat} (y1 y2 : Mat N 32) (W1 : Mat 64 32) (b1 : Vect 32) (W2 : Mat 32 32) (b2 : Vect 32) : Mat N 32 :=
  fun i => mlp (beside (fun l => y1 (ix2 (row i) l)) (fun l => y2 (ix2 (row i) l))) W1 b1 W2 b2 (col i)

/-- The graph pooling: row `g` is the sum of the rows of the nodes whose graph word, read signed, is `g`. -/
def pool {N G : Nat} (batch : (⟨1, ![N]⟩ : Shape).Idx → BitVec 32) (h : Mat N 32) : Mat G 32 :=
  fun i => ∑ e ∈ Finset.univ.filter (fun e : Fin N => (batch (ix1 e)).toInt = ((row i).val : ℤ)), h (ix2 e (col i))

/-- The read-out: one linear unit per graph. -/
def readout {G : Nat} (pooled : Mat G 32) (W : Mat 32 1) (b : Vect 1) : Vect G :=
  fun i => (∑ k : Fin 32, pooled (ix2 (i 0) k) * W (ix2 k (0 : Fin 1))) + b (ix1 (0 : Fin 1))

/-- The mixing layer written over the two halves of the first weight matrix, each its own 32 × 32 array. -/
def mixingHalves {N : Nat} (y1 y2 : Mat N 32) (Wa Wb : Mat 32 32) (b1 : Vect 32) (W2 : Mat 32 32) (b2 : Vect 32) : Mat N 32 :=
  fun i => mix (fun l => y1 (ix2 (row i) l)) (fun l => y2 (ix2 (row i) l)) Wa Wb b1 W2 b2 (col i)

/-- The pooling as a product with the indicator matrix: row `g` of `G` adds the rows of the nodes whose graph
    word IS the word `g` (an `N × 1` column of words). -/
def poolWords {N G : Nat} (bt : (⟨2, ![N, 1]⟩ : Shape).Idx → BitVec 32) (h : Mat N 32) : Mat G 32 :=
  fun i => ∑ e : Fin N, if bt (ix2 e (0 : Fin 1)) = BitVec.ofNat 32 (row i).val then h (ix2 e (col i)) else 0

theorem mixingHalves_apply {N : Nat} (y1 y2 : Mat N 32) (Wa Wb : Mat 32 32) (b1 : Vect 32) (W2 : Mat 32 32) (b2 : Vect 32) (p : Fin N) (q : Fin 32) :
    mixingHalves y1 y2 Wa Wb b1 W2 b2 (ix2 p q) = mix (fun l => y1 (ix2 p l)) (fun l => y2 (ix2 p l)) Wa Wb b1 W2 b2 q := rfl

theorem poolWords_apply {N G : Nat} (bt : (⟨2, ![N, 1]⟩ : Shape).Idx → BitVec 32) (h : Mat N 32) (g : Fin G) (q : Fin 32) :
    poolWords (G := G) bt h (ix2 g q) = ∑ e : Fin N, if bt (ix2 e (0 : Fin 1)) = BitVec.ofNat 32 g.val then h (ix2 e q) else 0 := rfl

theorem relu_apply {N C : Nat} (y : Mat N C) (i : (⟨2, ![N, C]⟩ : Shape).Idx) : relu y i = max (y i) 0 := rfl

theorem gin_apply {N K : Nat} (x agg : Mat N K) (W1 : Mat K 32) (b1 : Vect 32) (W2 : Mat 32 32) (b2 : Vect 32) (p : Fin N) (q : Fin 32) :
    gin x agg W1 b1 W2 b2 (ix2 p q) = mlp (fun l => x (ix2 p l) + agg (ix2 p l)) W1 b1 W2 b2 q := rfl

theorem mixing_apply {N : Nat} (y1 y2 : Mat N 32) (W1 : Mat 64 32) (b1 : Vect 32) (W2 : Mat 32 32) (b2 : Vect 32) (p : Fin N) (q : Fin 32) :
    mixing y1 y2 W1 b1 W2 b2 (ix2 p q) = mlp (beside (fun l => y1 (ix2 p l)) (fun l => y2 (ix2 p l))) W1 b1 W2 b2 q := rfl

theorem beside_lo (r1 r2 : Fin 32 → EReal) (l : Fin 32) : beside r1 r2 (lo l) = r1 l := by
  unfold beside; rw [dif_pos l.isLt]
theorem beside_hi (r1 r2 : Fin 32 → EReal) (l : Fin 32) : beside r1 r2 (hi l) = r2 l := by
  unfold beside
  rw [dif_neg (by show ¬ (32 + l.val < 32); omega)]
  exact congrArg r2 (Fin.ext (by show 32 + l.val - 32 = l.val; omega))

/-- The mixing layer at `(p, q)` over the two halves of the first weight matrix. -/
theorem mixing_apply_split {N : Nat} (y1 y2 : Mat N 32) (W1 : Mat 64 32) (b1 : Vect 32) (W2 : Mat 32 32) (b2 : Vect 32) (p : Fin N) (q : Fin 32) :
    mixing y1 y2 W1 b1 W2 b2 (ix2 p q)
      = mix (fun l => y1 (ix2 p l)) (fun l => y2 (ix2 p l)) (fun i => W1 (ix2 (lo (i 0)) (i 1))) (fun i => W1 (ix2 (hi (i 0)) (i 1))) b1 W2 b2 q := by
  rw [mixing_apply, mlp_split]
  simp only [beside_lo, beside_hi]

/-! ## The whole network -/

/-- An edge list: two rows (source, target) of 1600000 index words. -/
abbrev Edges := (⟨2, ![2, 1600000]⟩ : Shape).Idx → BitVec 32

/-- The network on 100000 nodes and 1000 graphs, over ANY neighbour aggregation (`A64` on 64 features, `A32` on 32:
    both programs compute the aggregation by the same host operations, so it stays a parameter): two
    graph-isomorphism layers per edge list, mixed; again on the mixed features, rectified, mixed; pooled per graph;
    read out. -/
def network (A64 : Mat 100000 64 → Edges → Mat 100000 64) (A32 : Mat 100000 32 → Edges → Mat 100000 32)
    (x : Mat 100000 64) (eL eG : Edges) (bt : (⟨1, ![100000]⟩ : Shape).Idx → BitVec 32)
    (c11W1 : Mat 64 32) (c11b1 : Vect 32) (c11W2 : Mat 32 32) (c11b2 : Vect 32)
    (c12W1 : Mat 64 32) (c12b1 : Vect 32) (c12W2 : Mat 32 32) (c12b2 : Vect 32)
    (m1W1 : Mat 64 32) (m1b1 : Vect 32) (m1W2 : Mat 32 32) (m1b2 : Vect 32)
    (c21W1 : Mat 32 32) (c21b1 : Vect 32) (c21W2 : Mat 32 32) (c21b2 : Vect 32)
    (c22W1 : Mat 32 32) (c22b1 : Vect 32) (c22W2 : Mat 32 32) (c22b2 : Vect 32)
    (m2W1 : Mat 64 32) (m2b1 : Vect 32) (m2W2 : Mat 32 32) (m2b2 : Vect 32)
    (linW : Mat 32 1) (linb : Vect 1) : Vect 1000 :=
  let x1 := gin x (A64 x eL) c11W1 c11b1 c11W2 c11b2
  let x2 := gin x (A64 x eG) c12W1 c12b1 c12W2 c12b2
  let h := mixing x1 x2 m1W1 m1b1 m1W2 m1b2
  let y1 := relu (gin h (A32 h eL) c21W1 c21b1 c21W2 c21b2)
  let y2 := relu (gin h (A32 h eG) c22W1 c22b1 c22W2 c22b2)
  let h2 := mixing y1 y2 m2W1 m2b1 m2W2 m2b2
  readout (pool bt h2) linW linb

/-- The 100000 nodes are 50 consecutive blocks of 2000. -/
theorem sum_rows {M : Type*} [AddCommMonoid M] (f : Fin 100000 → M) :
    ∑ t : Fin 50, ∑ p : Fin 2000, f ⟨2000 * t.val + p.val, by omega⟩ = ∑ e : Fin 100000, f e :=
  Cert.BlockSum.sum_blocks 50 2000 f

end Cert.Spec

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.KLaws.lean ====
/-
  The host's layout operations between the kernel's calls, read entry by entry, and the two laws that tie them to
  the network function. Rows 0..31 and rows 32..63 of the 64 × 32 first weight matrix are exactly the two 32 × 32
  matrices the split form of the mixing perceptron contracts with, so the mixing layer over the two halves is the
  mixing layer over the whole matrix. A reshape keeps row-major positions, so row `e` of the 100000 × 1 column of
  graph words is the word of node `e`. A 32-bit word equals the word of `g < 1024` exactly when its signed reading
  is `g`; so the indicator sum over "the word IS `g`" is the sum over the nodes whose word READS `g`, and row
  `g < 1000` of the 1024-row pooling is the per-graph sum. The read-out of the first 1000 rows is, at graph `g`, that
  row contracted with the weight column plus the one bias entry: the network's read-out.
-/
import proofs.«412192_j67508295958858_4_alg».proof.Proof.KHost
import proofs.«412192_j67508295958858_4_alg».proof.Proof.Spec
import proofs.«412192_j67508295958858_4_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open scoped BigOperators

/-- The upper half of the first weight matrix at `(l, k)` is the matrix at row `l`. -/
theorem upper_apply (W : Arr S64x32 .f32) (l k : Fin 32) : upper W (ix2 l k) = W (ix2 (Cert.Spec.lo l) k) := by
  unfold upper
  refine extractStridedSlice_apply _ W slices_S64x32_S32x32_0_0 (ix2 l k) (ix2 (Cert.Spec.lo l) k) fun a => ?_
  match a with
  | ⟨0, _⟩ => show l.val = 0 + l.val; omega
  | ⟨1, _⟩ => show k.val = 0 + k.val; omega

/-- The lower half of the first weight matrix at `(l, k)` is the matrix at row `32 + l`. -/
theorem lower_apply (W : Arr S64x32 .f32) (l k : Fin 32) : lower W (ix2 l k) = W (ix2 (Cert.Spec.hi l) k) := by
  unfold lower
  refine extractStridedSlice_apply _ W slices_S64x32_S32x32_32_0 (ix2 l k) (ix2 (Cert.Spec.hi l) k) fun a => ?_
  match a with
  | ⟨0, _⟩ => show 32 + l.val = 32 + l.val; rfl
  | ⟨1, _⟩ => show k.val = 0 + k.val; omega

/-- The upper half as a function of the index: the whole matrix read at the first 32 rows. -/
theorem upper_eq (W : Arr S64x32 .f32) :
    (upper W : Cert.Spec.Mat 32 32) = fun i => W (ix2 (Cert.Spec.lo (i 0)) (i 1)) := by
  funext i
  obtain ⟨l, k, rfl⟩ : ∃ (l k : Fin 32), i = ix2 l k := ⟨i 0, i 1, eq_ix2 i⟩
  exact upper_apply W l k

/-- The lower half as a function of the index: the whole matrix read at the last 32 rows. -/
theorem lower_eq (W : Arr S64x32 .f32) :
    (lower W : Cert.Spec.Mat 32 32) = fun i => W (ix2 (Cert.Spec.hi (i 0)) (i 1)) := by
  funext i
  obtain ⟨l, k, rfl⟩ : ∃ (l k : Fin 32), i = ix2 l k := ⟨i 0, i 1, eq_ix2 i⟩
  exact lower_apply W l k

/-- The mixing layer over the two halves the host cuts IS the mixing layer over the whole first weight matrix. -/
theorem mixingHalves_upper_lower {N : Nat} (y1 y2 : Cert.Spec.Mat N 32) (W1 : Arr S64x32 .f32) (b1 : Arr S32 .f32) (W2 : Arr S32x32 .f32) (b2 : Arr S32 .f32) :
    Cert.Spec.mixingHalves y1 y2 (upper W1) (lower W1) b1 W2 b2 = Cert.Spec.mixing y1 y2 W1 b1 W2 b2 := by
  funext i
  obtain ⟨p, q, rfl⟩ : ∃ (p : Fin N) (q : Fin 32), i = ix2 p q := ⟨i 0, i 1, eq_ix2 i⟩
  rw [Cert.Spec.mixingHalves_apply, Cert.Spec.mixing_apply_split]
  exact congrArg₂ (fun Wa Wb : Cert.Spec.Mat 32 32 =>
    Cert.Spec.mix (fun l => y1 (ix2 p l)) (fun l => y2 (ix2 p l)) Wa Wb b1 W2 b2 q) (upper_eq W1) (lower_eq W1)

/-- The column of graph words at row `e` is the word of node `e`. -/
theorem column_apply (bt : Arr S100000 .i32) (e : Fin 100000) : column bt (ix2 e (0 : Fin 1)) = bt (ix1 e) := by
  unfold column
  refine shapeCast_apply bt shapeCasts_S100000_S100000x1 (ix2 e (0 : Fin 1)) (ix1 e) ?_
  rw [Shape.rowMajor_val_one, Shape.rowMajor_val_two]
  show e.val = e.val * 1 + 0
  omega

/-- A word is the word `g`, for `g` below 1024, exactly when it reads `g` as a signed integer. -/
theorem word_eq_iff (w : BitVec 32) (g : Nat) (hg : g < 1024) : w = BitVec.ofNat 32 g ↔ w.toInt = (g : ℤ) := by
  have hw : w.toNat < 2 ^ 32 := w.isLt
  rw [BitVec.toInt_eq_toNat_cond]
  constructor
  · rintro rfl
    rw [BitVec.toNat_ofNat, Nat.mod_eq_of_lt (by omega), if_pos (by omega)]
  · intro h
    apply BitVec.eq_of_toNat_eq
    rw [BitVec.toNat_ofNat, Nat.mod_eq_of_lt (by omega)]
    split at h <;> omega

/-- The per-graph sum at `(g, q)`: the sum of column `q` over the nodes whose word reads `g`. -/
theorem pool_apply {N G : Nat} (bt : (⟨1, ![N]⟩ : Shape).Idx → BitVec 32) (h : Cert.Spec.Mat N 32) (g : Fin G) (q : Fin 32) :
    Cert.Spec.pool (G := G) bt h (ix2 g q)
      = ∑ e ∈ Finset.univ.filter (fun e : Fin N => (bt (ix1 e)).toInt = (g.val : ℤ)), h (ix2 e q) := rfl

/-- Row `g < 1000` of the indicator-matrix pooling over 1024 rows is row `g` of the per-graph sum. -/
theorem poolWords_apply_pool (bt : Arr S100000 .i32) (h : Cert.Spec.Mat 100000 32) (g : Fin 1000) (q : Fin 32) :
    Cert.Spec.poolWords (G := 1024) (column bt) h (ix2 (⟨g.val, by omega⟩ : Fin 1024) q) = Cert.Spec.pool (G := 1000) bt h (ix2 g q) := by
  rw [Cert.Spec.poolWords_apply, pool_apply, Finset.sum_filter]
  refine Finset.sum_congr rfl fun e _ => ?_
  rw [column_apply]
  exact if_congr (word_eq_iff _ g.val (by omega)) rfl rfl

/-- The bias of the read-out, broadcast to a column, reads the one bias entry at every row. -/
theorem readoutBias_apply (b : Arr S1 .f32) (g : Fin 1000) :
    broadcastInDim S1000x1 ![0, 1] bcast_S1x1_S1000x1_0_1 (broadcastInDim S1x1 ![1] bcast_S1_S1x1_1 b) (ix2 g (0 : Fin 1))
      = b (ix1 (0 : Fin 1)) := by
  refine (broadcastInDim_apply _ bcast_S1x1_S1000x1_0_1 _ (ix2 g (0 : Fin 1)) (ix2 (0 : Fin 1) (0 : Fin 1)) fun a => ?_).trans ?_
  · match a with
    | ⟨0, _⟩ => rfl
    | ⟨1, _⟩ => rfl
  · refine broadcastInDim_apply _ bcast_S1_S1x1_1 b (ix2 (0 : Fin 1) (0 : Fin 1)) (ix1 (0 : Fin 1)) fun a => ?_
    match a with
    | ⟨0, _⟩ => rfl

/-- The host's product of the first 1000 pooled rows with the read-out weights, at row `g`: the contraction of
    the per-graph sums of graph `g` with the weight column. -/
theorem product_apply (bt : Arr S100000 .i32) (h : Cert.Spec.Mat 100000 32) (W : Arr S32x1 .f32) (g : Fin 1000) :
    Host.dotGeneral (F := Ideal) (φ₁ := .f32) (φ₂ := .f32) dot_S1000x32_S32x1_S1000x1_1_0_0_1_n_n none
        (extractStridedSlice S1000x32 ![0, 0] (Cert.Spec.poolWords (G := 1024) (column bt) h) slices_S1024x32_S1000x32_0_0) W
        (ix2 g (0 : Fin 1))
      = ∑ k : Fin 32, Cert.Spec.pool (G := 1000) bt h (ix2 g k) * W (ix2 k (0 : Fin 1)) := by
  simp only [Host.dotGeneral]
  refine (Cert.LibPlainDot.dotGeneral_apply dot_S1000x32_S32x1_S1000x1_1_0_0_1_n_n rfl rfl rfl rfl rfl rfl none .single _ W g (0 : Fin 1)).trans ?_
  refine Finset.sum_congr rfl fun k _ => ?_
  refine congrArg (· * W (ix2 k (0 : Fin 1))) ?_
  have hg : g.val < 1024 := by omega
  refine Eq.trans (extractStridedSlice_apply _ _ slices_S1024x32_S1000x32_0_0
    (ix2 g k) (ix2 (⟨g.val, hg⟩ : Fin 1024) k) fun a => ?_) (poolWords_apply_pool bt h g k)
  match a with
  | ⟨0, _⟩ => show g.val = 0 + g.val; omega
  | ⟨1, _⟩ => show k.val = 0 + k.val; omega

/-- THE TAIL: the read-out on the first 1000 rows of the 1024-row pooled array is the network's read-out of the
    per-graph sums. -/
theorem tail_poolWords (bt : Arr S100000 .i32) (h : Cert.Spec.Mat 100000 32) (W : Arr S32x1 .f32) (b : Arr S1 .f32) :
    tail (Cert.Spec.poolWords (G := 1024) (column bt) h) W b = Cert.Spec.readout (Cert.Spec.pool (G := 1000) bt h) W b := by
  funext i
  obtain ⟨g, rfl⟩ : ∃ g : Fin 1000, i = ix1 g := ⟨i 0, eq_ix1 i⟩
  unfold tail
  refine (shapeCast_apply _ shapeCasts_S1000x1_S1000 (ix1 g) (ix2 g (0 : Fin 1)) ?_).trans ?_
  · rw [Shape.rowMajor_val_two, Shape.rowMajor_val_one]
    show g.val * 1 + 0 = g.val
    omega
  · refine (addf_apply _ _ _).trans ?_
    exact congrArg₂ (· + ·) (product_apply bt h W g) (readoutBias_apply b g)

end Cert.KernelIdeal.Val

end
-- ==== Proof.KPayGin.lean ====
/-
  The value the four graph-isomorphism kernels store, read at one entry (p, q) of a block of 2000 rows.
  Each body adds the node features and the aggregated neighbour features entrywise, multiplies the sum by the first
  weight matrix into a zero accumulator, adds the first bias along the rows, takes the maximum with zero, multiplies
  by the second weight matrix and adds the second bias. Over the extended reals a product into the zero accumulator,
  read at (p, q), is the contraction of row p with column q; a bias laid along the rows reads its entry q; entrywise
  operations act on the entries. So the stored entry is the two-layer perceptron of the row x(p, ·) + agg(p, ·) at
  column q. The two 64-feature layers stop there; the two 32-feature layers end with one more maximum with zero.
-/
import proofs.«412192_j67508295958858_4_alg».proof.Proof.Gen.KernelIdeal.Skeleton
import proofs.«412192_j67508295958858_4_alg».proof.Proof.Spec
import proofs.«412192_j67508295958858_4_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open scoped BigOperators

/-- A bias vector laid along the rows (cast [32] → [1, 32], then repeated on 2000 rows): entry (p, q) is its entry q. -/
theorem bias_apply (b : Vec Ideal S32 .f32) (p : Fin 2000) (q : Fin 32) :
    broadcastTo S2000x32 (shapeCast S1x32 b shapeCasts_S32_S1x32) broadcasts_S1x32_S2000x32 (ix2 p q) = b (ix1 q) := by
  refine (broadcastTo_apply _ broadcasts_S1x32_S2000x32 (ix2 p q) (ix2 (0 : Fin 1) q) ?_).trans ?_
  · intro a
    match a with
    | ⟨0, _⟩ => rfl
    | ⟨1, _⟩ => rfl
  · refine (shapeCast_addUnit_apply (n := 1) ![32] b shapeCasts_S32_S1x32 (ix2 (0 : Fin 1) q)).trans ?_
    refine congrArg b (funext fun a => ?_)
    match a with
    | ⟨0, _⟩ => rfl

/-- One dense layer on the block: the product of a [2000, K] block with a [K, 32] weight into the zero accumulator,
    plus the bias along the rows. Entry (p, q) is the contraction of row p with column q, plus the bias at q. -/
theorem dense_apply {K : Nat} (d : DotDims ⟨2, ![2000, K]⟩ ⟨2, ![K, 32]⟩ ⟨2, ![2000, 32]⟩)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![2000, K]⟩ .f32) (W : FVec Ideal ⟨2, ![K, 32]⟩ .f32) (b : Vec Ideal S32 .f32)
    (p : Fin 2000) (q : Fin 32) :
    addf (F := Ideal) (matmul (F := Ideal) d none a W (constant (F := Ideal) S2000x32 .f32 0x00000000#32))
        (broadcastTo S2000x32 (shapeCast S1x32 b shapeCasts_S32_S1x32) broadcasts_S1x32_S2000x32) (ix2 p q)
      = (∑ k : Fin K, a (ix2 p k) * W (ix2 k q)) + b (ix1 q) :=
  congrArg₂ (fun u v : EReal => u + v) (Cert.LibPlainDot.matmul_zero_apply d hlc hrc hln hrn hlb hrb none a W p q) (bias_apply b p q)

/-- The two-layer perceptron as the block computes it — dense layer, maximum with the zero splat, dense layer — read
    at (p, q): the perceptron of row p of the block's input, at column q. -/
theorem mlp_apply {K : Nat} (d : DotDims ⟨2, ![2000, K]⟩ ⟨2, ![K, 32]⟩ ⟨2, ![2000, 32]⟩)
    (hlc : d.lhsContracting = [1]) (hrc : d.rhsContracting = [0]) (hln : d.lhsNonContracting = [0])
    (hrn : d.rhsNonContracting = [1]) (hlb : d.lhsBatch = []) (hrb : d.rhsBatch = [])
    (r : FVec Ideal ⟨2, ![2000, K]⟩ .f32) (W1 : FVec Ideal ⟨2, ![K, 32]⟩ .f32) (b1 : Vec Ideal S32 .f32)
    (W2 : FVec Ideal S32x32 .f32) (b2 : Vec Ideal S32 .f32) (p : Fin 2000) (q : Fin 32) :
    addf (F := Ideal) (matmul (F := Ideal) dot_S2000x32_S32x32_S2000x32_1_0_0_1_n_n none
          (maximumf (F := Ideal)
            (addf (F := Ideal) (matmul (F := Ideal) d none r W1 (constant (F := Ideal) S2000x32 .f32 0x00000000#32))
              (broadcastTo S2000x32 (shapeCast S1x32 b1 shapeCasts_S32_S1x32) broadcasts_S1x32_S2000x32))
            (broadcast S2000x32 (Scalar.ofBits (F := Ideal) .f32 0x00000000#32)))
          W2 (constant (F := Ideal) S2000x32 .f32 0x00000000#32))
        (broadcastTo S2000x32 (shapeCast S1x32 b2 shapeCasts_S32_S1x32) broadcasts_S1x32_S2000x32) (ix2 p q)
      = Cert.Spec.mlp (fun l => r (ix2 p l)) W1 b1 W2 b2 q := by
  refine (dense_apply dot_S2000x32_S32x32_S2000x32_1_0_0_1_n_n rfl rfl rfl rfl rfl rfl _ W2 b2 p q).trans ?_
  unfold Cert.Spec.mlp Cert.Spec.outer
  refine congrArg (fun u : EReal => u + b2 (ix1 q)) (Finset.sum_congr rfl fun k _ => ?_)
  refine congrArg (fun u : EReal => u * W2 (ix2 k q)) ?_
  refine (maximumf_apply _ _ _).trans ?_
  refine congrArg₂ (fun u v : EReal => max u v) ?_ Ideal.ofBits_zero_f32
  exact dense_apply d hlc hrc hln hrn hlb hrb r W1 b1 p k

theorem k0_pay1_apply (x agg : Vec Ideal S2000x64 .f32) (W1 : Vec Ideal S64x32 .f32) (b1 : Vec Ideal S32 .f32)
    (W2 : Vec Ideal S32x32 .f32) (b2 : Vec Ideal S32 .f32) (p : Fin 2000) (q : Fin 32) :
    k0_pay1 (F := Ideal) x agg W1 b1 W2 b2 (ix2 p q) = Cert.Spec.mlp (fun l => x (ix2 p l) + agg (ix2 p l)) W1 b1 W2 b2 q := by
  unfold k0_pay1
  refine (mlp_apply dot_S2000x64_S64x32_S2000x32_1_0_0_1_n_n rfl rfl rfl rfl rfl rfl _ W1 b1 W2 b2 p q).trans ?_
  refine congrArg (fun r => Cert.Spec.mlp r W1 b1 W2 b2 q) (funext fun l => ?_)
  exact congrArg (fun u : EReal => x (ix2 p l) + u) (congrFun (shapeCast_self agg shapeCasts_S2000x64_S2000x64) (ix2 p l))

theorem k1_pay1_apply (x agg : Vec Ideal S2000x64 .f32) (W1 : Vec Ideal S64x32 .f32) (b1 : Vec Ideal S32 .f32)
    (W2 : Vec Ideal S32x32 .f32) (b2 : Vec Ideal S32 .f32) (p : Fin 2000) (q : Fin 32) :
    k1_pay1 (F := Ideal) x agg W1 b1 W2 b2 (ix2 p q) = Cert.Spec.mlp (fun l => x (ix2 p l) + agg (ix2 p l)) W1 b1 W2 b2 q := by
  unfold k1_pay1
  refine (mlp_apply dot_S2000x64_S64x32_S2000x32_1_0_0_1_n_n rfl rfl rfl rfl rfl rfl _ W1 b1 W2 b2 p q).trans ?_
  refine congrArg (fun r => Cert.Spec.mlp r W1 b1 W2 b2 q) (funext fun l => ?_)
  exact congrArg (fun u : EReal => x (ix2 p l) + u) (congrFun (shapeCast_self agg shapeCasts_S2000x64_S2000x64) (ix2 p l))

theorem k3_pay1_apply (x agg : Vec Ideal S2000x32 .f32) (W1 : Vec Ideal S32x32 .f32) (b1 : Vec Ideal S32 .f32)
    (W2 : Vec Ideal S32x32 .f32) (b2 : Vec Ideal S32 .f32) (p : Fin 2000) (q : Fin 32) :
    k3_pay1 (F := Ideal) x agg W1 b1 W2 b2 (ix2 p q) = max (Cert.Spec.mlp (fun l => x (ix2 p l) + agg (ix2 p l)) W1 b1 W2 b2 q) 0 := by
  unfold k3_pay1
  refine (maximumf_apply _ _ _).trans ?_
  refine congrArg₂ (fun u v : EReal => max u v) ?_ Ideal.ofBits_zero_f32
  refine (mlp_apply dot_S2000x32_S32x32_S2000x32_1_0_0_1_n_n rfl rfl rfl rfl rfl rfl _ W1 b1 W2 b2 p q).trans ?_
  refine congrArg (fun r => Cert.Spec.mlp r W1 b1 W2 b2 q) (funext fun l => ?_)
  exact congrArg₂ (fun u v : EReal => u + v) (congrFun (shapeCast_self x shapeCasts_S2000x32_S2000x32) (ix2 p l))
    (congrFun (shapeCast_self agg shapeCasts_S2000x32_S2000x32) (ix2 p l))

theorem k4_pay1_apply (x agg : Vec Ideal S2000x32 .f32) (W1 : Vec Ideal S32x32 .f32) (b1 : Vec Ideal S32 .f32)
    (W2 : Vec Ideal S32x32 .f32) (b2 : Vec Ideal S32 .f32) (p : Fin 2000) (q : Fin 32) :
    k4_pay1 (F := Ideal) x agg W1 b1 W2 b2 (ix2 p q) = max (Cert.Spec.mlp (fun l => x (ix2 p l) + agg (ix2 p l)) W1 b1 W2 b2 q) 0 := by
  unfold k4_pay1
  refine (maximumf_apply _ _ _).trans ?_
  refine congrArg₂ (fun u v : EReal => max u v) ?_ Ideal.ofBits_zero_f32
  refine (mlp_apply dot_S2000x32_S32x32_S2000x32_1_0_0_1_n_n rfl rfl rfl rfl rfl rfl _ W1 b1 W2 b2 p q).trans ?_
  refine congrArg (fun r => Cert.Spec.mlp r W1 b1 W2 b2 q) (funext fun l => ?_)
  exact congrArg₂ (fun u v : EReal => u + v) (congrFun (shapeCast_self x shapeCasts_S2000x32_S2000x32) (ix2 p l))
    (congrFun (shapeCast_self agg shapeCasts_S2000x32_S2000x32) (ix2 p l))

end Cert.KernelIdeal.Val

end
-- ==== Proof.KRegionGin.lean ====
/-
  What the four graph-isomorphism regions leave in their output arrays, as whole-array functions of the arrays they find.

  Each region runs over 50 grid points. At point `t` the node features and the aggregated neighbours are read as
  their rows `2000 t … 2000 t + 1999`, the two weight matrices and the two biases are read whole, and the point
  stores one `2000 × 32` block: at `(p, q)` the two-layer perceptron of the summed rows `p` (rectified in the two
  regions on 32 features). Row `p` of block `t` is row `2000 t + p` of the array, so what the point writes back is
  block `t` of the layer computed on the whole arrays; every row `r` below 100000 lies in block `r / 2000`, so the 50
  blocks cover the output array, which therefore ends holding the layer (the rectified layer) of the whole arrays.
-/
import proofs.«412192_j67508295958858_4_alg».proof.Proof.Gen.KernelIdeal.Frame
import proofs.«412192_j67508295958858_4_alg».proof.Proof.Spec
import proofs.«412192_j67508295958858_4_alg».proof.Proof.KPayGin
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open scoped BigOperators
open Idealize.ShloMosaic.Pipeline (Dat Cfg Window)

/-! ## The arithmetic every region shares -/

/-- Two zero offsets, however they are spelt. -/
theorem zeros2 : (![0, 0] : Fin 2 → Nat) = fun _ => 0 := funext fun a => by fin_cases a <;> rfl
/-- One zero offset. -/
theorem zeros1 : (![0] : Fin 1 → Nat) = fun _ => 0 := funext fun a => by fin_cases a <;> rfl

/-- Row `2000 n + p` of the 100000 rows: row `p` of the `n`-th block of 2000, for `n` below 50. -/
abbrev blockRow (n : Nat) (hn : n < 50) (p : Fin 2000) : Fin 100000 := ⟨n * 2000 + p.val, by omega⟩

/-- The perceptron on a row of the `n`-th row blocks of two arrays, summed, is the layer at that row of the whole
    arrays: the blocks `x`, `a` hold rows `2000 n + p` of `X`, `A`, the weights and biases are read whole, and `i` is the
    index `(2000 n + p, q)` of the result. -/
theorem rows_gin {K : Nat} (X A : Cert.Spec.Mat 100000 K) (W1 : Cert.Spec.Mat K 32) (b1 : Cert.Spec.Vect 32)
    (W2 : Cert.Spec.Mat 32 32) (b2 : Cert.Spec.Vect 32)
    (x a : Cert.Spec.Mat 2000 K) (w1 : Cert.Spec.Mat K 32) (c1 : Cert.Spec.Vect 32) (w2 : Cert.Spec.Mat 32 32) (c2 : Cert.Spec.Vect 32)
    (n : Nat) (hn : n < 50)
    (hx : ∀ (p : Fin 2000) (l : Fin K), x (ix2 p l) = X (ix2 (blockRow n hn p) l))
    (ha : ∀ (p : Fin 2000) (l : Fin K), a (ix2 p l) = A (ix2 (blockRow n hn p) l))
    (hw1 : w1 = W1) (hc1 : c1 = b1) (hw2 : w2 = W2) (hc2 : c2 = b2)
    (p : Fin 2000) (q : Fin 32) (i : (⟨2, ![100000, 32]⟩ : Shape).Idx)
    (hi0 : (i 0).val = n * 2000 + p.val) (hi1 : (i 1).val = q.val) :
    Cert.Spec.mlp (fun l => x (ix2 p l) + a (ix2 p l)) w1 c1 w2 c2 q = Cert.Spec.gin X A W1 b1 W2 b2 i := by
  obtain rfl : i = ix2 (blockRow n hn p) q := by
    funext d
    apply Fin.ext
    match d with
    | ⟨0, _⟩ => exact hi0
    | ⟨1, _⟩ => exact hi1
  subst hw1 hc1 hw2 hc2
  rw [Cert.Spec.gin_apply]
  refine congrArg (fun r => Cert.Spec.mlp r w1 c1 w2 c2 q) (funext fun l => ?_)
  rw [hx, ha]

variable (V : (c : Dev nD) → (b : Ref sig .tc) → Buf (Elt Ideal) ((c : Thread nD τ).loc b))

/-! ## Region 0: the first graph-isomorphism layer on 64 features, first edge list -/

/-- A point of region 0's grid is below 50. -/
theorem point_lt0 (t : Fin cfg0.N) : t.val < 50 := lt_of_lt_of_eq t.isLt N_0

/-- The block indices over region 0's grid: the two row-blocked inputs and the output are at block `(t, 0)`, the weights
    and biases at block `0` of their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The node features' block at point `t` holds rows `2000 t + p` of the array. -/
theorem blk0_0 (c : Dev nD) (t : Fin cfg0.N) (p : Fin 2000) (l : Fin 64) :
    (iblk0 V c 0 t : Vec Ideal S2000x64 .f32) (ix2 p l)
      = (V c main_arg0 : S100000x64.Idx → EReal) (ix2 (blockRow t.val (point_lt0 t) p) l) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 64 + 1 * l.val = l.val; rw [e1]; omega

/-- The aggregated neighbours' block at point `t` holds rows `2000 t + p` of the array. -/
theorem blk0_1 (c : Dev nD) (t : Fin cfg0.N) (p : Fin 2000) (l : Fin 64) :
    (iblk0 V c 1 t : Vec Ideal S2000x64 .f32) (ix2 p l)
      = (V c main_v13 : S100000x64.Idx → EReal) (ix2 (blockRow t.val (point_lt0 t) p) l) := by
  obtain ⟨-, -, e0, e1, -⟩ := idx_facts0 t
  unfold iblk0
  rw [View.read_apply]
  show V c main_v13 _ = V c main_v13 _
  congr 1
  funext a
  apply Fin.ext
  match a with
  | ⟨0, _⟩ => show win0_1.index t (0 : Fin 2) * 2000 + 1 * p.val = t.val * 2000 + p.val; rw [e0]; omega
  | ⟨1, _⟩ => show win0_1.index t (1 : Fin 2) * 64 + 1 * l.val = l.val; rw [e1]; omega

/-- The first weight matrix's one block is the matrix. -/
theorem blk0_2 (c : Dev nD) (t : Fin cfg0.N) :
    (iblk0 V c 2 t : Vec Ideal S64x32 .f32) = (V c main_arg4 : S64x32.Idx → EReal) := by
  obtain ⟨-, -, -, -, e0, e1, -⟩ := idx_facts0 t
  funext y
  unfold iblk0
  rw [View.read_apply]
  show V c main_arg4 _ = V c main_arg4 y
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 32 + 1 * (y 1).val = (y 1).val; rw [e1]; omega

/-- The first bias's one block is the bias. -/
theorem blk0_3 (c : Dev nD) (t : Fin cfg0.N) :
    (iblk0 V c 3 t : Vec Ideal S32 .f32) = (V c main_arg5 : S32.Idx → EReal) := by
  obtain ⟨-, -, -, -, -, -, e0, -⟩ := idx_facts0 t
  funext y
  unfold iblk0
  rw [View.read_apply]
  show V c main_arg5 _ = V c main_arg5 y
  congr 1
  funext a
  apply Fin.ext
  match a with
  | ⟨0, _⟩ => show win0_3.index t (0 : Fin 1) * 32 + 1 * (y 0).val = (y 0).val; rw [e0]; omega

/-- The second weight matrix's one block is the matrix. -/
theorem blk0_4 (c : Dev nD) (t : Fin cfg0.N) :
    (iblk0 V c 4 t : Vec Ideal S32x32 .f32) = (V c main_arg6 : S32x32.Idx → EReal) := by
  obtain ⟨-, -, -, -, -, -, -, e0, e1, -⟩ := idx_facts0 t
  funext y
  unfold iblk0
  rw [View.read_apply]
  show V c main_arg6 _ = V c main_arg6 y
  congr 1
  funext a
  apply Fin.ext
  match a with
  | ⟨0, _⟩ => show win0_4.index t (0 : Fin 2) * 32 + 1 * (y 0).val = (y 0).val; rw [e0]; omega
  | ⟨1, _⟩ => show win0_4.index t (1 : Fin 2) * 32 + 1 * (y 1).val = (y 1).val; rw [e1]; omega

/-- The second bias's one block is the bias. -/
theorem blk0_5 (c : Dev nD) (t : Fin cfg0.N) :
    (iblk0 V c 5 t : Vec Ideal S32 .f32) = (V c main_arg7 : S32.Idx → EReal) := by
  obtain ⟨-, -, -, -, -, -, -, -, -, e0, -⟩ := idx_facts0 t
  funext y
  unfold iblk0
  rw [View.read_apply]
  show V c main_arg7 _ = V c main_arg7 y
  congr 1
  funext a
  apply Fin.ext
  match a with
  | ⟨0, _⟩ => show win0_5.index t (0 : Fin 1) * 32 + 1 * (y 0).val = (y 0).val; rw [e0]; omega

/-- What point `t` writes back is block `t` of the layer on the whole arrays. -/
theorem flushed0_eq (c : Dev nD) (t : Fin cfg0.N) :
    (dat0 V c).flushed 6 t = ((cfg0.win 6).blk t).view.read (Elt Ideal)
      (Cert.Spec.gin (V c main_arg0) (V c main_v13) (V c main_arg4) (V c main_arg5) (V c main_arg6) (V c main_arg7)) := by
  show (cfg0.win 6).cut (grid0.coords t) ((dat0 V c).after 6 t) = _
  rw [after0_6]
  unfold out0_6
  rw [View.canon_unit_zero zeros2]
  simp only [View.ld_unit_zero (S := S2000x64) zeros2, View.ld_unit_zero (S := S64x32) zeros2,
    View.ld_unit_zero (S := S32) zeros1, View.ld_unit_zero (S := S32x32) zeros2]
  obtain ⟨-, -, -, -, -, -, -, -, -, -, e0, e1⟩ := idx_facts0 t
  funext j
  obtain ⟨p, q, rfl⟩ : ∃ (p : Fin 2000) (q : Fin 32), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = Cert.Spec.gin (V c main_arg0) (V c main_v13) (V c main_arg4) (V c main_arg5) (V c main_arg6) (V c main_arg7)
        (((cfg0.win 6).blk t).view.emb (ix2 p q))
  refine (k0_pay1_apply _ _ _ _ _ _ p q).trans ?_
  refine rows_gin (K := 64) (V c main_arg0) (V c main_v13) (V c main_arg4) (V c main_arg5) (V c main_arg6) (V c main_arg7)
    (iblk0 V c 0 t) (iblk0 V c 1 t) (iblk0 V c 2 t) (iblk0 V c 3 t) (iblk0 V c 4 t) (iblk0 V c 5 t)
    t.val (point_lt0 t) (blk0_0 V c t) (blk0_1 V c t) (blk0_2 V c t) (blk0_3 V c t) (blk0_4 V c t) (blk0_5 V c t) p q _ ?_ ?_
  · show win0_6.index t (0 : Fin 2) * 2000 + 1 * p.val = t.val * 2000 + p.val
    rw [e0]; omega
  · show win0_6.index t (1 : Fin 2) * 32 + 1 * q.val = q.val
    rw [e1]; omega

/-- An index of the output array is in point `t`'s block iff each coordinate is in the block's range on its axis. -/
theorem mem_blk0 (t : Fin cfg0.N) (i : S100000x32.Idx) :
    i ∈ ((cfg0.win 6).blk t).view.set ↔ ∀ a : Fin 2, win0_6.index t a * S2000x32.size a ≤ (i a).val
      ∧ (i a).val < win0_6.index t a * S2000x32.size a + S2000x32.size a := by
  show i ∈ ((View.whole main_v14).slice (win0_6.rect t)).set ↔ _
  rw [View.set_slice_whole, Rect.mem_set_unit]
  exact Iff.rfl

/-- Every index of the output array is in the block of the point its row's block number names. -/
theorem cover0 (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, ht⟩ : ∃ t : Fin cfg0.N, t.val = (i 0).val / 2000 :=
    ⟨⟨(i 0).val / 2000, lt_of_lt_of_eq (by omega) N_0.symm⟩, rfl⟩
  obtain ⟨-, -, -, -, -, -, -, -, -, -, e0, e1⟩ := idx_facts0 t
  refine ⟨t, flush0_6 t, ?_⟩
  rw [mem_blk0]
  intro a
  match a with
  | ⟨0, _⟩ =>
    show win0_6.index t (0 : Fin 2) * 2000 ≤ (i 0).val ∧ (i 0).val < win0_6.index t (0 : Fin 2) * 2000 + 2000
    rw [e0]; omega
  | ⟨1, _⟩ =>
    show win0_6.index t (1 : Fin 2) * 32 ≤ (i 1).val ∧ (i 1).val < win0_6.index t (1 : Fin 2) * 32 + 32
    rw [e1]; omega

/-- Region 0's output array ends holding the layer of the node features and the first edge list's aggregation. -/
theorem region0 (c : Dev nD) :
    (dat0 (F := Ideal) V c).arrAt 6 cfg0.N
      = Cert.Spec.gin (V c main_arg0) (V c main_v13) (V c main_arg4) (V c main_arg5) (V c main_arg6) (V c main_arg7) :=
  (dat0 V c).arrAt_eq_of_cover 6
    (Cert.Spec.gin (V c main_arg0) (V c main_v13) (V c main_arg4) (V c main_arg5) (V c main_arg6) (V c main_arg7))
    (fun t _ => flushed0_eq V c t) cover0

/-! ## Region 1: the first graph-isomorphism layer on 64 features, second edge list -/

/-- A point of region 1's grid is below 50. -/
theorem point_lt1 (t : Fin cfg1.N) : t.val < 50 := lt_of_lt_of_eq t.isLt N_1

/-- The block indices over region 1's grid: the two row-blocked inputs and the output are at block `(t, 0)`, the weights
    and biases at block `0` of their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The node features' block at point `t` holds rows `2000 t + p` of the array. -/
theorem blk1_0 (c : Dev nD) (t : Fin cfg1.N) (p : Fin 2000) (l : Fin 64) :
    (iblk1 V c 0 t : Vec Ideal S2000x64 .f32) (ix2 p l)
      = (V c main_arg0 : S100000x64.Idx → EReal) (ix2 (blockRow t.val (point_lt1 t) p) l) := by
  obtain ⟨e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 2000 + 1 * p.val = t.val * 2000 + p.val; rw [e0]; omega
  | ⟨1, _⟩ => show win1_0.index t (1 : Fin 2) * 64 + 1 * l.val = l.val; rw [e1]; omega

/-- The aggregated neighbours' block at point `t` holds rows `2000 t + p` of the array. -/
theorem blk1_1 (c : Dev nD) (t : Fin cfg1.N) (p : Fin 2000) (l : Fin 64) :
    (iblk1 V c 1 t : Vec Ideal S2000x64 .f32) (ix2 p l)
      = (V c main_v28 : S100000x64.Idx → EReal) (ix2 (blockRow t.val (point_lt1 t) p) l) := by
  obtain ⟨-, -, e0, e1, -⟩ := idx_facts1 t
  unfold iblk1
  rw [View.read_apply]
  show V c main_v28 _ = V c main_v28 _
  congr 1
  funext a
  apply Fin.ext
  match a with
  | ⟨0, _⟩ => show win1_1.index t (0 : Fin 2) * 2000 + 1 * p.val = t.val * 2000 + p.val; rw [e0]; omega
  | ⟨1, _⟩ => show win1_1.index t (1 : Fin 2) * 64 + 1 * l.val = l.val; rw [e1]; omega

/-- The first weight matrix's one block is the matrix. -/
theorem blk1_2 (c : Dev nD) (t : Fin cfg1.N) :
    (iblk1 V c 2 t : Vec Ideal S64x32 .f32) = (V c main_arg8 : S64x32.Idx → EReal) := by
  obtain ⟨-, -, -, -, e0, e1, -⟩ := idx_facts1 t
  funext y
  unfold iblk1
  rw [View.read_apply]
  show V c main_arg8 _ = V c main_arg8 y
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 32 + 1 * (y 1).val = (y 1).val; rw [e1]; omega

/-- The first bias's one block is the bias. -/
theorem blk1_3 (c : Dev nD) (t : Fin cfg1.N) :
    (iblk1 V c 3 t : Vec Ideal S32 .f32) = (V c main_arg9 : S32.Idx → EReal) := by
  obtain ⟨-, -, -, -, -, -, e0, -⟩ := idx_facts1 t
  funext y
  unfold iblk1
  rw [View.read_apply]
  show V c main_arg9 _ = V c main_arg9 y
  congr 1
  funext a
  apply Fin.ext
  match a with
  | ⟨0, _⟩ => show win1_3.index t (0 : Fin 1) * 32 + 1 * (y 0).val = (y 0).val; rw [e0]; omega

/-- The second weight matrix's one block is the matrix. -/
theorem blk1_4 (c : Dev nD) (t : Fin cfg1.N) :
    (iblk1 V c 4 t : Vec Ideal S32x32 .f32) = (V c main_arg10 : S32x32.Idx → EReal) := by
  obtain ⟨-, -, -, -, -, -, -, e0, e1, -⟩ := idx_facts1 t
  funext y
  unfold iblk1
  rw [View.read_apply]
  show V c main_arg10 _ = V c main_arg10 y
  congr 1
  funext a
  apply Fin.ext
  match a with
  | ⟨0, _⟩ => show win1_4.index t (0 : Fin 2) * 32 + 1 * (y 0).val = (y 0).val; rw [e0]; omega
  | ⟨1, _⟩ => show win1_4.index t (1 : Fin 2) * 32 + 1 * (y 1).val = (y 1).val; rw [e1]; omega

/-- The second bias's one block is the bias. -/
theorem blk1_5 (c : Dev nD) (t : Fin cfg1.N) :
    (iblk1 V c 5 t : Vec Ideal S32 .f32) = (V c main_arg11 : S32.Idx → EReal) := by
  obtain ⟨-, -, -, -, -, -, -, -, -, e0, -⟩ := idx_facts1 t
  funext y
  unfold iblk1
  rw [View.read_apply]
  show V c main_arg11 _ = V c main_arg11 y
  congr 1
  funext a
  apply Fin.ext
  match a with
  | ⟨0, _⟩ => show win1_5.index t (0 : Fin 1) * 32 + 1 * (y 0).val = (y 0).val; rw [e0]; omega

/-- What point `t` writes back is block `t` of the layer on the whole arrays. -/
theorem flushed1_eq (c : Dev nD) (t : Fin cfg1.N) :
    (dat1 V c).flushed 6 t = ((cfg1.win 6).blk t).view.read (Elt Ideal)
      (Cert.Spec.gin (V c main_arg0) (V c main_v28) (V c main_arg8) (V c main_arg9) (V c main_arg10) (V c main_arg11)) := by
  show (cfg1.win 6).cut (grid1.coords t) ((dat1 V c).after 6 t) = _
  rw [after1_6]
  unfold out1_6
  rw [View.canon_unit_zero zeros2]
  simp only [View.ld_unit_zero (S := S2000x64) zeros2, View.ld_unit_zero (S := S64x32) zeros2,
    View.ld_unit_zero (S := S32) zeros1, View.ld_unit_zero (S := S32x32) zeros2]
  obtain ⟨-, -, -, -, -, -, -, -, -, -, e0, e1⟩ := idx_facts1 t
  funext j
  obtain ⟨p, q, rfl⟩ : ∃ (p : Fin 2000) (q : Fin 32), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = Cert.Spec.gin (V c main_arg0) (V c main_v28) (V c main_arg8) (V c main_arg9) (V c main_arg10) (V c main_arg11)
        (((cfg1.win 6).blk t).view.emb (ix2 p q))
  refine (k1_pay1_apply _ _ _ _ _ _ p q).trans ?_
  refine rows_gin (K := 64) (V c main_arg0) (V c main_v28) (V c main_arg8) (V c main_arg9) (V c main_arg10) (V c main_arg11)
    (iblk1 V c 0 t) (iblk1 V c 1 t) (iblk1 V c 2 t) (iblk1 V c 3 t) (iblk1 V c 4 t) (iblk1 V c 5 t)
    t.val (point_lt1 t) (blk1_0 V c t) (blk1_1 V c t) (blk1_2 V c t) (blk1_3 V c t) (blk1_4 V c t) (blk1_5 V c t) p q _ ?_ ?_
  · show win1_6.index t (0 : Fin 2) * 2000 + 1 * p.val = t.val * 2000 + p.val
    rw [e0]; omega
  · show win1_6.index t (1 : Fin 2) * 32 + 1 * q.val = q.val
    rw [e1]; omega

/-- An index of the output array is in point `t`'s block iff each coordinate is in the block's range on its axis. -/
theorem mem_blk1 (t : Fin cfg1.N) (i : S100000x32.Idx) :
    i ∈ ((cfg1.win 6).blk t).view.set ↔ ∀ a : Fin 2, win1_6.index t a * S2000x32.size a ≤ (i a).val
      ∧ (i a).val < win1_6.index t a * S2000x32.size a + S2000x32.size a := by
  show i ∈ ((View.whole main_v29).slice (win1_6.rect t)).set ↔ _
  rw [View.set_slice_whole, Rect.mem_set_unit]
  exact Iff.rfl

/-- Every index of the output array is in the block of the point its row's block number names. -/
theorem cover1 (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  obtain ⟨t, ht⟩ : ∃ t : Fin cfg1.N, t.val = (i 0).val / 2000 :=
    ⟨⟨(i 0).val / 2000, lt_of_lt_of_eq (by omega) N_1.symm⟩, rfl⟩
  obtain ⟨-, -, -, -, -, -, -, -, -, -, e0, e1⟩ := idx_facts1 t
  refine ⟨t, flush1_6 t, ?_⟩
  rw [mem_blk1]
  intro a
  match a with
  | ⟨0, _⟩ =>
    show win1_6.index t (0 : Fin 2) * 2000 ≤ (i 0).val ∧ (i 0).val < win1_6.index t (0 : Fin 2) * 2000 + 2000
    rw [e0]; omega
  | ⟨1, _⟩ =>
    show win1_6.index t (1 : Fin 2) * 32 ≤ (i 1).val ∧ (i 1).val < win1_6.index t (1 : Fin 2) * 32 + 32
    rw [e1]; omega

/-- Region 1's output array ends holding the layer of the node features and the second edge list's aggregation. -/
theorem region1 (c : Dev nD) :
    (dat1 (F := Ideal) V c).arrAt 6 cfg1.N
      = Cert.Spec.gin (V c main_arg0) (V c main_v28) (V c main_arg8) (V c main_arg9) (V c main_arg10) (V c main_arg11) :=
  (dat1 V c).arrAt_eq_of_cover 6
    (Cert.Spec.gin (V c main_arg0) (V c main_v28) (V c main_arg8) (V c main_arg9) (V c main_arg10) (V c main_arg11))
    (fun t _ => flushed1_eq V c t) cover1

/-! ## Region 3: the second graph-isomorphism layer on 32 features, first edge list, rectified -/

/-- A point of region 3's grid is below 50. -/
theorem point_lt3 (t : Fin cfg3.N) : t.val < 50 := lt_of_lt_of_eq t.isLt N_3

/-- The block indices over region 3's grid: the two row-blocked inputs and the output are at block `(t, 0)`, the weights
    and biases at block `0` of their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- The mixed features' block at point `t` holds rows `2000 t + p` of the array. -/
theorem blk3_0 (c : Dev nD) (t : Fin cfg3.N) (p : Fin 2000) (l : Fin 32) :
    (iblk3 V c 0 t : Vec Ideal S2000x32 .f32) (ix2 p l)
      = (V c main_v32 : S100000x32.Idx → EReal) (ix2 (blockRow t.val (point_lt3 t) p) l) := by
  obtain ⟨e0, e1, -⟩ := idx_facts3 t
  unfold iblk3
  rw [View.read_apply]
  show V c main_v32 _ = V c main_v32 _
  congr 1
  funext a
  apply Fin.ext
  match a with
  | ⟨0, _⟩ => show win3_0.index t (0 : Fin 2) * 2000 + 1 * p.val = t.val * 2000 + p.val; rw [e0]; omega
  | ⟨1, _⟩ => show win3_0.index t (1 : Fin 2) * 32 + 1 * l.val = l.val; rw [e1]; omega

/-- The aggregated neighbours' block at point `t` holds rows `2000 t + p` of the array. -/
theorem blk3_1 (c : Dev nD) (t : Fin cfg3.N) (p : Fin 2000) (l : Fin 32) :
    (iblk3 V c 1 t : Vec Ideal S2000x32 .f32) (ix2 p l)
      = (V c main_v46 : S100000x32.Idx → EReal) (ix2 (blockRow t.val (point_lt3 t) p) l) := by
  obtain ⟨-, -, e0, e1, -⟩ := idx_facts3 t
  unfold iblk3
  rw [View.read_apply]
  show V c main_v46 _ = V c main_v46 _
  congr 1
  funext a
  apply Fin.ext
  match a with
  | ⟨0, _⟩ => show win3_1.index t (0 : Fin 2) * 2000 + 1 * p.val = t.val * 2000 + p.val; rw [e0]; omega
  | ⟨1, _⟩ => show win3_1.index t (1 : Fin 2) * 32 + 1 * l.val = l.val; rw [e1]; omega

/-- The first weight matrix's one block is the matrix. -/
theorem blk3_2 (c : Dev nD) (t : Fin cfg3.N) :
    (iblk3 V c 2 t : Vec Ideal S32x32 .f32) = (V c main_arg16 : S32x32.Idx → EReal) := by
  obtain ⟨-, -, -, -, e0, e1, -⟩ := idx_facts3 t
  funext y
  unfold iblk3
  rw [View.read_apply]
  show V c main_arg16 _ = V c main_arg16 y
  congr 1
  funext a
  apply Fin.ext
  match a with
  | ⟨0, _⟩ => show win3_2.index t (0 : Fin 2) * 32 + 1 * (y 0).val = (y 0).val; rw [e0]; omega
  | ⟨1, _⟩ => show win3_2.index t (1 : Fin 2) * 32 + 1 * (y 1).val = (y 1).val; rw [e1]; omega

/-- The first bias's one block is the bias. -/
theorem blk3_3 (c : Dev nD) (t : Fin cfg3.N) :
    (iblk3 V c 3 t : Vec Ideal S32 .f32) = (V c main_arg17 : S32.Idx → EReal) := by
  obtain ⟨-, -, -, -, -, -, e0, -⟩ := idx_facts3 t
  funext y
  unfold iblk3
  rw [View.read_apply]
  show V c main_arg17 _ = V c main_arg17 y
  congr 1
  funext a
  apply Fin.ext
  match a with
  | ⟨0, _⟩ => show win3_3.index t (0 : Fin 1) * 32 + 1 * (y 0).val = (y 0).val; rw [e0]; omega

/-- The second weight matrix's one block is the matrix. -/
theorem blk3_4 (c : Dev nD) (t : Fin cfg3.N) :
    (iblk3 V c 4 t : Vec Ideal S32x32 .f32) = (V c main_arg18 : S32x32.Idx → EReal) := by
  obtain ⟨-, -, -, -, -, -, -, e0, e1, -⟩ := idx_facts3 t
  funext y
  unfold iblk3
  rw [View.read_apply]
  show V c main_arg18 _ = V c main_arg18 y
  congr 1
  funext a
  apply Fin.ext
  match a with
  | ⟨0, _⟩ => show win3_4.index t (0 : Fin 2) * 32 + 1 * (y 0).val = (y 0).val; rw [e0]; omega
  | ⟨1, _⟩ => show win3_4.index t (1 : Fin 2) * 32 + 1 * (y 1).val = (y 1).val; rw [e1]; omega

/-- The second bias's one block is the bias. -/
theorem blk3_5 (c : Dev nD) (t : Fin cfg3.N) :
    (iblk3 V c 5 t : Vec Ideal S32 .f32) = (V c main_arg19 : S32.Idx → EReal) := by
  obtain ⟨-, -, -, -, -, -, -, -, -, e0, -⟩ := idx_facts3 t
  funext y
  unfold iblk3
  rw [View.read_apply]
  show V c main_arg19 _ = V c main_arg19 y
  congr 1
  funext a
  apply Fin.ext
  match a with
  | ⟨0, _⟩ => show win3_5.index t (0 : Fin 1) * 32 + 1 * (y 0).val = (y 0).val; rw [e0]; omega

/-- What point `t` writes back is block `t` of the rectified layer on the whole arrays. -/
theorem flushed3_eq (c : Dev nD) (t : Fin cfg3.N) :
    (dat3 V c).flushed 6 t = ((cfg3.win 6).blk t).view.read (Elt Ideal)
      (Cert.Spec.relu (Cert.Spec.gin (V c main_v32) (V c main_v46) (V c main_arg16) (V c main_arg17) (V c main_arg18) (V c main_arg19))) := by
  show (cfg3.win 6).cut (grid3.coords t) ((dat3 V c).after 6 t) = _
  rw [after3_6]
  unfold out3_6
  rw [View.canon_unit_zero zeros2]
  simp only [View.ld_unit_zero (S := S2000x32) zeros2, View.ld_unit_zero (S := S32x32) zeros2,
    View.ld_unit_zero (S := S32) zeros1]
  obtain ⟨-, -, -, -, -, -, -, -, -, -, e0, e1⟩ := idx_facts3 t
  funext j
  obtain ⟨p, q, rfl⟩ : ∃ (p : Fin 2000) (q : Fin 32), j = ix2 p q := ⟨j 0, j 1, eq_ix2 j⟩
  show k3_pay1 (iblk3 V c 0 t) (iblk3 V c 1 t) (iblk3 V c 2 t) (iblk3 V c 3 t) (iblk3 V c 4 t) (iblk3 V c 5 t) (ix2 p q)
    = max (Cert.Spec.gin (V c main_v32) (V c main_v46) (V c main_arg16) (V c main_arg17) (V c main_arg18) (V c main_arg19)
        (((cfg3.win 6).blk t).view.emb (ix2 p q))) 0
  refine (k3_pay1_apply _ _ _ _ _ _ p q).trans (congrArg (fun v => max v 0) ?_)
  refine rows_gin (K := 32) (V c main_v32) (V c main_v46) (V c main_arg16) (V c main_arg17) (V c main_arg18) (V c main_arg19)
    (iblk3 V c 0 t) (iblk3 V c 1 t) (iblk3 V c 2 t) (iblk3 V c 3 t) (iblk3 V c 4 t) (iblk3 V c 5 t)
    t.val (point_lt3 t) (blk3_0 V c t) (blk3_1 V c t) (blk3_2 V c t) (blk3_3 V c t) (blk3_4 V c t) (blk3_5 V c t) p q _ ?_ ?_
  · show win3_6.index t (0 : Fin 2) * 2000 + 1 * p.val = t.val * 2000 + p.val
    rw [e0]; omega
  · show win3_6.index t (1 : Fin 2) * 32 + 1 * q.val = q.val
    rw [e1]; omega

/-- An index of the output array is in point `t`'s block iff each coordinate is in the block's range on its axis. -/
theorem mem_blk3 (t : Fin cfg3.N) (i : S100000x32.Idx) :
    i ∈ ((cfg3.win 6).blk t).view.set ↔ ∀ a : Fin 2, win3_6.index t a * S2000x32.size a ≤ (i a).val
      ∧ (i a).val < win3_6.index t a * S2000x32.size a + S2000x32.size a := by
  show i ∈ ((View.whole main_v47).slice (win3_6.rect t)).set ↔ _
  rw [View.set_slice_whole, Rect.mem_set_unit]
  exact Iff.rfl

/-- Every index of the output array is in the block of the point its row's block number names. -/
theorem cover3 (i : S100000x32.Idx) :
    ∃ t : Fin cfg3.N, (cfg3.win 6).flush t = true ∧ i ∈ ((cfg3.win 6).blk t).view.set := by
  have hi0 : (i 0).val < 100000 := (i 0).isLt
  have hi1 : (i 1).val < 32 := (i 1).isLt
  obtain ⟨t, ht⟩ : ∃ t : Fin cfg3.N, t.val = (i 0).val / 2000 :=
    ⟨⟨(i 0).val / 2000, lt_of_lt_of_eq (by omega) N_3.symm⟩, rfl⟩
  obtain ⟨-, -, -, -, -, -, -, -, -, -, e0, e1⟩ := idx_facts3 t
  refine ⟨t, flush3_6 t, ?_⟩
  rw [mem_blk3]
  intro a
  match a with
  | ⟨0, _⟩ =>
    show win3_6.index t (0 : Fin 2) * 2000 ≤ (i 0).val ∧ (i 0).val < win3_6.index t (0 : Fin 2) * 2000 + 2000
    rw [e0]; omega
  | ⟨1, _⟩ =>
    show win3_6.index t (1 : Fin 2) * 32 ≤ (i 1).val ∧ (i 1).val < win3_6.index t (1 : Fin 2) * 32 + 32
    rw [e1]; omega

/-- Region 3's output array ends holding the rectified layer of the mixed features and the first edge list's aggregation. -/
theorem region3 (c : Dev nD) :
    (dat3 (F := Ideal) V c).arrAt 6 cfg3.N
      = Cert.Spec.relu (Cert.Spec.gin (V c main_v32) (V c main_v46) (V c main_arg16) (V c main_arg17) (V c main_arg18) (V c main_arg19)) :=
  (dat3 V c).arrAt_eq_of_cover 6
    (Cert.Spec.relu (Cert.Spec.gin (V c main_v32) (V c main_v46) (V c main_arg16) (V c main_arg17) (V c main_arg18) (V c main_arg19)))
    (fun t _ => flushed3_eq V c t) cover3

/-! ## Region 4: the second graph-isomorphism layer on 32 features, second edge list, rectified -/

/-- A point of region 4's grid is below 50. -/
theorem point_lt4 (t : Fin cfg4.N) : t.val < 50 := lt_of_lt_of_eq t.isLt N_4

/-- The block indices over region 4's grid: the two row-blocked inputs and the output are at block `(t, 0)`, the weights
    and biases at block `0` of their one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0 :=
  (by decide +kernel : ∀ t : Fin grid4.N, _)

/-- The mixed features' block at point `t` holds rows `2000 t + p` of the array. -/
theorem blk4_0 (c : Dev nD) (t : Fin cfg4.N) (p : Fin 2000) (l : Fin 32) :
    (iblk4 V c 0 t : Vec Ideal S2000x32 .f32) (ix2 p l)
      = (V c main_v32 : S100000x32.Idx → EReal) (ix2 (blockRow t.val (point_lt4 t) p) l) := by
  obtain ⟨e0, e1, -⟩ := idx_facts4 t
  unfold iblk4
  rw [View.read_apply]
  show V c main_v32 _ = V c main_v32 _
  congr 1
  funext a
  apply Fin.ext
  match a with
  | ⟨0, _⟩ => show win4_0.index t (0 : Fin 2) * 2000 + 1 * p.val = t.val * 2000 + p.val; rw [e0]; omega
  | ⟨1, _⟩ => show win4_0.index t (1 : Fin 2) * 32 + 1 * l.val = l.val; rw [e1]; omega

/-- The aggregated neighbours' block at point `t` holds rows `2000 t + p` of the array. -/
theorem blk4_1 (c : Dev nD) (t : Fin cfg4.N) (p : Fin 2000) (l : Fin 32) :
    (iblk4 V c 1 t : Vec Ideal S2000x32 .f32) (ix2 p l)
      = (V c main_v61 : S100000x32.Idx → EReal) (ix2 (blockRow t.val (point_lt4 t) p) l) := by
  obtain ⟨-, -, e0, e1, -⟩ := idx_facts4 t
  unfold iblk4
  rw [View.read_apply]
  show V c main_v61 _ = V c main_v61 _
  congr 1
  funext a
  apply Fin.ext
  match a with
  | ⟨0, _⟩ => show win4_1.index t (0 : Fin 2) * 2000 + 1 * p.val = t.val * 2000 + p.val; rw [e0]; omega
  | ⟨1, _⟩ => show win4_1.index t (1 : Fin 2) * 32 + 1 * l.val = l.val; rw [e1]; omega

/-- The first weight matrix's one block is the matrix. -/
theorem blk4_2 (c : Dev nD) (t : Fin cfg4.N) :
    (iblk4 V c 2 t : Vec Ideal S32x32 .f32) = (V c main_arg20 : S32x32.Idx → EReal) := by
  obtain ⟨-, -, -, -, e0, e1, -⟩ := idx_facts4 t
  funext y
  unfold iblk4
  rw [View.read_apply]
  show V c main_arg20 _ = V c main_arg20 y
  congr 1
  funext a
  apply Fin.ext
  match a with
  | ⟨0, _⟩ => show win4_2.index t (0 : Fin 2) * 32 + 1 * (y 0).val = (y 0).val; rw [e0]; omega
  | ⟨1, _⟩ => show win4_2.index t (1 : Fin 2) * 32 + 1 * (y 1).val = (y 1).val; rw [e1]; omega

/-- The first bias's one block is the bias. -/
theorem blk4_3 (c : Dev nD) (t : Fin cfg4.N) :
    (iblk4 V c 3 t : Vec Ideal S32 .f32) = (V c main_arg21 : S32.Idx → EReal) := by
  obtain ⟨-, -, -, -, -, -, e0, -⟩ := idx_facts4 t
  funext y
  unfold iblk4
  rw [View.read_apply]
  show V c main_arg21 _ = V c main_arg21 y
  congr 1
  funext a
  apply Fin.ext
  match a with
  | ⟨0, _⟩ => show win4_3.index t (0 : Fin 1) * 32 + 1 * (y 0).val = (y 0).val; rw [e0]; omega

/-- The second weight matrix's one block is the matrix. -/
theorem blk4_4 (c : Dev nD) (t : Fin cfg4.N) :
    (iblk4 V c 4 t : Vec Ideal S32x32 .f32) = (V c main_arg22 : S32x32.Idx → EReal) := by
  obtain ⟨-, -, -, -, -, -, -, e0, e1, -⟩ := idx_facts4 t
  funext y
  unfold iblk4
  rw [View.read_apply]
  show V c main_arg22 _ = V c main_arg22 y
  congr 1
  funext a
  apply Fin.ext
  match a with
  | ⟨0, _⟩ => show win4_4.index t (0 : Fin 2) * 32 + 1 * (y 0).val = (y 0).val; rw [e0]; omega
  | ⟨1, _⟩ => show win4_4.index t (1 : Fin 2) * 32 + 1 * (y 1).val = (y 1).val; rw [e1]; omega

/-- The second bias's one block is the bias. -/
theorem blk4_5 (c : Dev nD) (t : Fin cfg4.N) :
    (iblk4 V c 5 t : Vec Ideal S32 .f32) = (V c main_arg23 : S32.Idx → EReal) := by
  obtain ⟨-, -, -, -, -, -, -, -, -, e0, -⟩ := idx_facts4 t
  funext y
  unfold iblk4
  rw [View.read_apply]
  show V c main_arg23 _ = V c main_arg23 y
  congr 1
  funext a
  apply Fin.ext
  match a with
  | ⟨0, _⟩ => show win4_5.index t (0 : Fin 1) * 32 + 1 * (y 0).val = (y 0).val; rw [e0]; omega

/-- What point `t` writes back is block `t` of the rectified layer on the whole arrays. -/
theorem flushed4_eq (c : Dev nD) (t : Fin cfg4.N) :
    (dat4 V c).flushed 6 t = ((cfg4.win 6).blk t).view.read (Elt Ideal)
      (Cert.Spec.relu (Cert.Spec.gin (V c main_v32) (V c main_v61) (V c main_arg20) (V c main_arg21) (V c main_arg22) (V c main_arg23))) := by
  show (cfg4.win 6).cut (grid4.coords t) ((dat4 V c).after 6 t) = _
  rw [after4_6]
  unfold out4_6
  rw [View.canon_unit_zero zeros2]
  simp only [View.ld_unit_zero (S := S2000x32) zeros2, View.ld_unit_zero (S := S32x32) zeros2,
    View.ld_unit_zero (S := S32) zeros1]
  obtain ⟨-, -, -, -, -, -, -, -, -, -, e0, e1⟩ := idx_facts4 t
  funext j
  obtain ⟨p, q, rfl⟩ : ∃ (p : Fin 2000) (q : Fin 32), j = ix2 p q := ⟨j 0, j 1, eq_ix2 j⟩
  show k4_pay1 (iblk4 V c 0 t) (iblk4 V c 1 t) (iblk4 V c 2 t) (iblk4 V c 3 t) (iblk4 V c 4 t) (iblk4 V c 5 t) (ix2 p q)
    = max (Cert.Spec.gin (V c main_v32) (V c main_v61) (V c main_arg20) (V c main_arg21) (V c main_arg22) (V c main_arg23)
        (((cfg4.win 6).blk t).view.emb (ix2 p q))) 0
  refine (k4_pay1_apply _ _ _ _ _ _ p q).trans (congrArg (fun v => max v 0) ?_)
  refine rows_gin (K := 32) (V c main_v32) (V c main_v61) (V c main_arg20) (V c main_arg21) (V c main_arg22) (V c main_arg23)
    (iblk4 V c 0 t) (iblk4 V c 1 t) (iblk4 V c 2 t) (iblk4 V c 3 t) (iblk4 V c 4 t) (iblk4 V c 5 t)
    t.val (point_lt4 t) (blk4_0 V c t) (blk4_1 V c t) (blk4_2 V c t) (blk4_3 V c t) (blk4_4 V c t) (blk4_5 V c t) p q _ ?_ ?_
  · show win4_6.index t (0 : Fin 2) * 2000 + 1 * p.val = t.val * 2000 + p.val
    rw [e0]; omega
  · show win4_6.index t (1 : Fin 2) * 32 + 1 * q.val = q.val
    rw [e1]; omega

/-- An index of the output array is in point `t`'s block iff each coordinate is in the block's range on its axis. -/
theorem mem_blk4 (t : Fin cfg4.N) (i : S100000x32.Idx) :
    i ∈ ((cfg4.win 6).blk t).view.set ↔ ∀ a : Fin 2, win4_6.index t a * S2000x32.size a ≤ (i a).val
      ∧ (i a).val < win4_6.index t a * S2000x32.size a + S2000x32.size a := by
  show i ∈ ((View.whole main_v62).slice (win4_6.rect t)).set ↔ _
  rw [View.set_slice_whole, Rect.mem_set_unit]
  exact Iff.rfl

/-- Every index of the output array is in the block of the point its row's block number names. -/
theorem cover4 (i : S100000x32.Idx) :
    ∃ t : Fin cfg4.N, (cfg4.win 6).flush t = true ∧ i ∈ ((cfg4.win 6).blk t).view.set := by
  have hi0 : (i 0).val < 100000 := (i 0).isLt
  have hi1 : (i 1).val < 32 := (i 1).isLt
  obtain ⟨t, ht⟩ : ∃ t : Fin cfg4.N, t.val = (i 0).val / 2000 :=
    ⟨⟨(i 0).val / 2000, lt_of_lt_of_eq (by omega) N_4.symm⟩, rfl⟩
  obtain ⟨-, -, -, -, -, -, -, -, -, -, e0, e1⟩ := idx_facts4 t
  refine ⟨t, flush4_6 t, ?_⟩
  rw [mem_blk4]
  intro a
  match a with
  | ⟨0, _⟩ =>
    show win4_6.index t (0 : Fin 2) * 2000 ≤ (i 0).val ∧ (i 0).val < win4_6.index t (0 : Fin 2) * 2000 + 2000
    rw [e0]; omega
  | ⟨1, _⟩ =>
    show win4_6.index t (1 : Fin 2) * 32 ≤ (i 1).val ∧ (i 1).val < win4_6.index t (1 : Fin 2) * 32 + 32
    rw [e1]; omega

/-- Region 4's output array ends holding the rectified layer of the mixed features and the second edge list's aggregation. -/
theorem region4 (c : Dev nD) :
    (dat4 (F := Ideal) V c).arrAt 6 cfg4.N
      = Cert.Spec.relu (Cert.Spec.gin (V c main_v32) (V c main_v61) (V c main_arg20) (V c main_arg21) (V c main_arg22) (V c main_arg23)) :=
  (dat4 V c).arrAt_eq_of_cover 6
    (Cert.Spec.relu (Cert.Spec.gin (V c main_v32) (V c main_v61) (V c main_arg20) (V c main_arg21) (V c main_arg22) (V c main_arg23)))
    (fun t _ => flushed4_eq V c t) cover4

end Cert.KernelIdeal.Val

end
-- ==== Proof.KPayMix.lean ====
/-
  The mixing kernels' stored value at one entry of the block.

  The body of a mixing kernel stores one 2000 × 32 value: the product of the first branch's block with the upper
  half of the first weight matrix plus the product of the second branch's block with the lower half, each
  accumulated into zero; a bias row added to every row; the maximum with zero; a product with the second weight
  matrix; a second bias row. Read at the entry `(p, q)`, every product is the sum over its 32 contraction positions
  of row entry times column entry, a bias row contributes its entry at the column, and the zero word is the number
  0, so the entry is the mixing perceptron on the rows `p` of the two blocks at output column `q`.
-/
import proofs.«412192_j67508295958858_4_alg».proof.Proof.Gen.KernelIdeal.Skeleton
import proofs.«412192_j67508295958858_4_alg».proof.Proof.Spec
import proofs.«412192_j67508295958858_4_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open scoped BigOperators

/-- A vector of 32 entries viewed as one row and repeated down the 2000 rows reads, at `(p, q)`, its entry `q`. -/
theorem mixBias_apply (b : FVec Ideal S32 .f32) (hc : S32.ShapeCasts S1x32) (hb : S1x32.Broadcasts S2000x32)
    (p : Fin 2000) (q : Fin 32) :
    broadcastTo S2000x32 (shapeCast S1x32 b hc) hb (ix2 p q) = b (ix1 q) :=
  (broadcastTo_1b_ab_apply (shapeCast S1x32 b hc) hb p q).trans (shapeCast_a_1a_apply b hc 0 q)

/-- A 2000 × 32 block times a 32 × 32 matrix, accumulated into the zero block, at `(p, q)`: the row `p` of the
    block against the column `q` of the matrix. -/
theorem dot_apply (lhs : FVec Ideal S2000x32 .f32) (rhs : FVec Ideal S32x32 .f32) (p : Fin 2000) (q : Fin 32) :
    FloatOps.matmul dot_S2000x32_S32x32_S2000x32_1_0_0_1_n_n none lhs rhs (constant (F := Ideal) S2000x32 .f32 0x00000000#32) (ix2 p q)
      = ∑ k : Fin 32, lhs (ix2 p k) * rhs (ix2 k q) :=
  Cert.LibPlainDot.matmul_zero_apply _ rfl rfl rfl rfl rfl rfl none lhs rhs p q

/-- The whole chain of the mixing body with its identity casts removed: two products summed, a bias row, the
    rectifier as a maximum with the zero block, a third product, a second bias row. At `(p, q)` it is the mixing
    perceptron on the rows `p` of the two blocks, at column `q`. -/
theorem chain_apply (hc : S32.ShapeCasts S1x32) (hb : S1x32.Broadcasts S2000x32) (hc' : S32.ShapeCasts S1x32) (hb' : S1x32.Broadcasts S2000x32)
    (y1 : FVec Ideal S2000x32 .f32) (Wa : FVec Ideal S32x32 .f32) (y2 : FVec Ideal S2000x32 .f32) (Wb : FVec Ideal S32x32 .f32)
    (b1 : FVec Ideal S32 .f32) (W2 : FVec Ideal S32x32 .f32) (b2 : FVec Ideal S32 .f32) (p : Fin 2000) (q : Fin 32) :
    addf
        (FloatOps.matmul dot_S2000x32_S32x32_S2000x32_1_0_0_1_n_n none
          (maximumf
            (addf
              (addf
                (FloatOps.matmul dot_S2000x32_S32x32_S2000x32_1_0_0_1_n_n none y1 Wa (constant (F := Ideal) S2000x32 .f32 0x00000000#32))
                (FloatOps.matmul dot_S2000x32_S32x32_S2000x32_1_0_0_1_n_n none y2 Wb (constant (F := Ideal) S2000x32 .f32 0x00000000#32)))
              (broadcastTo S2000x32 (shapeCast S1x32 b1 hc) hb))
            (broadcast S2000x32 (Scalar.ofBits (F := Ideal) .f32 0x00000000#32)))
          W2 (constant (F := Ideal) S2000x32 .f32 0x00000000#32))
        (broadcastTo S2000x32 (shapeCast S1x32 b2 hc') hb') (ix2 p q)
      = Cert.Spec.mix (fun l => y1 (ix2 p l)) (fun l => y2 (ix2 p l)) Wa Wb b1 W2 b2 q := by
  rw [addf_apply, mixBias_apply, dot_apply]
  unfold Cert.Spec.mix Cert.Spec.outer
  refine congrArg (· + b2 (ix1 q)) (Finset.sum_congr rfl fun k _ => ?_)
  rw [maximumf_apply, addf_apply, addf_apply, mixBias_apply, dot_apply, dot_apply, broadcast_apply]
  show max _ (Ideal.ofBits .f32 0x00000000#32) * _ = _
  rw [Ideal.ofBits_zero_f32]

theorem k2_pay1_apply (y1 : Vec Ideal S2000x32 .f32) (Wa : Vec Ideal S32x32 .f32) (y2 : Vec Ideal S2000x32 .f32) (Wb : Vec Ideal S32x32 .f32)
    (b1 : Vec Ideal S32 .f32) (W2 : Vec Ideal S32x32 .f32) (b2 : Vec Ideal S32 .f32) (p : Fin 2000) (q : Fin 32) :
    k2_pay1 (F := Ideal) y1 Wa y2 Wb b1 W2 b2 (ix2 p q)
      = Cert.Spec.mix (fun l => y1 (ix2 p l)) (fun l => y2 (ix2 p l)) Wa Wb b1 W2 b2 q := by
  unfold k2_pay1
  simp only [matmul, shapeCast_self]
  exact chain_apply _ _ _ _ y1 Wa y2 Wb b1 W2 b2 p q

theorem k5_pay1_apply (y1 : Vec Ideal S2000x32 .f32) (Wa : Vec Ideal S32x32 .f32) (y2 : Vec Ideal S2000x32 .f32) (Wb : Vec Ideal S32x32 .f32)
    (b1 : Vec Ideal S32 .f32) (W2 : Vec Ideal S32x32 .f32) (b2 : Vec Ideal S32 .f32) (p : Fin 2000) (q : Fin 32) :
    k5_pay1 (F := Ideal) y1 Wa y2 Wb b1 W2 b2 (ix2 p q)
      = Cert.Spec.mix (fun l => y1 (ix2 p l)) (fun l => y2 (ix2 p l)) Wa Wb b1 W2 b2 q := by
  unfold k5_pay1
  simp only [matmul, shapeCast_self]
  exact chain_apply _ _ _ _ y1 Wa y2 Wb b1 W2 b2 p q

end Cert.KernelIdeal.Val

end
-- ==== Proof.KRegionMix.lean ====
/-
  What the two mixing regions leave in their output arrays.

  Each region runs over 50 grid points. At point `t` the two branch arrays (100000 × 32) are read through their row
  block `t` (rows `2000 t … 2000 t + 1999`), the five parameter arrays are read whole, and the body stores one block:
  at `(p, q)` the mixing perceptron of row `p` of the first branch's block and row `p` of the second's, at column `q`.
  Row `p` of block `t` is row `2000 t + p` of the array, so what point `t` writes back is rows `2000 t … 2000 t + 1999`
  of the mixing layer of the two whole arrays. Row `r` lies in the block of point `r / 2000`, so the 50 blocks cover the
  output array, which therefore ends holding the mixing layer (over the two halves of the first weight matrix) of the
  contents the region was entered with. The second region is the first with other arrays.
-/
import proofs.«412192_j67508295958858_4_alg».proof.Proof.Gen.KernelIdeal.Frame
import proofs.«412192_j67508295958858_4_alg».proof.Proof.Spec
import proofs.«412192_j67508295958858_4_alg».proof.Proof.KPayMix
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open scoped BigOperators
open Idealize.ShloMosaic.Pipeline (Dat Cfg Window)

variable (V : (c : Dev nD) → (b : Ref sig .tc) → Buf (Elt Ideal) ((c : Thread nD τ).loc b))

/-! ## Small facts shared by the two regions -/

/-- The zero offsets of a rank-2 rectangle are the constant zero function. -/
theorem offsets2_zero : (![0, 0] : Fin 2 → Nat) = fun _ => 0 :=
  funext fun a => match a with | ⟨0, _⟩ => rfl | ⟨1, _⟩ => rfl

/-- The zero offset of a rank-1 rectangle is the constant zero function. -/
theorem offsets1_zero : (![0] : Fin 1 → Nat) = fun _ => 0 :=
  funext fun a => match a with | ⟨0, _⟩ => rfl

/-- The mixing perceptron depends only on its two rows and its five parameter arrays. -/
theorem mix_congr {r1 r1' r2 r2' : Fin 32 → EReal} {Wa Wa' Wb Wb' W2 W2' : Cert.Spec.Mat 32 32} {b1 b1' b2 b2' : Cert.Spec.Vect 32}
    (h1 : r1 = r1') (h2 : r2 = r2') (ha : Wa = Wa') (hb : Wb = Wb') (hb1 : b1 = b1') (hw : W2 = W2') (hb2 : b2 = b2') (q : Fin 32) :
    Cert.Spec.mix r1 r2 Wa Wb b1 W2 b2 q = Cert.Spec.mix r1' r2' Wa' Wb' b1' W2' b2' q := by
  subst h1 h2 ha hb hb1 hw hb2; rfl

/-! ## Region 2: the first mixing layer -/

/-- The block indices over the grid: at point `t` the two branch inputs and the output are at row block `t`,
    column block 0; each parameter array is one block, at block index 0. -/
theorem maps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- The first branch's block at point `t`, entry `(p, l)`, is the array's entry `(2000 t + p, l)`. -/
theorem blk2_0 (c : Dev nD) (t : Fin cfg2.N) (p : Fin 2000) (l : Fin 32) (r : Fin 100000) (hr : r.val = 2000 * t.val + p.val) :
    (iblk2 (F := Ideal) V c 0 t : Vec Ideal S2000x32 .f32) (ix2 p l) = (V c main_v14 : Vec Ideal S100000x32 .f32) (ix2 r l) := by
  obtain ⟨e0, e1, -⟩ := maps2 t
  show (V c main_v14 : Vec Ideal S100000x32 .f32) (((cfg2.win 0).blk t).view.emb (ix2 p l)) = _
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 32 + 1 * l.val = l.val; rw [e1]; omega

/-- The second branch's block at point `t`, entry `(p, l)`, is the array's entry `(2000 t + p, l)`. -/
theorem blk2_1 (c : Dev nD) (t : Fin cfg2.N) (p : Fin 2000) (l : Fin 32) (r : Fin 100000) (hr : r.val = 2000 * t.val + p.val) :
    (iblk2 (F := Ideal) V c 1 t : Vec Ideal S2000x32 .f32) (ix2 p l) = (V c main_v29 : Vec Ideal S100000x32 .f32) (ix2 r l) := by
  obtain ⟨-, -, e0, e1, -⟩ := maps2 t
  show (V c main_v29 : Vec Ideal S100000x32 .f32) (((cfg2.win 1).blk t).view.emb (ix2 p l)) = _
  refine congrArg _ (funext fun a => Fin.ext ?_)
  match a with
  | ⟨0, _⟩ => show win2_1.index t (0 : Fin 2) * 2000 + 1 * p.val = r.val; rw [e0, hr]; omega
  | ⟨1, _⟩ => show win2_1.index t (1 : Fin 2) * 32 + 1 * l.val = l.val; rw [e1]; omega

/-- The upper half of the first weight matrix is read whole at every point. -/
theorem blk2_2 (c : Dev nD) (t : Fin cfg2.N) :
    (iblk2 (F := Ideal) V c 2 t : Vec Ideal S32x32 .f32) = (V c main_v30 : Vec Ideal S32x32 .f32) := by
  obtain ⟨-, -, -, -, e0, e1, -⟩ := maps2 t
  funext j
  show (V c main_v30 : Vec Ideal S32x32 .f32) (((cfg2.win 2).blk t).view.emb j) = _
  refine congrArg _ (funext fun a => Fin.ext ?_)
  match a with
  | ⟨0, _⟩ => show win2_2.index t (0 : Fin 2) * 32 + 1 * (j 0).val = (j 0).val; rw [e0]; omega
  | ⟨1, _⟩ => show win2_2.index t (1 : Fin 2) * 32 + 1 * (j 1).val = (j 1).val; rw [e1]; omega

/-- The lower half of the first weight matrix is read whole at every point. -/
theorem blk2_3 (c : Dev nD) (t : Fin cfg2.N) :
    (iblk2 (F := Ideal) V c 3 t : Vec Ideal S32x32 .f32) = (V c main_v31 : Vec Ideal S32x32 .f32) := by
  obtain ⟨-, -, -, -, -, -, e0, e1, -⟩ := maps2 t
  funext j
  show (V c main_v31 : Vec Ideal S32x32 .f32) (((cfg2.win 3).blk t).view.emb j) = _
  refine congrArg _ (funext fun a => Fin.ext ?_)
  match a with
  | ⟨0, _⟩ => show win2_3.index t (0 : Fin 2) * 32 + 1 * (j 0).val = (j 0).val; rw [e0]; omega
  | ⟨1, _⟩ => show win2_3.index t (1 : Fin 2) * 32 + 1 * (j 1).val = (j 1).val; rw [e1]; omega

/-- The first bias is read whole at every point. -/
theorem blk2_4 (c : Dev nD) (t : Fin cfg2.N) :
    (iblk2 (F := Ideal) V c 4 t : Vec Ideal S32 .f32) = (V c main_arg13 : Vec Ideal S32 .f32) := by
  obtain ⟨-, -, -, -, -, -, -, -, e0, -⟩ := maps2 t
  funext j
  show (V c main_arg13 : Vec Ideal S32 .f32) (((cfg2.win 4).blk t).view.emb j) = _
  refine congrArg _ (funext fun a => Fin.ext ?_)
  match a with
  | ⟨0, _⟩ => show win2_4.index t (0 : Fin 1) * 32 + 1 * (j 0).val = (j 0).val; rw [e0]; omega

/-- The second weight matrix is read whole at every point. -/
theorem blk2_5 (c : Dev nD) (t : Fin cfg2.N) :
    (iblk2 (F := Ideal) V c 5 t : Vec Ideal S32x32 .f32) = (V c main_arg14 : Vec Ideal S32x32 .f32) := by
  obtain ⟨-, -, -, -, -, -, -, -, -, e0, e1, -⟩ := maps2 t
  funext j
  show (V c main_arg14 : Vec Ideal S32x32 .f32) (((cfg2.win 5).blk t).view.emb j) = _
  refine congrArg _ (funext fun a => Fin.ext ?_)
  match a with
  | ⟨0, _⟩ => show win2_5.index t (0 : Fin 2) * 32 + 1 * (j 0).val = (j 0).val; rw [e0]; omega
  | ⟨1, _⟩ => show win2_5.index t (1 : Fin 2) * 32 + 1 * (j 1).val = (j 1).val; rw [e1]; omega

/-- The second bias is read whole at every point. -/
theorem blk2_6 (c : Dev nD) (t : Fin cfg2.N) :
    (iblk2 (F := Ideal) V c 6 t : Vec Ideal S32 .f32) = (V c main_arg15 : Vec Ideal S32 .f32) := by
  obtain ⟨-, -, -, -, -, -, -, -, -, -, -, e0, -⟩ := maps2 t
  funext j
  show (V c main_arg15 : Vec Ideal S32 .f32) (((cfg2.win 6).blk t).view.emb j) = _
  refine congrArg _ (funext fun a => Fin.ext ?_)
  match a with
  | ⟨0, _⟩ => show win2_6.index t (0 : Fin 1) * 32 + 1 * (j 0).val = (j 0).val; rw [e0]; omega

/-- What point `t` writes back: rows `2000 t … 2000 t + 1999` of the mixing layer of the two branch arrays. -/
theorem flushed2 (c : Dev nD) (t : Fin cfg2.N) :
    (dat2 (F := Ideal) V c).flushed 7 t
      = ((cfg2.win 7).blk t).view.read (Elt Ideal)
          (Cert.Spec.mixingHalves (V c main_v14) (V c main_v29) (V c main_v30) (V c main_v31) (V c main_arg13) (V c main_arg14) (V c main_arg15)) := by
  show (cfg2.win 7).cut (grid2.coords t) ((dat2 (F := Ideal) V c).after 7 t) = _
  rw [after2_7]
  unfold out2_7
  rw [View.canon_unit_zero offsets2_zero]
  simp only [View.ld_unit_zero (S := S2000x32) offsets2_zero, View.ld_unit_zero (S := S32x32) offsets2_zero, View.ld_unit_zero (S := S32) offsets1_zero]
  obtain ⟨-, -, -, -, -, -, -, -, -, -, -, -, e0, e1⟩ := maps2 t
  have ht : t.val < 50 := lt_of_lt_of_eq t.isLt N_2
  funext j
  obtain ⟨p, q, rfl⟩ : ∃ (p : Fin 2000) (q : Fin 32), j = ix2 p q := ⟨j 0, j 1, eq_ix2 j⟩
  have hp : p.val < 2000 := p.isLt
  have hr : 2000 * t.val + p.val < 100000 := by omega
  show k2_pay1 (F := Ideal) (iblk2 V c 0 t) (iblk2 V c 2 t) (iblk2 V c 1 t) (iblk2 V c 3 t) (iblk2 V c 4 t) (iblk2 V c 5 t) (iblk2 V c 6 t) (ix2 p q)
      = Cert.Spec.mixingHalves (V c main_v14) (V c main_v29) (V c main_v30) (V c main_v31) (V c main_arg13) (V c main_arg14) (V c main_arg15) (((cfg2.win 7).blk t).view.emb (ix2 p q))
  have hemb : ((cfg2.win 7).blk t).view.emb (ix2 p q) = (ix2 (⟨2000 * t.val + p.val, hr⟩ : Fin 100000) q : S100000x32.Idx) := by
    funext a; apply Fin.ext
    match a with
    | ⟨0, _⟩ => show win2_7.index t (0 : Fin 2) * 2000 + 1 * p.val = 2000 * t.val + p.val; rw [e0]; omega
    | ⟨1, _⟩ => show win2_7.index t (1 : Fin 2) * 32 + 1 * q.val = q.val; rw [e1]; omega
  rw [hemb, Cert.Spec.mixingHalves_apply]
  refine (k2_pay1_apply (iblk2 V c 0 t) (iblk2 V c 2 t) (iblk2 V c 1 t) (iblk2 V c 3 t) (iblk2 V c 4 t) (iblk2 V c 5 t) (iblk2 V c 6 t) p q).trans ?_
  exact mix_congr (funext fun l => blk2_0 V c t p l _ rfl) (funext fun l => blk2_1 V c t p l _ rfl)
    (blk2_2 V c t) (blk2_3 V c t) (blk2_4 V c t) (blk2_5 V c t) (blk2_6 V c t) q

/-- An entry of the output array lies in point `t`'s block iff each coordinate is in the block's range. -/
theorem mem_blk2 (t : Fin cfg2.N) (i : S100000x32.Idx) :
    i ∈ ((cfg2.win 7).blk t).view.set
      ↔ ∀ a : Fin 2, win2_7.index t a * S2000x32.size a ≤ (i a).val ∧ (i a).val < win2_7.index t a * S2000x32.size a + S2000x32.size a := by
  show i ∈ ((View.whole main_v32).slice (win2_7.rect t)).set ↔ _
  rw [View.set_slice_whole, Rect.mem_set_unit]
  exact Iff.rfl

/-- Every entry of the output array is written back by some point: row `r` by point `r / 2000`. -/
theorem cover2 (i : S100000x32.Idx) :
    ∃ t : Fin cfg2.N, (cfg2.win 7).flush t = true ∧ i ∈ ((cfg2.win 7).blk t).view.set := by
  have hi0 : (i 0).val < 100000 := (i 0).isLt
  have hi1 : (i 1).val < 32 := (i 1).isLt
  have hlt : (i 0).val / 2000 < cfg2.N := by rw [show cfg2.N = 50 from N_2]; omega
  obtain ⟨t, ht⟩ : ∃ t : Fin cfg2.N, t.val = (i 0).val / 2000 := ⟨⟨_, hlt⟩, rfl⟩
  obtain ⟨-, -, -, -, -, -, -, -, -, -, -, -, e0, e1⟩ := maps2 t
  refine ⟨t, flush2_7 t, ?_⟩
  rw [mem_blk2]
  intro a
  match a with
  | ⟨0, _⟩ =>
    show win2_7.index t (0 : Fin 2) * 2000 ≤ (i 0).val ∧ (i 0).val < win2_7.index t (0 : Fin 2) * 2000 + 2000
    rw [e0, ht]; omega
  | ⟨1, _⟩ =>
    show win2_7.index t (1 : Fin 2) * 32 ≤ (i 1).val ∧ (i 1).val < win2_7.index t (1 : Fin 2) * 32 + 32
    rw [e1]; omega

theorem region2 (c : Dev nD) :
    (dat2 (F := Ideal) V c).arrAt 7 cfg2.N
      = Cert.Spec.mixingHalves (V c main_v14) (V c main_v29) (V c main_v30) (V c main_v31) (V c main_arg13) (V c main_arg14) (V c main_arg15) :=
  (dat2 (F := Ideal) V c).arrAt_eq_of_cover 7
    (Cert.Spec.mixingHalves (V c main_v14) (V c main_v29) (V c main_v30) (V c main_v31) (V c main_arg13) (V c main_arg14) (V c main_arg15))
    (fun t _ => flushed2 V c t) cover2

/-! ## Region 5: the second mixing layer -/

/-- The block indices over the grid: at point `t` the two branch inputs and the output are at row block `t`,
    column block 0; each parameter array is one block, at block index 0. -/
theorem maps5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

/-- The first branch's block at point `t`, entry `(p, l)`, is the array's entry `(2000 t + p, l)`. -/
theorem blk5_0 (c : Dev nD) (t : Fin cfg5.N) (p : Fin 2000) (l : Fin 32) (r : Fin 100000) (hr : r.val = 2000 * t.val + p.val) :
    (iblk5 (F := Ideal) V c 0 t : Vec Ideal S2000x32 .f32) (ix2 p l) = (V c main_v47 : Vec Ideal S100000x32 .f32) (ix2 r l) := by
  obtain ⟨e0, e1, -⟩ := maps5 t
  show (V c main_v47 : Vec Ideal S100000x32 .f32) (((cfg5.win 0).blk t).view.emb (ix2 p l)) = _
  refine congrArg _ (funext fun a => Fin.ext ?_)
  match a with
  | ⟨0, _⟩ => show win5_0.index t (0 : Fin 2) * 2000 + 1 * p.val = r.val; rw [e0, hr]; omega
  | ⟨1, _⟩ => show win5_0.index t (1 : Fin 2) * 32 + 1 * l.val = l.val; rw [e1]; omega

/-- The second branch's block at point `t`, entry `(p, l)`, is the array's entry `(2000 t + p, l)`. -/
theorem blk5_1 (c : Dev nD) (t : Fin cfg5.N) (p : Fin 2000) (l : Fin 32) (r : Fin 100000) (hr : r.val = 2000 * t.val + p.val) :
    (iblk5 (F := Ideal) V c 1 t : Vec Ideal S2000x32 .f32) (ix2 p l) = (V c main_v62 : Vec Ideal S100000x32 .f32) (ix2 r l) := by
  obtain ⟨-, -, e0, e1, -⟩ := maps5 t
  show (V c main_v62 : Vec Ideal S100000x32 .f32) (((cfg5.win 1).blk t).view.emb (ix2 p l)) = _
  refine congrArg _ (funext fun a => Fin.ext ?_)
  match a with
  | ⟨0, _⟩ => show win5_1.index t (0 : Fin 2) * 2000 + 1 * p.val = r.val; rw [e0, hr]; omega
  | ⟨1, _⟩ => show win5_1.index t (1 : Fin 2) * 32 + 1 * l.val = l.val; rw [e1]; omega

/-- The upper half of the first weight matrix is read whole at every point. -/
theorem blk5_2 (c : Dev nD) (t : Fin cfg5.N) :
    (iblk5 (F := Ideal) V c 2 t : Vec Ideal S32x32 .f32) = (V c main_v63 : Vec Ideal S32x32 .f32) := by
  obtain ⟨-, -, -, -, e0, e1, -⟩ := maps5 t
  funext j
  show (V c main_v63 : Vec Ideal S32x32 .f32) (((cfg5.win 2).blk t).view.emb j) = _
  refine congrArg _ (funext fun a => Fin.ext ?_)
  match a with
  | ⟨0, _⟩ => show win5_2.index t (0 : Fin 2) * 32 + 1 * (j 0).val = (j 0).val; rw [e0]; omega
  | ⟨1, _⟩ => show win5_2.index t (1 : Fin 2) * 32 + 1 * (j 1).val = (j 1).val; rw [e1]; omega

/-- The lower half of the first weight matrix is read whole at every point. -/
theorem blk5_3 (c : Dev nD) (t : Fin cfg5.N) :
    (iblk5 (F := Ideal) V c 3 t : Vec Ideal S32x32 .f32) = (V c main_v64 : Vec Ideal S32x32 .f32) := by
  obtain ⟨-, -, -, -, -, -, e0, e1, -⟩ := maps5 t
  funext j
  show (V c main_v64 : Vec Ideal S32x32 .f32) (((cfg5.win 3).blk t).view.emb j) = _
  refine congrArg _ (funext fun a => Fin.ext ?_)
  match a with
  | ⟨0, _⟩ => show win5_3.index t (0 : Fin 2) * 32 + 1 * (j 0).val = (j 0).val; rw [e0]; omega
  | ⟨1, _⟩ => show win5_3.index t (1 : Fin 2) * 32 + 1 * (j 1).val = (j 1).val; rw [e1]; omega

/-- The first bias is read whole at every point. -/
theorem blk5_4 (c : Dev nD) (t : Fin cfg5.N) :
    (iblk5 (F := Ideal) V c 4 t : Vec Ideal S32 .f32) = (V c main_arg25 : Vec Ideal S32 .f32) := by
  obtain ⟨-, -, -, -, -, -, -, -, e0, -⟩ := maps5 t
  funext j
  show (V c main_arg25 : Vec Ideal S32 .f32) (((cfg5.win 4).blk t).view.emb j) = _
  refine congrArg _ (funext fun a => Fin.ext ?_)
  match a with
  | ⟨0, _⟩ => show win5_4.index t (0 : Fin 1) * 32 + 1 * (j 0).val = (j 0).val; rw [e0]; omega

/-- The second weight matrix is read whole at every point. -/
theorem blk5_5 (c : Dev nD) (t : Fin cfg5.N) :
    (iblk5 (F := Ideal) V c 5 t : Vec Ideal S32x32 .f32) = (V c main_arg26 : Vec Ideal S32x32 .f32) := by
  obtain ⟨-, -, -, -, -, -, -, -, -, e0, e1, -⟩ := maps5 t
  funext j
  show (V c main_arg26 : Vec Ideal S32x32 .f32) (((cfg5.win 5).blk t).view.emb j) = _
  refine congrArg _ (funext fun a => Fin.ext ?_)
  match a with
  | ⟨0, _⟩ => show win5_5.index t (0 : Fin 2) * 32 + 1 * (j 0).val = (j 0).val; rw [e0]; omega
  | ⟨1, _⟩ => show win5_5.index t (1 : Fin 2) * 32 + 1 * (j 1).val = (j 1).val; rw [e1]; omega

/-- The second bias is read whole at every point. -/
theorem blk5_6 (c : Dev nD) (t : Fin cfg5.N) :
    (iblk5 (F := Ideal) V c 6 t : Vec Ideal S32 .f32) = (V c main_arg27 : Vec Ideal S32 .f32) := by
  obtain ⟨-, -, -, -, -, -, -, -, -, -, -, e0, -⟩ := maps5 t
  funext j
  show (V c main_arg27 : Vec Ideal S32 .f32) (((cfg5.win 6).blk t).view.emb j) = _
  refine congrArg _ (funext fun a => Fin.ext ?_)
  match a with
  | ⟨0, _⟩ => show win5_6.index t (0 : Fin 1) * 32 + 1 * (j 0).val = (j 0).val; rw [e0]; omega

/-- What point `t` writes back: rows `2000 t … 2000 t + 1999` of the mixing layer of the two branch arrays. -/
theorem flushed5 (c : Dev nD) (t : Fin cfg5.N) :
    (dat5 (F := Ideal) V c).flushed 7 t
      = ((cfg5.win 7).blk t).view.read (Elt Ideal)
          (Cert.Spec.mixingHalves (V c main_v47) (V c main_v62) (V c main_v63) (V c main_v64) (V c main_arg25) (V c main_arg26) (V c main_arg27)) := by
  show (cfg5.win 7).cut (grid5.coords t) ((dat5 (F := Ideal) V c).after 7 t) = _
  rw [after5_7]
  unfold out5_7
  rw [View.canon_unit_zero offsets2_zero]
  simp only [View.ld_unit_zero (S := S2000x32) offsets2_zero, View.ld_unit_zero (S := S32x32) offsets2_zero, View.ld_unit_zero (S := S32) offsets1_zero]
  obtain ⟨-, -, -, -, -, -, -, -, -, -, -, -, e0, e1⟩ := maps5 t
  have ht : t.val < 50 := lt_of_lt_of_eq t.isLt N_5
  funext j
  obtain ⟨p, q, rfl⟩ : ∃ (p : Fin 2000) (q : Fin 32), j = ix2 p q := ⟨j 0, j 1, eq_ix2 j⟩
  have hp : p.val < 2000 := p.isLt
  have hr : 2000 * t.val + p.val < 100000 := by omega
  show k5_pay1 (F := Ideal) (iblk5 V c 0 t) (iblk5 V c 2 t) (iblk5 V c 1 t) (iblk5 V c 3 t) (iblk5 V c 4 t) (iblk5 V c 5 t) (iblk5 V c 6 t) (ix2 p q)
      = Cert.Spec.mixingHalves (V c main_v47) (V c main_v62) (V c main_v63) (V c main_v64) (V c main_arg25) (V c main_arg26) (V c main_arg27) (((cfg5.win 7).blk t).view.emb (ix2 p q))
  have hemb : ((cfg5.win 7).blk t).view.emb (ix2 p q) = (ix2 (⟨2000 * t.val + p.val, hr⟩ : Fin 100000) q : S100000x32.Idx) := by
    funext a; apply Fin.ext
    match a with
    | ⟨0, _⟩ => show win5_7.index t (0 : Fin 2) * 2000 + 1 * p.val = 2000 * t.val + p.val; rw [e0]; omega
    | ⟨1, _⟩ => show win5_7.index t (1 : Fin 2) * 32 + 1 * q.val = q.val; rw [e1]; omega
  rw [hemb, Cert.Spec.mixingHalves_apply]
  refine (k5_pay1_apply (iblk5 V c 0 t) (iblk5 V c 2 t) (iblk5 V c 1 t) (iblk5 V c 3 t) (iblk5 V c 4 t) (iblk5 V c 5 t) (iblk5 V c 6 t) p q).trans ?_
  exact mix_congr (funext fun l => blk5_0 V c t p l _ rfl) (funext fun l => blk5_1 V c t p l _ rfl)
    (blk5_2 V c t) (blk5_3 V c t) (blk5_4 V c t) (blk5_5 V c t) (blk5_6 V c t) q

/-- An entry of the output array lies in point `t`'s block iff each coordinate is in the block's range. -/
theorem mem_blk5 (t : Fin cfg5.N) (i : S100000x32.Idx) :
    i ∈ ((cfg5.win 7).blk t).view.set
      ↔ ∀ a : Fin 2, win5_7.index t a * S2000x32.size a ≤ (i a).val ∧ (i a).val < win5_7.index t a * S2000x32.size a + S2000x32.size a := by
  show i ∈ ((View.whole main_v65).slice (win5_7.rect t)).set ↔ _
  rw [View.set_slice_whole, Rect.mem_set_unit]
  exact Iff.rfl

/-- Every entry of the output array is written back by some point: row `r` by point `r / 2000`. -/
theorem cover5 (i : S100000x32.Idx) :
    ∃ t : Fin cfg5.N, (cfg5.win 7).flush t = true ∧ i ∈ ((cfg5.win 7).blk t).view.set := by
  have hi0 : (i 0).val < 100000 := (i 0).isLt
  have hi1 : (i 1).val < 32 := (i 1).isLt
  have hlt : (i 0).val / 2000 < cfg5.N := by rw [show cfg5.N = 50 from N_5]; omega
  obtain ⟨t, ht⟩ : ∃ t : Fin cfg5.N, t.val = (i 0).val / 2000 := ⟨⟨_, hlt⟩, rfl⟩
  obtain ⟨-, -, -, -, -, -, -, -, -, -, -, -, e0, e1⟩ := maps5 t
  refine ⟨t, flush5_7 t, ?_⟩
  rw [mem_blk5]
  intro a
  match a with
  | ⟨0, _⟩ =>
    show win5_7.index t (0 : Fin 2) * 2000 ≤ (i 0).val ∧ (i 0).val < win5_7.index t (0 : Fin 2) * 2000 + 2000
    rw [e0, ht]; omega
  | ⟨1, _⟩ =>
    show win5_7.index t (1 : Fin 2) * 32 ≤ (i 1).val ∧ (i 1).val < win5_7.index t (1 : Fin 2) * 32 + 32
    rw [e1]; omega

theorem region5 (c : Dev nD) :
    (dat5 (F := Ideal) V c).arrAt 7 cfg5.N
      = Cert.Spec.mixingHalves (V c main_v47) (V c main_v62) (V c main_v63) (V c main_v64) (V c main_arg25) (V c main_arg26) (V c main_arg27) :=
  (dat5 (F := Ideal) V c).arrAt_eq_of_cover 7
    (Cert.Spec.mixingHalves (V c main_v47) (V c main_v62) (V c main_v63) (V c main_v64) (V c main_arg25) (V c main_arg26) (V c main_arg27))
    (fun t _ => flushed5 V c t) cover5

end Cert.KernelIdeal.Val

end
-- ==== Proof.KChain1.lean ====
/-
  The kernel program from its launch to the first mixing layer's output, boundary by boundary.

  Each boundary's contents are a fold from the launch memory: a host stretch applies its operations, a pallas_call
  leaves its output array at what its region computes and every other buffer as it found it. Read back through
  that fold: the two first-layer graph-isomorphism outputs are the network's `gin` of the features and their host
  aggregation over the local and the global edge list, and the first mixing output is the network's `mixing` of
  the two, the host's two halves of the first weight matrix put back together.
-/
import proofs.«412192_j67508295958858_4_alg».proof.Proof.Gen.KernelIdeal.Frame
import proofs.«412192_j67508295958858_4_alg».proof.Proof.KRun
import proofs.«412192_j67508295958858_4_alg».proof.Proof.KHost
import proofs.«412192_j67508295958858_4_alg».proof.Proof.KLaws
import proofs.«412192_j67508295958858_4_alg».proof.Proof.Spec
import proofs.«412192_j67508295958858_4_alg».proof.Proof.KRegionGin
import proofs.«412192_j67508295958858_4_alg».proof.Proof.KRegionMix
import Idealize.ShloMosaic.Lib.StableHlo.Run
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open scoped BigOperators
open Idealize.ShloMosaic.StableHlo

variable (m : (ℓ : Loc nD τ sig) → Buf (Elt Ideal) ℓ) (ρ : Dev nD → PrngReg)

/-! ## Region 0: the first layer over the local edges -/

set_option maxHeartbeats 4000000 in
/-- The host aggregates the features over the local edge list. -/
theorem W1_v13 (c : Dev nD) : W1 m ρ c (Proc.devRef .tc main_v13) = agg64 (m ((c : Thread nD τ).loc main_arg0)) (m ((c : Thread nD τ).loc main_arg1)) := by
  dsimp only [W1]
  after_results
  rfl

theorem W2_v14 (c : Dev nD) :
    W2 m ρ c (Proc.devRef .tc main_v14) = Cert.Spec.gin (m ((c : Thread nD τ).loc main_arg0)) (agg64 (m ((c : Thread nD τ).loc main_arg0)) (m ((c : Thread nD τ).loc main_arg1))) (m ((c : Thread nD τ).loc main_arg4)) (m ((c : Thread nD τ).loc main_arg5)) (m ((c : Thread nD τ).loc main_arg6)) (m ((c : Thread nD τ).loc main_arg7)) := by
  refine (W2_arr m ρ c 6).trans ((region0 (V1 m ρ) c).trans ?_)
  show Cert.Spec.gin (W1 m ρ c (Proc.devRef .tc main_arg0)) (W1 m ρ c (Proc.devRef .tc main_v13)) (W1 m ρ c (Proc.devRef .tc main_arg4)) (W1 m ρ c (Proc.devRef .tc main_arg5)) (W1 m ρ c (Proc.devRef .tc main_arg6)) (W1 m ρ c (Proc.devRef .tc main_arg7)) = _
  rw [W1_main_arg0 m ρ c, W1_v13 m ρ c, W1_main_arg4 m ρ c, W1_main_arg5 m ρ c, W1_main_arg6 m ρ c, W1_main_arg7 m ρ c]

/-! ## Region 1: the first layer over the global edges -/

set_option maxHeartbeats 4000000 in
theorem W3_v28 (c : Dev nD) : W3 m ρ c (Proc.devRef .tc main_v28) = agg64 (m ((c : Thread nD τ).loc main_arg0)) (m ((c : Thread nD τ).loc main_arg2)) := by
  dsimp only [W3]
  after_results
  rw [W2_main_arg0 m ρ c, W2_main_arg2 m ρ c]
  rfl

theorem W4_v29 (c : Dev nD) :
    W4 m ρ c (Proc.devRef .tc main_v29) = Cert.Spec.gin (m ((c : Thread nD τ).loc main_arg0)) (agg64 (m ((c : Thread nD τ).loc main_arg0)) (m ((c : Thread nD τ).loc main_arg2))) (m ((c : Thread nD τ).loc main_arg8)) (m ((c : Thread nD τ).loc main_arg9)) (m ((c : Thread nD τ).loc main_arg10)) (m ((c : Thread nD τ).loc main_arg11)) := by
  refine (W4_arr m ρ c 6).trans ((region1 (V3 m ρ) c).trans ?_)
  show Cert.Spec.gin (W3 m ρ c (Proc.devRef .tc main_arg0)) (W3 m ρ c (Proc.devRef .tc main_v28)) (W3 m ρ c (Proc.devRef .tc main_arg8)) (W3 m ρ c (Proc.devRef .tc main_arg9)) (W3 m ρ c (Proc.devRef .tc main_arg10)) (W3 m ρ c (Proc.devRef .tc main_arg11)) = _
  rw [W3_main_arg0 m ρ c, W3_v28 m ρ c, W3_main_arg8 m ρ c, W3_main_arg9 m ρ c, W3_main_arg10 m ρ c, W3_main_arg11 m ρ c]

/-! ## Region 2: the first mixing layer -/

/-- The first branch's output is still there when the mixing call is entered: the second branch's host stretch,
    its pallas_call and the weight slices write other buffers. -/
theorem W5_v14 (c : Dev nD) : W5 m ρ c (Proc.devRef .tc main_v14) = W2 m ρ c (Proc.devRef .tc main_v14) := by
  have h1 : W5 m ρ c (Proc.devRef .tc main_v14) = W4 m ρ c (Proc.devRef .tc main_v14) := by dsimp only [W5]; after_results
  have h2 : W4 m ρ c (Proc.devRef .tc main_v14) = W3 m ρ c (Proc.devRef .tc main_v14) := W4_of_ne m ρ c main_v14 (by decide)
  have h3 : W3 m ρ c (Proc.devRef .tc main_v14) = W2 m ρ c (Proc.devRef .tc main_v14) := by dsimp only [W3]; after_results
  exact h1.trans (h2.trans h3)

theorem W5_v29 (c : Dev nD) : W5 m ρ c (Proc.devRef .tc main_v29) = W4 m ρ c (Proc.devRef .tc main_v29) := by
  dsimp only [W5]; after_results

theorem W5_v30 (c : Dev nD) : W5 m ρ c (Proc.devRef .tc main_v30) = upper (m ((c : Thread nD τ).loc main_arg12)) := by
  dsimp only [W5]
  after_results
  rw [W4_main_arg12 m ρ c]
  rfl

theorem W5_v31 (c : Dev nD) : W5 m ρ c (Proc.devRef .tc main_v31) = lower (m ((c : Thread nD τ).loc main_arg12)) := by
  dsimp only [W5]
  after_results
  rw [W4_main_arg12 m ρ c]
  rfl

/-- The first mixing layer's output, over whatever the two branches left (`X1`, `X2`). -/
theorem W6_v32 (c : Dev nD) (X1 X2 : Cert.Spec.Mat 100000 32)
    (h1 : W2 m ρ c (Proc.devRef .tc main_v14) = X1) (h2 : W4 m ρ c (Proc.devRef .tc main_v29) = X2) :
    W6 m ρ c (Proc.devRef .tc main_v32) = Cert.Spec.mixing X1 X2 (m ((c : Thread nD τ).loc main_arg12)) (m ((c : Thread nD τ).loc main_arg13)) (m ((c : Thread nD τ).loc main_arg14)) (m ((c : Thread nD τ).loc main_arg15)) := by
  refine (W6_arr m ρ c 7).trans ((region2 (V5 m ρ) c).trans ?_)
  show Cert.Spec.mixingHalves (W5 m ρ c (Proc.devRef .tc main_v14)) (W5 m ρ c (Proc.devRef .tc main_v29)) (W5 m ρ c (Proc.devRef .tc main_v30)) (W5 m ρ c (Proc.devRef .tc main_v31)) (W5 m ρ c (Proc.devRef .tc main_arg13)) (W5 m ρ c (Proc.devRef .tc main_arg14)) (W5 m ρ c (Proc.devRef .tc main_arg15)) = _
  rw [W5_v14 m ρ c, W5_v29 m ρ c, W5_v30 m ρ c, W5_v31 m ρ c, W5_main_arg13 m ρ c, W5_main_arg14 m ρ c, W5_main_arg15 m ρ c, h1, h2]
  exact mixingHalves_upper_lower X1 X2 _ _ _ _

end Cert.KernelIdeal.Val

end
-- ==== Proof.KChain2.lean ====
/-
  The kernel program from the first mixing layer's output to the second one's, boundary by boundary.

  The second layer runs on the mixed features `H` (whatever the first mixing call left): the host aggregates `H`
  over the local and over the global edge list, each graph-isomorphism call applies its perceptron to `H` plus the
  aggregation and rectifies, and the second mixing call puts the two together. `H` stays in its buffer all the
  way: a call that reads it through an input window leaves the array as it found it.
-/
import proofs.«412192_j67508295958858_4_alg».proof.Proof.Gen.KernelIdeal.Frame
import proofs.«412192_j67508295958858_4_alg».proof.Proof.KRun
import proofs.«412192_j67508295958858_4_alg».proof.Proof.KHost
import proofs.«412192_j67508295958858_4_alg».proof.Proof.KLaws
import proofs.«412192_j67508295958858_4_alg».proof.Proof.Spec
import proofs.«412192_j67508295958858_4_alg».proof.Proof.KRegionGin
import proofs.«412192_j67508295958858_4_alg».proof.Proof.KRegionMix
import Idealize.ShloMosaic.Lib.StableHlo.Run
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open scoped BigOperators
open Idealize.ShloMosaic.StableHlo

variable (m : (ℓ : Loc nD τ sig) → Buf (Elt Ideal) ℓ) (ρ : Dev nD → PrngReg)

/-! ## Region 3: the second layer over the local edges -/

set_option maxHeartbeats 4000000 in
theorem W7_v46 (c : Dev nD) : W7 m ρ c (Proc.devRef .tc main_v46) = agg32 (W6 m ρ c (Proc.devRef .tc main_v32)) (m ((c : Thread nD τ).loc main_arg1)) := by
  dsimp only [W7]
  after_results
  rw [W6_main_arg1 m ρ c]
  rfl

theorem W7_v32 (c : Dev nD) : W7 m ρ c (Proc.devRef .tc main_v32) = W6 m ρ c (Proc.devRef .tc main_v32) := by
  dsimp only [W7]; after_results

theorem W8_v47 (c : Dev nD) (H : Cert.Spec.Mat 100000 32) (hH : W6 m ρ c (Proc.devRef .tc main_v32) = H) :
    W8 m ρ c (Proc.devRef .tc main_v47) = Cert.Spec.relu (Cert.Spec.gin H (agg32 H (m ((c : Thread nD τ).loc main_arg1))) (m ((c : Thread nD τ).loc main_arg16)) (m ((c : Thread nD τ).loc main_arg17)) (m ((c : Thread nD τ).loc main_arg18)) (m ((c : Thread nD τ).loc main_arg19))) := by
  refine (W8_arr m ρ c 6).trans ((region3 (V7 m ρ) c).trans ?_)
  show Cert.Spec.relu (Cert.Spec.gin (W7 m ρ c (Proc.devRef .tc main_v32)) (W7 m ρ c (Proc.devRef .tc main_v46)) (W7 m ρ c (Proc.devRef .tc main_arg16)) (W7 m ρ c (Proc.devRef .tc main_arg17)) (W7 m ρ c (Proc.devRef .tc main_arg18)) (W7 m ρ c (Proc.devRef .tc main_arg19))) = _
  rw [W7_v32 m ρ c, W7_v46 m ρ c, W7_main_arg16 m ρ c, W7_main_arg17 m ρ c, W7_main_arg18 m ρ c, W7_main_arg19 m ρ c, hH]

/-! ## Region 4: the second layer over the global edges -/

/-- The mixed features are an INPUT of region 3: its array ends as the region found it. -/
theorem W8_v32 (c : Dev nD) : W8 m ρ c (Proc.devRef .tc main_v32) = W6 m ρ c (Proc.devRef .tc main_v32) :=
  ((W8_arr m ρ c 0).trans (((dat3 (V7 m ρ) c).arrAt_in 0 rfl _).trans (A_eq3 (V7 m ρ) c 0))).trans (W7_v32 m ρ c)

set_option maxHeartbeats 4000000 in
theorem W9_v61 (c : Dev nD) : W9 m ρ c (Proc.devRef .tc main_v61) = agg32 (W8 m ρ c (Proc.devRef .tc main_v32)) (m ((c : Thread nD τ).loc main_arg2)) := by
  dsimp only [W9]
  after_results
  rw [W8_main_arg2 m ρ c]
  rfl

theorem W9_v32 (c : Dev nD) : W9 m ρ c (Proc.devRef .tc main_v32) = W8 m ρ c (Proc.devRef .tc main_v32) := by
  dsimp only [W9]; after_results

theorem W10_v62 (c : Dev nD) (H : Cert.Spec.Mat 100000 32) (hH : W6 m ρ c (Proc.devRef .tc main_v32) = H) :
    W10 m ρ c (Proc.devRef .tc main_v62) = Cert.Spec.relu (Cert.Spec.gin H (agg32 H (m ((c : Thread nD τ).loc main_arg2))) (m ((c : Thread nD τ).loc main_arg20)) (m ((c : Thread nD τ).loc main_arg21)) (m ((c : Thread nD τ).loc main_arg22)) (m ((c : Thread nD τ).loc main_arg23))) := by
  refine (W10_arr m ρ c 6).trans ((region4 (V9 m ρ) c).trans ?_)
  show Cert.Spec.relu (Cert.Spec.gin (W9 m ρ c (Proc.devRef .tc main_v32)) (W9 m ρ c (Proc.devRef .tc main_v61)) (W9 m ρ c (Proc.devRef .tc main_arg20)) (W9 m ρ c (Proc.devRef .tc main_arg21)) (W9 m ρ c (Proc.devRef .tc main_arg22)) (W9 m ρ c (Proc.devRef .tc main_arg23))) = _
  rw [W9_v32 m ρ c, W9_v61 m ρ c, W8_v32 m ρ c, W9_main_arg20 m ρ c, W9_main_arg21 m ρ c, W9_main_arg22 m ρ c, W9_main_arg23 m ρ c, hH]

/-! ## Region 5: the second mixing layer -/

theorem W11_v47 (c : Dev nD) : W11 m ρ c (Proc.devRef .tc main_v47) = W8 m ρ c (Proc.devRef .tc main_v47) := by
  have h1 : W11 m ρ c (Proc.devRef .tc main_v47) = W10 m ρ c (Proc.devRef .tc main_v47) := by dsimp only [W11]; after_results
  have h2 : W10 m ρ c (Proc.devRef .tc main_v47) = W9 m ρ c (Proc.devRef .tc main_v47) := W10_of_ne m ρ c main_v47 (by decide)
  have h3 : W9 m ρ c (Proc.devRef .tc main_v47) = W8 m ρ c (Proc.devRef .tc main_v47) := by dsimp only [W9]; after_results
  exact h1.trans (h2.trans h3)

theorem W11_v62 (c : Dev nD) : W11 m ρ c (Proc.devRef .tc main_v62) = W10 m ρ c (Proc.devRef .tc main_v62) := by
  dsimp only [W11]; after_results

theorem W11_v63 (c : Dev nD) : W11 m ρ c (Proc.devRef .tc main_v63) = upper (m ((c : Thread nD τ).loc main_arg24)) := by
  dsimp only [W11]
  after_results
  rw [W10_main_arg24 m ρ c]
  rfl

theorem W11_v64 (c : Dev nD) : W11 m ρ c (Proc.devRef .tc main_v64) = lower (m ((c : Thread nD τ).loc main_arg24)) := by
  dsimp only [W11]
  after_results
  rw [W10_main_arg24 m ρ c]
  rfl

/-- The second mixing layer's output, over whatever the two second-layer branches left (`Y1`, `Y2`). -/
theorem W12_v65 (c : Dev nD) (Y1 Y2 : Cert.Spec.Mat 100000 32)
    (h1 : W8 m ρ c (Proc.devRef .tc main_v47) = Y1) (h2 : W10 m ρ c (Proc.devRef .tc main_v62) = Y2) :
    W12 m ρ c (Proc.devRef .tc main_v65) = Cert.Spec.mixing Y1 Y2 (m ((c : Thread nD τ).loc main_arg24)) (m ((c : Thread nD τ).loc main_arg25)) (m ((c : Thread nD τ).loc main_arg26)) (m ((c : Thread nD τ).loc main_arg27)) := by
  refine (W12_arr m ρ c 7).trans ((region5 (V11 m ρ) c).trans ?_)
  show Cert.Spec.mixingHalves (W11 m ρ c (Proc.devRef .tc main_v47)) (W11 m ρ c (Proc.devRef .tc main_v62)) (W11 m ρ c (Proc.devRef .tc main_v63)) (W11 m ρ c (Proc.devRef .tc main_v64)) (W11 m ρ c (Proc.devRef .tc main_arg25)) (W11 m ρ c (Proc.devRef .tc main_arg26)) (W11 m ρ c (Proc.devRef .tc main_arg27)) = _
  rw [W11_v47 m ρ c, W11_v62 m ρ c, W11_v63 m ρ c, W11_v64 m ρ c, W11_main_arg25 m ρ c, W11_main_arg26 m ρ c, W11_main_arg27 m ρ c, h1, h2]
  exact mixingHalves_upper_lower Y1 Y2 _ _ _ _

end Cert.KernelIdeal.Val

end
-- ==== Proof.KPayPool.lean ====
/-
  The pooling kernel's two stored values, read at one entry of the `1024 × 32` accumulator.

  The reset value is the splat of the zero word, so it is `0` everywhere. The accumulation adds, to what the
  accumulator held, a product that contracts the ROW axis of both operands: the left operand is the one-hot matrix
  whose entry `(p, g)` is `1` when row `p`'s graph word equals the word of `g` (an equality test of the
  word against the lane counter, widened and converted exactly) and `0` otherwise; the right operand is the
  block of rows `h`. The contraction index has one coordinate `p : Fin 2000`, both operands are read on row
  `p`, and `1 · x = x`, `0 · x = 0` hold on the extended reals for every `x`, infinite ones included. Hence
  entry `(g, q)` becomes `acc (g, q) + ∑ p, [bt p = g] · h (p, q)`: the sum of the rows of graph `g`.
-/
import proofs.«412192_j67508295958858_4_alg».proof.Proof.Gen.KernelIdeal.Skeleton
import proofs.«412192_j67508295958858_4_alg».proof.Proof.Spec
import proofs.«412192_j67508295958858_4_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open scoped BigOperators

/-! ## The one-hot matrix, entry by entry -/

/-- An equality test of two words, widened from one bit to a word and read as a signed integer, is the
    indicator of the equality: the number one when the words agree, zero when they do not. -/
theorem indicator_word (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  by_cases hab : a = b
  · have one : ((BitVec.ofBool true).setWidth 32).toInt = 1 := by decide
    rw [if_pos hab, beq_iff_eq.mpr hab, one, Int.cast_one, EReal.coe_one]
  · have zero : ((BitVec.ofBool false).setWidth 32).toInt = 0 := by decide
    rw [if_neg hab, beq_eq_false_iff_ne.mpr hab, zero, Int.cast_zero, EReal.coe_zero]

/-- The lane counter along the second axis of the `2000 × 1024` block is, at `(p, g)`, the word of `g`. -/
theorem lane_word (hi : S2000x1024.Iotas .tc 32 [1]) (p : Fin 2000) (g : Fin 1024) :
    iota .tc S2000x1024 32 [1] hi (ix2 p g) = BitVec.ofNat 32 g.val := by
  show BitVec.ofNat 32 (0 * 1024 + g.val) = _
  rw [Nat.zero_mul, Nat.zero_add]

/-- A `2000 × 1` column spread over `1024` lanes reads, at `(p, g)`, the column's entry of row `p`. -/
theorem column_spread {α : Type} (v : S2000x1.Idx → α) (hb : S2000x1.Broadcasts S2000x1024) (p : Fin 2000) (g : Fin 1024) :
    broadcastTo S2000x1024 v hb (ix2 p g) = v (ix2 p (0 : Fin 1)) := by
  refine broadcastTo_apply v hb (ix2 p g) (ix2 p (0 : Fin 1)) fun ax => ?_
  match ax with
  | ⟨0, _⟩ => rfl
  | ⟨1, _⟩ => rfl

/-- The one-hot matrix at `(p, g)`: one when row `p`'s graph word is the word of `g`, zero otherwise. -/
theorem onehot_apply (bt : IVec S2000x1 32) (hb : S2000x1.Broadcasts S2000x1024) (hi : S2000x1024.Iotas .tc 32 [1])
    (hw : 1 < 32) (p : Fin 2000) (g : Fin 1024) :
    (sitofp .f32 (extui 32 (cmpi .eq (broadcastTo S2000x1024 bt hb) (iota .tc S2000x1024 32 [1] hi)) hw) : FVec Ideal S2000x1024 .f32)
        (ix2 p g)
      = if bt (ix2 p (0 : Fin 1)) = BitVec.ofNat 32 g.val then (1 : EReal) else 0 := by
  show FloatOps.sitofp (F := Ideal) .f32
      ((IntOp.cmpi .eq (broadcastTo S2000x1024 bt hb (ix2 p g)) (iota .tc S2000x1024 32 [1] hi (ix2 p g))).setWidth 32) = _
  rw [column_spread, lane_word, indicator_word]

/-! ## The product that contracts the row axis of both operands -/

/-- On the left operand's row axis, the contracted one, the index is the contraction coordinate. -/
theorem lhs_rows_0 (i : S1024x32.Idx) (k : dot_S2000x1024_S2000x32_S1024x32_0_0_1_1_n_n.contr.Idx) :
    (dot_S2000x1024_S2000x32_S1024x32_0_0_1_1_n_n.lhsIdx i k 0).val = (k ⟨0, by decide⟩).val :=
  dot_S2000x1024_S2000x32_S1024x32_0_0_1_1_n_n.lhsIdx_val_of_single rfl i k
/-- On the left operand's lane axis, the free one, the index is the result's first coordinate. -/
theorem lhs_rows_1 (i : S1024x32.Idx) (k : dot_S2000x1024_S2000x32_S1024x32_0_0_1_1_n_n.contr.Idx) :
    (dot_S2000x1024_S2000x32_S1024x32_0_0_1_1_n_n.lhsIdx i k 1).val = (i 0).val := by
  unfold DotDims.lhsIdx
  rw [dif_neg (show ¬(1 : Fin S2000x1024.rank) ∈ dot_S2000x1024_S2000x32_S1024x32_0_0_1_1_n_n.lhsBatch by decide), dif_pos (show (1 : Fin S2000x1024.rank) ∈ dot_S2000x1024_S2000x32_S1024x32_0_0_1_1_n_n.lhsNonContracting by decide)]
  rfl
/-- On the right operand's row axis, the contracted one, the index is the contraction coordinate. -/
theorem rhs_rows_0 (i : S1024x32.Idx) (k : dot_S2000x1024_S2000x32_S1024x32_0_0_1_1_n_n.contr.Idx) :
    (dot_S2000x1024_S2000x32_S1024x32_0_0_1_1_n_n.rhsIdx i k 0).val = (k ⟨0, by decide⟩).val :=
  dot_S2000x1024_S2000x32_S1024x32_0_0_1_1_n_n.rhsIdx_val_of_single rfl i k
/-- On the right operand's column axis, the free one, the index is the result's second coordinate. -/
theorem rhs_rows_1 (i : S1024x32.Idx) (k : dot_S2000x1024_S2000x32_S1024x32_0_0_1_1_n_n.contr.Idx) :
    (dot_S2000x1024_S2000x32_S1024x32_0_0_1_1_n_n.rhsIdx i k 1).val = (i 1).val := by
  unfold DotDims.rhsIdx
  rw [dif_neg (show ¬(1 : Fin S2000x32.rank) ∈ dot_S2000x1024_S2000x32_S1024x32_0_0_1_1_n_n.rhsBatch by decide), dif_pos (show (1 : Fin S2000x32.rank) ∈ dot_S2000x1024_S2000x32_S1024x32_0_0_1_1_n_n.rhsNonContracting by decide)]
  rfl

/-- The product of a `2000 × 1024` and a `2000 × 32` operand over their common row axis, into the zero
    accumulator, at `(g, q)`: the sum over the rows `p` of `lhs (p, g) · rhs (p, q)`. -/
theorem rows_product_apply (lhs : FVec Ideal S2000x1024 .f32) (rhs : FVec Ideal S2000x32 .f32) (g : Fin 1024) (q : Fin 32) :
    FloatOps.matmul dot_S2000x1024_S2000x32_S1024x32_0_0_1_1_n_n none lhs rhs (constant S1024x32 .f32 0x00000000#32) (ix2 g q)
      = ∑ p : Fin 2000, lhs (ix2 p g) * rhs (ix2 p q) := by
  rw [Ideal.matmul_constant_zero_apply, ← Equiv.sum_comp (contrEquiv1 dot_S2000x1024_S2000x32_S1024x32_0_0_1_1_n_n 2000 rfl rfl).symm]
  refine Finset.sum_congr rfl fun p _ => ?_
  have hp := contrEquiv1_symm_val dot_S2000x1024_S2000x32_S1024x32_0_0_1_1_n_n 2000 rfl rfl p
  have el : dot_S2000x1024_S2000x32_S1024x32_0_0_1_1_n_n.lhsIdx (ix2 g q) ((contrEquiv1 dot_S2000x1024_S2000x32_S1024x32_0_0_1_1_n_n 2000 rfl rfl).symm p) = ix2 p g := funext fun a => Fin.ext (by
    match a with
    | ⟨0, _⟩ => exact (lhs_rows_0 _ _).trans hp
    | ⟨1, _⟩ => exact lhs_rows_1 _ _)
  have er : dot_S2000x1024_S2000x32_S1024x32_0_0_1_1_n_n.rhsIdx (ix2 g q) ((contrEquiv1 dot_S2000x1024_S2000x32_S1024x32_0_0_1_1_n_n 2000 rfl rfl).symm p) = ix2 p q := funext fun a => Fin.ext (by
    match a with
    | ⟨0, _⟩ => exact (rhs_rows_0 _ _).trans hp
    | ⟨1, _⟩ => exact rhs_rows_1 _ _)
  rw [el, er]

/-! ## The two stored values -/

/-- The first point's reset stores zero everywhere. -/
theorem k6_pay1_apply (i : S1024x32.Idx) : k6_pay1 (F := Ideal) i = 0 := by
  unfold k6_pay1
  show Ideal.ofBits .f32 0x00000000#32 = 0
  exact Ideal.ofBits_zero_f32

/-- The accumulation at `(g, q)`: what was there plus the block's rows whose graph word is the word `g`. -/
theorem k6_pay2_apply (bt : Vec Ideal S2000x1 .i32) (h : Vec Ideal S2000x32 .f32) (acc : Vec Ideal S1024x32 .f32) (g : Fin 1024) (q : Fin 32) :
    k6_pay2 (F := Ideal) bt h acc (ix2 g q)
      = acc (ix2 g q) + ∑ p : Fin 2000, if bt (ix2 p (0 : Fin 1)) = BitVec.ofNat 32 g.val then h (ix2 p q) else 0 := by
  unfold k6_pay2
  simp only [addf_apply, shapeCast_self, matmul]
  rw [rows_product_apply]
  refine congrArg (acc (ix2 g q) + ·) (Finset.sum_congr rfl fun p _ => ?_)
  rw [onehot_apply]
  by_cases hbt : bt (ix2 p (0 : Fin 1)) = BitVec.ofNat 32 g.val
  · rw [if_pos hbt, if_pos hbt, one_mul]
  · rw [if_neg hbt, if_neg hbt, zero_mul]

end Cert.KernelIdeal.Val

end
-- ==== Proof.KRegionPool.lean ====
/-
  What the pooling region leaves in its output array. The grid has fifty points; point t sees rows 2000 t … 2000 t + 1999
  of the column of graph words and of the node features, and the whole 1024 × 32 output block, which is carried from point
  to point and written back once, after the last point. The first point resets the block to zero, and every point adds,
  at entry (g, q), feature q of those of its 2000 nodes whose graph word is the word g. So after point n the block holds
  at (g, q) the sum of these addends over the points up to n (induction on the point), and after the last point the sum
  over all fifty blocks, which is the sum over all 100000 nodes: the pooled array.
-/
import proofs.«412192_j67508295958858_4_alg».proof.Proof.Gen.KernelIdeal.Frame
import proofs.«412192_j67508295958858_4_alg».proof.Proof.Spec
import proofs.«412192_j67508295958858_4_alg».proof.Proof.KPayPool
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open scoped BigOperators
open Idealize.ShloMosaic.Pipeline (Dat Cfg Window)

variable (V : (c : Dev nD) → (b : Ref sig .tc) → Buf (Elt Ideal) ((c : Thread nD τ).loc b))

/-! ## What one run of the body leaves in the output's buffer -/

/-- Both offsets of every access of the body are zero. -/
theorem pool_hz : (![0, 0] : Fin 2 → Nat) = fun _ => 0 := funext fun a => by fin_cases a <;> rfl

/-- A later point: the buffer holding acc, the body leaves the accumulation step of the two input blocks on acc. -/
theorem pool_out_B (c : Dev nD) (i : grid6.Coords) (a1 : Memref sig .tc .vmem S2000x1 .i32) (h1 : a1.IsWhole)
    (a2 : Memref sig .tc .vmem S2000x32 .f32) (h2 : a2.IsWhole) (a3 : Memref sig .tc .vmem S1024x32 .f32) (h3 : a3.IsWhole)
    (hc : ¬cond6_0 i) (x0 : Vec Ideal S2000x1 .i32) (x1 : Vec Ideal S2000x32 .f32) (acc : Vec Ideal S1024x32 .f32) :
    out6_B_2 (F := Ideal) c i a1 h1 a2 h2 a3 h3 hc x0 x1 acc = k6_pay2 (F := Ideal) x0 x1 acc := by
  unfold out6_B_2
  rw [View.read_writes_eq_canon _ _ _ (cover6_B_2 c i a1 h1 a2 h2 a3 h3 hc x0 x1 acc)]
  unfold kernelRun6_B
  dsimp only
  rw [View.canon_unit_zero pool_hz]
  simp only [View.readAt_eq_ld, h1.read_unread, h2.read_unread, h3.read_unread, View.ld_unit_zero (S := S2000x1) pool_hz,
    View.ld_unit_zero (S := S2000x32) pool_hz, View.ld_unit_zero (S := S1024x32) pool_hz]

/-- The first point: the body stores zeros, reads them back, and leaves the accumulation step on the zero block. -/
theorem pool_out_A (c : Dev nD) (i : grid6.Coords) (a1 : Memref sig .tc .vmem S2000x1 .i32) (h1 : a1.IsWhole)
    (a2 : Memref sig .tc .vmem S2000x32 .f32) (h2 : a2.IsWhole) (a3 : Memref sig .tc .vmem S1024x32 .f32) (h3 : a3.IsWhole)
    (hc : cond6_0 i) (x0 : Vec Ideal S2000x1 .i32) (x1 : Vec Ideal S2000x32 .f32) :
    out6_A_2 (F := Ideal) c i a1 h1 a2 h2 a3 h3 hc x0 x1 = k6_pay2 (F := Ideal) x0 x1 (k6_pay1 (F := Ideal)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S1024x32) pool_hz, View.readCov_unit_zero (S := S1024x32) _ pool_hz]
  simp only [View.readAt_eq_ld, h1.read_unread, h2.read_unread, View.ld_unit_zero (S := S2000x1) pool_hz,
    View.ld_unit_zero (S := S2000x32) pool_hz]

/-! ## The input blocks, read off the two arrays -/

/-- Block t of the column of graph words. -/
abbrev poolW (c : Dev nD) (t : Fin cfg6.N) : Vec Ideal S2000x1 .i32 := iblk6 V c 0 t
/-- Block t of the node features. -/
abbrev poolH (c : Dev nD) (t : Fin cfg6.N) : Vec Ideal S2000x32 .f32 := iblk6 V c 1 t
/-- The whole column of graph words, one word per node. -/
abbrev poolWArr (c : Dev nD) : (⟨2, ![100000, 1]⟩ : Shape).Idx → BitVec 32 := V c main_v66
/-- The whole array of node features. -/
abbrev poolHArr (c : Dev nD) : Cert.Spec.Mat 100000 32 := V c main_v65

/-- Both input windows move down the rows with the point and stay in the first block of columns; the output window never moves. -/
theorem pool_idx : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Row p of block t of the graph words is row 2000 t + p of the column. -/
theorem poolW_apply (c : Dev nD) (t : Fin cfg6.N) (p : Fin 2000) :
    poolW V c t (ix2 p (0 : Fin 1))
      = poolWArr V c (ix2 (⟨2000 * t.val + p.val, by have := t.isLt; have : cfg6.N = 50 := N_6; omega⟩ : Fin 100000) (0 : Fin 1)) := by
  obtain ⟨e0, e1, -⟩ := pool_idx t
  show ((cfg6.win 0).blk t).view.read (Elt Ideal) (V c main_v66) (ix2 p (0 : Fin 1)) = _
  rw [View.read_apply]
  show V c main_v66 _ = V c main_v66 _
  congr 1
  funext a
  apply Fin.ext
  match a with
  | ⟨0, _⟩ => show win6_0.index t (0 : Fin 2) * 2000 + 1 * p.val = 2000 * t.val + p.val; rw [e0]; omega
  | ⟨1, _⟩ => show win6_0.index t (1 : Fin 2) * 1 + 1 * 0 = 0; rw [e1]

/-- Entry (p, q) of block t of the features is entry (2000 t + p, q) of the array. -/
theorem poolH_apply (c : Dev nD) (t : Fin cfg6.N) (p : Fin 2000) (q : Fin 32) :
    poolH V c t (ix2 p q)
      = poolHArr V c (ix2 (⟨2000 * t.val + p.val, by have := t.isLt; have : cfg6.N = 50 := N_6; omega⟩ : Fin 100000) q) := by
  obtain ⟨-, -, e0, e1, -⟩ := pool_idx t
  show ((cfg6.win 1).blk t).view.read (Elt Ideal) (V c main_v65) (ix2 p q) = _
  rw [View.read_apply]
  show V c main_v65 _ = V c main_v65 _
  congr 1
  funext a
  apply Fin.ext
  match a with
  | ⟨0, _⟩ => show win6_1.index t (0 : Fin 2) * 2000 + 1 * p.val = 2000 * t.val + p.val; rw [e0]; omega
  | ⟨1, _⟩ => show win6_1.index t (1 : Fin 2) * 32 + 1 * q.val = q.val; rw [e1]; omega

/-! ## The running sum over the points -/

/-- What node e adds to entry (g, q): its feature q if its graph word is the word g, else nothing. -/
def poolF (c : Dev nD) (g : Fin 1024) (q : Fin 32) (e : Fin 100000) : EReal :=
  if poolWArr V c (ix2 e (0 : Fin 1)) = BitVec.ofNat 32 g.val then poolHArr V c (ix2 e q) else 0

/-- What the nodes of block s add to entry (g, q) (nothing past the grid). -/
def poolTerm (c : Dev nD) (g : Fin 1024) (q : Fin 32) (s : ℕ) : EReal :=
  if h : s < 50 then ∑ p : Fin 2000, poolF V c g q ⟨2000 * s + p.val, by have := p.isLt; omega⟩ else 0

/-- The accumulation step's addend at point t, over the blocks, is the addend over the arrays. -/
theorem pool_block_sum (c : Dev nD) (g : Fin 1024) (q : Fin 32) (t : Fin cfg6.N) :
    (∑ p : Fin 2000, if poolW V c t (ix2 p (0 : Fin 1)) = BitVec.ofNat 32 g.val then poolH V c t (ix2 p q) else 0)
      = poolTerm V c g q t.val := by
  have hN : cfg6.N = 50 := N_6
  have ht : t.val < 50 := by have := t.isLt; omega
  unfold poolTerm
  rw [dif_pos ht]
  refine Finset.sum_congr rfl fun p _ => ?_
  rw [poolW_apply V c t p, poolH_apply V c t p q]
  rfl

/-- At the first point the buffer ends at that point's addend: the reset block is zero. -/
theorem pool_step_A (c : Dev nD) (t : Fin cfg6.N) (h0 : t.val % 50 = 0) (g : Fin 1024) (q : Fin 32) :
    outsAt6 V c t.val t.isLt (ix2 g q) = poolTerm V c g q t.val := by
  rw [outsAt6_A V c t h0]
  refine (congrFun (pool_out_A c (grid6.coords t) (ms6_0 t) (hs6_0 t) (ms6_1 t) (hs6_1 t) (ms6_2 t) (hs6_2 t)
    ((hcond6_0 t).mpr h0) (poolW V c t) (poolH V c t)) (ix2 g q)).trans ?_
  rw [k6_pay2_apply, k6_pay1_apply, zero_add]
  exact pool_block_sum V c g q t

/-- Two positions that are the same number hold the same contents. -/
theorem pool_outsAt_congr (c : Dev nD) : ∀ (k k' : ℕ) (hk : k < cfg6.N) (hk' : k' < cfg6.N), k = k' →
    outsAt6 V c k hk = outsAt6 V c k' hk'
  | _, _, _, _, rfl => rfl

/-- At a later point the buffer ends at what the point before left plus that point's addend. -/
theorem pool_step_B (c : Dev nD) (n : ℕ) (h : n + 1 < cfg6.N) (g : Fin 1024) (q : Fin 32) :
    outsAt6 V c (n + 1) h (ix2 g q) = outsAt6 V c n (Nat.lt_of_succ_lt h) (ix2 g q) + poolTerm V c g q (n + 1) := by
  have hN : cfg6.N = 50 := N_6
  have hB : ¬(⟨n + 1, h⟩ : Fin cfg6.N).val % 50 = 0 := by show ¬(n + 1) % 50 = 0; omega
  refine (congrFun (outsAt6_B V c ⟨n + 1, h⟩ hB) (ix2 g q)).trans ?_
  refine (congrFun (pool_out_B c (grid6.coords ⟨n + 1, h⟩) (ms6_0 ⟨n + 1, h⟩) (hs6_0 ⟨n + 1, h⟩) (ms6_1 ⟨n + 1, h⟩) (hs6_1 ⟨n + 1, h⟩)
    (ms6_2 ⟨n + 1, h⟩) (hs6_2 ⟨n + 1, h⟩) (fun hh => hB ((hcond6_0 ⟨n + 1, h⟩).mp hh)) (poolW V c ⟨n + 1, h⟩) (poolH V c ⟨n + 1, h⟩)
    (outsAt6 V c (n + 1 - 1) (Nat.lt_of_le_of_lt (Nat.sub_le _ _) h))) (ix2 g q)).trans ?_
  rw [k6_pay2_apply, pool_outsAt_congr V c (n + 1 - 1) n _ (Nat.lt_of_succ_lt h) (Nat.add_sub_cancel n 1)]
  exact congrArg _ (pool_block_sum V c g q ⟨n + 1, h⟩)

/-- After point n the buffer at (g, q) is the sum of the addends of the points up to n. -/
theorem pool_outsAt (c : Dev nD) (g : Fin 1024) (q : Fin 32) :
    ∀ (n : ℕ) (h : n < cfg6.N), outsAt6 V c n h (ix2 g q) = ∑ s ∈ Finset.range (n + 1), poolTerm V c g q s
  | 0, h => by
    rw [Finset.sum_range_one]
    exact pool_step_A V c ⟨0, h⟩ rfl g q
  | n + 1, h => by
    rw [Finset.sum_range_succ, ← pool_outsAt c g q n (Nat.lt_of_succ_lt h)]
    exact pool_step_B V c n h g q

/-! ## The output array after the run -/

/-- The pooled array: entry (g, q) adds feature q of the nodes whose graph word is the word g. -/
abbrev poolResult (c : Dev nD) : Vec Ideal S1024x32 .f32 :=
  Cert.Spec.poolWords (G := 1024) (poolWArr V c) (poolHArr V c)

/-- After the last point the buffer holds the pooled array: the fifty blocks of 2000 nodes are all the nodes. -/
theorem pool_last (c : Dev nD) (t : Fin cfg6.N) (h49 : t.val = 49) : outsAt6 V c t.val t.isLt = poolResult V c := by
  funext j
  obtain ⟨g, q, rfl⟩ : ∃ (g : Fin 1024) (q : Fin 32), j = ix2 g q := ⟨j 0, j 1, eq_ix2 j⟩
  rw [pool_outsAt V c g q t.val t.isLt, h49]
  show ∑ s ∈ Finset.range 50, poolTerm V c g q s = Cert.Spec.poolWords (G := 1024) (poolWArr V c) (poolHArr V c) (ix2 g q)
  rw [Cert.Spec.poolWords_apply]
  refine (Finset.sum_range _).trans (Eq.trans (Finset.sum_congr rfl fun s _ => ?_) (Cert.Spec.sum_rows (fun e => poolF V c g q e)))
  unfold poolTerm
  rw [dif_pos s.isLt]

/-- Every index of the output array lies in the output window's block, at every point: the block is the array. -/
theorem pool_mem_blk (t : Fin cfg6.N) (i : S1024x32.Idx) : i ∈ ((cfg6.win 2).blk t).view.set := by
  obtain ⟨-, -, -, -, e0, e1⟩ := pool_idx t
  show i ∈ ((View.whole main_v67).slice (win6_2.rect t)).set
  rw [View.set_slice_whole, Rect.mem_set_unit]
  intro a
  have h0 : (i 0).val < 1024 := (i 0).isLt
  have h1 : (i 1).val < 32 := (i 1).isLt
  match a with
  | ⟨0, _⟩ =>
    show win6_2.index t (0 : Fin 2) * 1024 ≤ (i 0).val ∧ (i 0).val < win6_2.index t (0 : Fin 2) * 1024 + 1024
    rw [e0]; omega
  | ⟨1, _⟩ =>
    show win6_2.index t (1 : Fin 2) * 32 ≤ (i 1).val ∧ (i 1).val < win6_2.index t (1 : Fin 2) * 32 + 32
    rw [e1]; omega

/-- The one write-back, after the last point, writes the pooled array. -/
theorem pool_flushed (c : Dev nD) (t : Fin cfg6.N) (hf : (cfg6.win 2).flush t = true) :
    (dat6 V c).flushed 2 t = ((cfg6.win 2).blk t).view.read (Elt Ideal) (poolResult V c) := by
  have hN : cfg6.N = 50 := N_6
  have h49 : t.val = 49 := by have h1 := (flush6_2 t).mp hf; have h2 := t.isLt; omega
  obtain ⟨-, -, -, -, e0, e1⟩ := pool_idx t
  show (cfg6.win 2).cut (grid6.coords t) ((dat6 V c).after 2 t) = _
  rw [after6_2, pool_last V c t h49]
  have hz' : (fun a => win6_2.index t a * main_v67.ty.shape.size a) = fun _ => 0 := funext fun a => by
    match a with
    | ⟨0, _⟩ => show win6_2.index t (0 : Fin 2) * 1024 = 0; rw [e0]
    | ⟨1, _⟩ => show win6_2.index t (1 : Fin 2) * 32 = 0; rw [e1]
  exact (Memref.read_access_unit_zero (Elt Ideal) main_v67 hz'
    (fun a => by rw [congrFun hz' a, Nat.zero_add]) (poolResult V c)).symm

/-- The last point of the grid. -/
abbrev pool_t49 : Fin cfg6.N := ⟨49, by rw [show cfg6.N = 50 from N_6]; decide⟩

theorem region6 (c : Dev nD) :
    (dat6 (F := Ideal) V c).arrAt 2 cfg6.N = Cert.Spec.poolWords (G := 1024) (V c main_v66) (V c main_v65) :=
  (dat6 V c).arrAt_eq_of_cover 2 (poolResult V c) (pool_flushed V c)
    (fun i => ⟨pool_t49, (flush6_2 pool_t49).mpr rfl, pool_mem_blk pool_t49 i⟩)

end Cert.KernelIdeal.Val

end
-- ==== Proof.KChain3.lean ====
/-
  The kernel program's last stretch: the pooling call and the read-out.

  The graph words are laid out as a column, the pooling call leaves in its 1024-row array, row by row, the sum of
  the node rows whose word is that row's number, and the host reads out the first 1000 rows: that is the
  network's read-out of the per-graph sums (a word equals the number `g` exactly when it reads `g` signed, for the
  rows that are kept).
-/
import proofs.«412192_j67508295958858_4_alg».proof.Proof.Gen.KernelIdeal.Frame
import proofs.«412192_j67508295958858_4_alg».proof.Proof.KRun
import proofs.«412192_j67508295958858_4_alg».proof.Proof.KHost
import proofs.«412192_j67508295958858_4_alg».proof.Proof.KLaws
import proofs.«412192_j67508295958858_4_alg».proof.Proof.Spec
import proofs.«412192_j67508295958858_4_alg».proof.Proof.KRegionPool
import Idealize.ShloMosaic.Lib.StableHlo.Run
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open scoped BigOperators
open Idealize.ShloMosaic.StableHlo

variable (m : (ℓ : Loc nD τ sig) → Buf (Elt Ideal) ℓ) (ρ : Dev nD → PrngReg)

theorem W13_v66 (c : Dev nD) : W13 m ρ c (Proc.devRef .tc main_v66) = column (m ((c : Thread nD τ).loc main_arg3)) := by
  dsimp only [W13]
  after_results
  rw [W12_main_arg3 m ρ c]
  rfl

theorem W13_v65 (c : Dev nD) : W13 m ρ c (Proc.devRef .tc main_v65) = W12 m ρ c (Proc.devRef .tc main_v65) := by
  dsimp only [W13]; after_results

theorem W14_v67 (c : Dev nD) (H2 : Cert.Spec.Mat 100000 32) (h : W12 m ρ c (Proc.devRef .tc main_v65) = H2) :
    W14 m ρ c (Proc.devRef .tc main_v67) = Cert.Spec.poolWords (G := 1024) (column (m ((c : Thread nD τ).loc main_arg3))) H2 := by
  refine (W14_arr m ρ c 2).trans ((region6 (V13 m ρ) c).trans ?_)
  show Cert.Spec.poolWords (G := 1024) (W13 m ρ c (Proc.devRef .tc main_v66)) (W13 m ρ c (Proc.devRef .tc main_v65)) = _
  rw [W13_v66 m ρ c, W13_v65 m ρ c, h]

/-- The result buffer, over whatever the second mixing call left (`H2`). -/
theorem W15_v73 (c : Dev nD) (H2 : Cert.Spec.Mat 100000 32) (h : W12 m ρ c (Proc.devRef .tc main_v65) = H2) :
    W15 m ρ c (Proc.devRef .tc main_v73) = Cert.Spec.readout (Cert.Spec.pool (G := 1000) (m ((c : Thread nD τ).loc main_arg3)) H2) (m ((c : Thread nD τ).loc main_arg28)) (m ((c : Thread nD τ).loc main_arg29)) := by
  have e : W15 m ρ c (Proc.devRef .tc main_v73) = tail (W14 m ρ c (Proc.devRef .tc main_v67)) (W14 m ρ c (Proc.devRef .tc main_arg28)) (W14 m ρ c (Proc.devRef .tc main_arg29)) := by
    dsimp only [W15]
    after_results
    rfl
  rw [e, W14_v67 m ρ c H2 h, W14_main_arg28 m ρ c, W14_main_arg29 m ρ c]
  exact tail_poolWords _ _ _ _

end Cert.KernelIdeal.Val

end
-- ==== Proof.KValue.lean ====
/-
  The kernel program's result: the network function of its arguments.

  Composing the boundaries: the two first-layer outputs feed the first mixing layer, its output both second-layer
  calls and their aggregations, their rectified outputs the second mixing layer, and that the pooling and the
  read-out. So the result buffer holds `network` of the launch contents of the thirty arguments, over the host's
  own neighbour aggregations; and the program's run, read with that, states it for every weakly fair execution.
-/
import proofs.«412192_j67508295958858_4_alg».proof.Proof.KChain1
import proofs.«412192_j67508295958858_4_alg».proof.Proof.KChain2
import proofs.«412192_j67508295958858_4_alg».proof.Proof.KChain3
import proofs.«412192_j67508295958858_4_alg».proof.Proof.KRun
import proofs.«412192_j67508295958858_4_alg».proof.Proof.Spec

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The network function of the launch contents of the arguments on core `c`. -/
def result (c : Dev nD) : Buf (Elt Ideal) ((c.tc : Thread nD τ).loc main_v73) :=
  Cert.Spec.network agg64 agg32 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))

/-- The result buffer at the last boundary is the network function of the arguments. -/
theorem result_eq (c : Dev nD) : W15 m ρ c (Proc.devRef .tc main_v73) = result m c := by
  have x1 := W2_v14 m ρ c
  have x2 := W4_v29 m ρ c
  have h := W6_v32 m ρ c _ _ x1 x2
  have y1 := W8_v47 m ρ c _ h
  have y2 := W10_v62 m ρ c _ h
  have h2 := W12_v65 m ρ c _ _ y1 y2
  have out := W15_v73 m ρ c _ h2
  unfold result Cert.Spec.network
  exact out

/-- Every weakly fair execution of the kernel program terminates, nothing faulting, with the result buffer at the
    network function of the arguments and the arguments as launched. -/
theorem kernel_run : θ_run defs (onTc (τ := τ) (main (F := Ideal))) ⟨m, fun _ => 0, ρ⟩ (fun r => ∀ c : Dev nD,
      r.2.mem ((c.tc : Thread nD τ).loc main_v73) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨(h c).1.trans (result_eq m ρ c), (h c).2⟩) (run m ρ)

end Cert.KernelIdeal.Val

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.RefBlocks.lean ====
/-
  The reference's building blocks, each as a function of ARBITRARY arrays, read at an index.

  Read at one index, each short chain of host operations collapses to plain arithmetic on the extended reals.
  A linear layer (a product contracted over the feature axis plus a bias vector laid along every row) is at
  `(p, k)` the sum over `l` of `x (p, l) · W (l, k)`, plus `b k`; the rectifier is the maximum with an array that
  is zero everywhere; so the two-layer perceptron at `(p, q)` is `Cert.Spec.mlp` of row `p`. Joining two arrays
  of 32 columns reads the first below column 32 and the second, 32 places earlier, from there on. The pooling
  scatter-adds the node rows into a zero array by a column that repeats the word vector, so row `g` ends as the
  sum of the rows whose word read signed is `g`. The read-out is a linear layer with one output column, reshaped.
-/
import proofs.«412192_j67508295958858_4_alg».proof.Proof.RefRead
import proofs.«412192_j67508295958858_4_alg».proof.Proof.Spec
import proofs.«412192_j67508295958858_4_alg».proof.Proof.LibPlainDot
import proofs.«412192_j67508295958858_4_alg».proof.Proof.LibScatterGather2
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.RefRead Idealize.ShloMosaic Idealize.ShloMosaic.TcCoe Idealize.SL.Sem Idealize.ShloMosaic.ValueIdx
open scoped BigOperators

/-- An array of the reference's, at the ideal instance. -/
abbrev Arr (s : Shape) (e : EltTy) := (⟨s, e⟩ : BufTy).Contents (Elt Ideal)

/-- The host's zero array of node features. -/
abbrev zeros32 : Arr S100000x32 .f32 := broadcastInDim S100000x32 ![] bcast_S_S100000x32 (constant (F := Ideal) S_ .f32 0x00000000#32)

/-- A bias vector laid along every row. -/
abbrev biasRows (b : Arr S32 .f32) : Arr S100000x32 .f32 :=
  broadcastInDim S100000x32 ![0, 1] bcast_S1x32_S100000x32_0_1 (broadcastInDim S1x32 ![1] bcast_S32_S1x32_1 b)

/-- The host's two-layer perceptron on an array of 64 features per node. -/
def hostMlp64 (h : Arr S100000x64 .f32) (W1 : Arr S64x32 .f32) (b1 : Arr S32 .f32) (W2 : Arr S32x32 .f32) (b2 : Arr S32 .f32) : Arr S100000x32 .f32 :=
  addf (F := Ideal) (φ := .f32) (Host.dotGeneral (F := Ideal) (φ₁ := .f32) (φ₂ := .f32) dot_S100000x32_S32x32_S100000x32_1_0_0_1_n_n none
          (maximumf (F := Ideal) (φ := .f32) (addf (F := Ideal) (φ := .f32) (Host.dotGeneral (F := Ideal) (φ₁ := .f32) (φ₂ := .f32) dot_S100000x64_S64x32_S100000x32_1_0_0_1_n_n none h W1) (biasRows b1)) zeros32) W2)
    (biasRows b2)

/-- The host's two-layer perceptron on an array of 32 features per node. -/
def hostMlp32 (h : Arr S100000x32 .f32) (W1 : Arr S32x32 .f32) (b1 : Arr S32 .f32) (W2 : Arr S32x32 .f32) (b2 : Arr S32 .f32) : Arr S100000x32 .f32 :=
  addf (F := Ideal) (φ := .f32) (Host.dotGeneral (F := Ideal) (φ₁ := .f32) (φ₂ := .f32) dot_S100000x32_S32x32_S100000x32_1_0_0_1_n_n none
          (maximumf (F := Ideal) (φ := .f32) (addf (F := Ideal) (φ := .f32) (Host.dotGeneral (F := Ideal) (φ₁ := .f32) (φ₂ := .f32) dot_S100000x32_S32x32_S100000x32_1_0_0_1_n_n none h W1) (biasRows b1)) zeros32) W2)
    (biasRows b2)

/-- The host's rectifier. -/
def hostRelu (y : Arr S100000x32 .f32) : Arr S100000x32 .f32 := maximumf (F := Ideal) (φ := .f32) y zeros32

/-- Two branches joined along the feature axis. -/
def hostConcat (y1 y2 : Arr S100000x32 .f32) : Arr S100000x64 .f32 :=
  concatenate S100000x64 1 [⟨S100000x32, y1⟩, ⟨S100000x32, y2⟩] concatenates_S100000x32_S100000x32_S100000x64_d1

/-- The per-graph sum: the node rows scatter-added into a zero array of 1000 rows by the graph words. -/
def hostPool (bt : Arr S100000 .i32) (h : Arr S100000x32 .f32) : Arr S1000x32 .f32 :=
  Host.scatterAdd (F := Ideal) (φ := .f32) scatter_S1000x32_S100000x1_S100000x32_1_0_0_1 (broadcastInDim S1000x32 ![] bcast_S_S1000x32 (constant (F := Ideal) S_ .f32 0x00000000#32))
    (broadcastInDim S100000x1 ![0] bcast_S100000_S100000x1_0 bt) h

/-- The read-out: one linear unit per graph, as a vector. -/
def hostReadout (P : Arr S1000x32 .f32) (W : Arr S32x1 .f32) (b : Arr S1 .f32) : Arr S1000 .f32 :=
  shapeCast _ (addf (F := Ideal) (φ := .f32) (Host.dotGeneral (F := Ideal) (φ₁ := .f32) (φ₂ := .f32) dot_S1000x32_S32x1_S1000x1_1_0_0_1_n_n none P W)
    (broadcastInDim S1000x1 ![0, 1] bcast_S1x1_S1000x1_0_1 (broadcastInDim S1x1 ![1] bcast_S1_S1x1_1 b))) shapeCasts_S1000x1_S1000

/-- The neighbour aggregation on 64 features, as the reference's host operations compute it: gather the source rows
    (negative index words wrapped by 100000), scatter-add them into the target rows of a zero array. -/
def agg64 (x : Arr S100000x64 .f32) (e : Arr S2x1600000 .i32) : Arr S100000x64 .f32 :=
  val_main_v13 (F := Ideal) x e

/-- The same aggregation on 32 features. -/
def agg32 (h : Arr S100000x32 .f32) (e : Arr S2x1600000 .i32) : Arr S100000x32 .f32 :=
  Host.scatterAdd (F := Ideal) (φ := .f32) scatter_S100000x32_S1600000x1_S1600000x32_1_0_0_1 (val_main_v69 (F := Ideal)) (val_main_v70 (F := Ideal) e)
    (Host.gather gather_S100000x32_S1600000x1_S1600000x32_1_0_n_n_0_1_132 h (val_main_v65 (F := Ideal) e))

/-! ## The pieces every block is made of -/

/-- The host's zero array of node features is the extended real zero everywhere. -/
theorem zeros32_apply (i : S100000x32.Idx) : zeros32 i = 0 := by
  show broadcastInDim S100000x32 ![] bcast_S_S100000x32 (constant (F := Ideal) S_ .f32 0x00000000#32) i = 0
  rw [broadcastInDim_apply _ bcast_S_S100000x32 _ i (fun a => a.elim0) (fun a => a.elim0), constant_apply]
  exact Ideal.ofBits_zero_f32

/-- A bias laid along every row, at `(p, q)`: entry `q` of the vector. -/
theorem biasRows_apply (b : Arr S32 .f32) (p : Fin 100000) (q : Fin 32) : biasRows b (ix2 p q) = b (ix1 q) := by
  show broadcastInDim S100000x32 ![0, 1] bcast_S1x32_S100000x32_0_1 (broadcastInDim S1x32 ![1] bcast_S32_S1x32_1 b) (ix2 p q) = _
  rw [broadcastInDim_apply _ bcast_S1x32_S100000x32_0_1 _ (ix2 p q) (ix2 (0 : Fin 1) q) (fun a => match a with
    | ⟨0, _⟩ => by show 0 = if (1 : Nat) = 1 then 0 else p.val; rw [if_pos rfl]
    | ⟨1, _⟩ => by show q.val = if (32 : Nat) = 1 then 0 else q.val; rw [if_neg (by decide)])]
  exact broadcastInDim_apply _ bcast_S32_S1x32_1 b (ix2 (0 : Fin 1) q) (ix1 q) (fun a => match a with
    | ⟨0, _⟩ => by show q.val = if (32 : Nat) = 1 then 0 else q.val; rw [if_neg (by decide)])

/-- One linear layer at `(p, k)`: row `p` of the operand against column `k` of the weights, plus entry `k` of the bias. -/
theorem linear_apply {K : Nat} (d : DotDims ⟨2, ![100000, K]⟩ ⟨2, ![K, 32]⟩ ⟨2, ![100000, 32]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![100000, K]⟩ .f32) (W : FVec Ideal ⟨2, ![K, 32]⟩ .f32) (b : Arr S32 .f32) (p : Fin 100000) (k : Fin 32) :
    addf (Host.dotGeneral d none x W) (biasRows b) (ix2 p k) = (∑ l : Fin K, x (ix2 p l) * W (ix2 l k)) + b (ix1 k) := by
  rw [addf_apply, biasRows_apply]
  simp only [Host.dotGeneral]
  rw [Cert.LibPlainDot.dotGeneral_apply d hlc hrc hln hrn hlb hrb none _ x W p k]

/-! ## The perceptrons -/

theorem hostMlp64_apply (h : Arr S100000x64 .f32) (W1 : Arr S64x32 .f32) (b1 : Arr S32 .f32) (W2 : Arr S32x32 .f32) (b2 : Arr S32 .f32)
    (p : Fin 100000) (q : Fin 32) :
    hostMlp64 h W1 b1 W2 b2 (ix2 p q) = Cert.Spec.mlp (fun l => h (ix2 p l)) W1 b1 W2 b2 q := by
  unfold hostMlp64
  rw [linear_apply dot_S100000x32_S32x32_S100000x32_1_0_0_1_n_n rfl rfl rfl rfl rfl rfl]
  unfold Cert.Spec.mlp Cert.Spec.outer Cert.Spec.hidden
  refine congrArg (· + b2 (ix1 q)) (Finset.sum_congr rfl fun k _ => ?_)
  rw [maximumf_apply, zeros32_apply, linear_apply dot_S100000x64_S64x32_S100000x32_1_0_0_1_n_n rfl rfl rfl rfl rfl rfl]

theorem hostMlp32_apply (h : Arr S100000x32 .f32) (W1 : Arr S32x32 .f32) (b1 : Arr S32 .f32) (W2 : Arr S32x32 .f32) (b2 : Arr S32 .f32)
    (p : Fin 100000) (q : Fin 32) :
    hostMlp32 h W1 b1 W2 b2 (ix2 p q) = Cert.Spec.mlp (fun l => h (ix2 p l)) W1 b1 W2 b2 q := by
  unfold hostMlp32
  rw [linear_apply dot_S100000x32_S32x32_S100000x32_1_0_0_1_n_n rfl rfl rfl rfl rfl rfl]
  unfold Cert.Spec.mlp Cert.Spec.outer Cert.Spec.hidden
  refine congrArg (· + b2 (ix1 q)) (Finset.sum_congr rfl fun k _ => ?_)
  rw [maximumf_apply, zeros32_apply, linear_apply dot_S100000x32_S32x32_S100000x32_1_0_0_1_n_n rfl rfl rfl rfl rfl rfl]

/-! ## The rectifier and the joining of two branches -/

theorem hostRelu_eq (y : Arr S100000x32 .f32) : hostRelu y = Cert.Spec.relu y := by
  funext i
  unfold hostRelu
  rw [maximumf_apply, zeros32_apply, Cert.Spec.relu_apply]

theorem hostConcat_apply (y1 y2 : Arr S100000x32 .f32) (p : Fin 100000) (l : Fin 64) :
    hostConcat y1 y2 (ix2 p l) = Cert.Spec.beside (fun l => y1 (ix2 p l)) (fun l => y2 (ix2 p l)) l := by
  unfold hostConcat Cert.Spec.beside
  by_cases hl : l.val < 32
  · -- a column below 32 falls in the first piece, at the same place
    rw [dif_pos hl]
    exact concatenate_pair_apply_left (1 : Fin 2) y1 y2 concatenates_S100000x32_S100000x32_S100000x64_d1 (ix2 p l) rfl
      (ix2 p ⟨l.val, hl⟩) (fun b => match b with
        | ⟨0, _⟩ => rfl
        | ⟨1, _⟩ => rfl)
  · -- a column from 32 on falls in the second piece, 32 places earlier
    rw [dif_neg hl]
    exact concatenate_pair_apply_right (1 : Fin 2) y1 y2 concatenates_S100000x32_S100000x32_S100000x64_d1 (ix2 p l) rfl rfl
      (ix2 p ⟨l.val - 32, by omega⟩) (fun b hb => match b, hb with
        | ⟨0, _⟩, _ => rfl
        | ⟨1, _⟩, hb => (hb (Fin.ext rfl)).elim)
      (by show (l.val - 32) + 32 = l.val; omega)

/-! ## The pooling and the read-out -/

theorem hostPool_eq (bt : Arr S100000 .i32) (h : Arr S100000x32 .f32) : hostPool bt h = Cert.Spec.pool bt h := by
  funext i
  obtain ⟨g, q, rfl⟩ : ∃ (g : Fin 1000) (q : Fin 32), i = ix2 g q := ⟨i 0, i 1, eq_ix2 i⟩
  -- the array scattered into is zero at `(g, q)`
  have hz : broadcastInDim S1000x32 ![] bcast_S_S1000x32 (constant (F := Ideal) S_ .f32 0x00000000#32) (ix2 g q) = 0 := by
    rw [broadcastInDim_apply _ bcast_S_S1000x32 _ (ix2 g q) (fun a => a.elim0) (fun a => a.elim0), constant_apply]
    exact Ideal.ofBits_zero_f32
  -- the column of words, at row `e`, is the word of node `e`
  have hc : ∀ e : Fin 100000, broadcastInDim S100000x1 ![0] bcast_S100000_S100000x1_0 bt (ix2 e (0 : Fin 1)) = bt (ix1 e) := fun e =>
    broadcastInDim_apply _ bcast_S100000_S100000x1_0 bt (ix2 e (0 : Fin 1)) (ix1 e) (fun a => match a with
      | ⟨0, _⟩ => by show e.val = if (100000 : Nat) = 1 then 0 else e.val; rw [if_neg (by decide)])
  unfold hostPool
  rw [Cert.LibScatterGather2.scatterAdd_apply scatter_S1000x32_S100000x1_S100000x32_1_0_0_1 rfl rfl rfl rfl _ _ h g q, hz, zero_add]
  simp only [hc]
  rfl

theorem hostReadout_eq (P : Arr S1000x32 .f32) (W : Arr S32x1 .f32) (b : Arr S1 .f32) : hostReadout P W b = Cert.Spec.readout P W b := by
  funext i
  obtain ⟨g, rfl⟩ : ∃ g : Fin 1000, i = ix1 g := ⟨i 0, eq_ix1 i⟩
  unfold hostReadout
  -- position `g` of the vector is position `(g, 0)` of the column
  rw [shapeCast_apply _ shapeCasts_S1000x1_S1000 (ix1 g) (ix2 g (0 : Fin 1))
    (by rw [Shape.rowMajor_val_two, Shape.rowMajor_val_one]; show g.val * 1 + 0 = g.val; omega)]
  rw [addf_apply]
  simp only [Host.dotGeneral]
  rw [Cert.LibPlainDot.dotGeneral_apply dot_S1000x32_S32x1_S1000x1_1_0_0_1_n_n rfl rfl rfl rfl rfl rfl none _ P W g (0 : Fin 1)]
  -- the bias, carried to one row and then to every row, is its only entry
  rw [broadcastInDim_apply _ bcast_S1x1_S1000x1_0_1 _ (ix2 g (0 : Fin 1)) (ix2 (0 : Fin 1) (0 : Fin 1)) (fun a => match a with
    | ⟨0, _⟩ => by show 0 = if (1 : Nat) = 1 then 0 else g.val; rw [if_pos rfl]
    | ⟨1, _⟩ => by show 0 = if (1 : Nat) = 1 then 0 else 0; rw [if_pos rfl])]
  rw [broadcastInDim_apply _ bcast_S1_S1x1_1 b (ix2 (0 : Fin 1) (0 : Fin 1)) (ix1 (0 : Fin 1)) (fun a => match a with
    | ⟨0, _⟩ => by show 0 = if (1 : Nat) = 1 then 0 else 0; rw [if_pos rfl])]
  rfl

end Cert.ReferenceIdeal.RefValue

end
-- ==== Proof.RefValue.lean ====
/-
  The reference's result as the network function of its arguments.

  Read by the definitions of its operations alone, the reference is six applications of three blocks: the
  graph-isomorphism layer (the two-layer perceptron on a node's own features plus the sum of its neighbours'),
  the same layer on 32 features followed by the rectifier, and the mixing layer (the perceptron on two branches'
  rows side by side); then the per-graph sum of the rows and one linear unit per graph. Each block, read at a
  row and a column, is the corresponding function on rows of extended reals. An array that satisfies the
  network's six defining equations, stage by stage, pooled and read out, is the network; hence the reference's
  result is the network over the reference's own two neighbour aggregations.
-/
import proofs.«412192_j67508295958858_4_alg».proof.Proof.RefRead
import proofs.«412192_j67508295958858_4_alg».proof.Proof.RefBlocks
import proofs.«412192_j67508295958858_4_alg».proof.Proof.Spec
import proofs.«412192_j67508295958858_4_alg».proof.Proof.LibPlainDot
import proofs.«412192_j67508295958858_4_alg».proof.Proof.LibScatterGather2
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.RefRead Idealize.ShloMosaic Idealize.ShloMosaic.TcCoe Idealize.SL.Sem Idealize.ShloMosaic.ValueIdx
open scoped BigOperators

/-- A graph-isomorphism layer on 64 features: the perceptron on a node's own features plus its aggregated neighbours'. -/
def hostGin64 (x : Arr S100000x64 .f32) (e : Arr S2x1600000 .i32) (W1 : Arr S64x32 .f32) (b1 : Arr S32 .f32)
    (W2 : Arr S32x32 .f32) (b2 : Arr S32 .f32) : Arr S100000x32 .f32 :=
  hostMlp64 (addf (F := Ideal) (φ := .f32) x (agg64 x e)) W1 b1 W2 b2

/-- The mixing layer: the perceptron on two branches joined along the feature axis. -/
def hostMix (y1 y2 : Arr S100000x32 .f32) (W1 : Arr S64x32 .f32) (b1 : Arr S32 .f32)
    (W2 : Arr S32x32 .f32) (b2 : Arr S32 .f32) : Arr S100000x32 .f32 :=
  hostMlp64 (hostConcat y1 y2) W1 b1 W2 b2

/-- A rectified graph-isomorphism layer on 32 features. -/
def hostConv32 (h : Arr S100000x32 .f32) (e : Arr S2x1600000 .i32) (W1 : Arr S32x32 .f32) (b1 : Arr S32 .f32)
    (W2 : Arr S32x32 .f32) (b2 : Arr S32 .f32) : Arr S100000x32 .f32 :=
  hostRelu (hostMlp32 (addf (F := Ideal) (φ := .f32) h (agg32 h e)) W1 b1 W2 b2)

section Stages

variable (x0 : Arr S100000x64 .f32) (x1 x2 : Arr S2x1600000 .i32) (x3 : Arr S100000 .i32)
  (x4 : Arr S64x32 .f32) (x5 : Arr S32 .f32) (x6 : Arr S32x32 .f32) (x7 : Arr S32 .f32)
  (x8 : Arr S64x32 .f32) (x9 : Arr S32 .f32) (x10 : Arr S32x32 .f32) (x11 : Arr S32 .f32)
  (x12 : Arr S64x32 .f32) (x13 : Arr S32 .f32) (x14 : Arr S32x32 .f32) (x15 : Arr S32 .f32)
  (x16 : Arr S32x32 .f32) (x17 : Arr S32 .f32) (x18 : Arr S32x32 .f32) (x19 : Arr S32 .f32)
  (x20 : Arr S32x32 .f32) (x21 : Arr S32 .f32) (x22 : Arr S32x32 .f32) (x23 : Arr S32 .f32)
  (x24 : Arr S64x32 .f32) (x25 : Arr S32 .f32) (x26 : Arr S32x32 .f32) (x27 : Arr S32 .f32)
  (x28 : Arr S32x1 .f32) (x29 : Arr S1 .f32)

/-! ## The reference's stages as compositions of the building blocks

Each stage of the reference is, by the definitions of its operations alone, one building block applied to
the earlier stages. -/

/-- The first layer on the first edge list. -/
theorem v23_bridge :
    val_main_v23 (F := Ideal) x0 x1 x4 x5 x6 x7 = hostGin64 x0 x1 x4 x5 x6 x7 := rfl

/-- The aggregation over the second edge list is the same function of the features and the edge list. -/
theorem v37_eq (x : Arr S100000x64 .f32) (e : Arr S2x1600000 .i32) :
    val_main_v37 (F := Ideal) x e = agg64 x e := rfl

/-- The first layer on the second edge list. -/
theorem v47_bridge :
    val_main_v47 (F := Ideal) x0 x2 x8 x9 x10 x11 = hostGin64 x0 x2 x8 x9 x10 x11 := by
  have h : val_main_v47 (F := Ideal) x0 x2 x8 x9 x10 x11
      = hostMlp64 (addf (F := Ideal) (φ := .f32) x0 (val_main_v37 (F := Ideal) x0 x2)) x8 x9 x10 x11 := rfl
  rw [h, v37_eq]
  rfl

/-- The first mixing layer. -/
theorem v57_bridge :
    val_main_v57 (F := Ideal) x0 x1 x2 x4 x5 x6 x7 x8 x9 x10 x11 x12 x13 x14 x15
      = hostMix (val_main_v23 (F := Ideal) x0 x1 x4 x5 x6 x7) (val_main_v47 (F := Ideal) x0 x2 x8 x9 x10 x11) x12 x13 x14 x15 := rfl

/-- The second layer on the first edge list, rectified. -/
theorem v82_bridge :
    val_main_v82 (F := Ideal) x0 x1 x2 x4 x5 x6 x7 x8 x9 x10 x11 x12 x13 x14 x15 x16 x17 x18 x19
      = hostConv32 (val_main_v57 (F := Ideal) x0 x1 x2 x4 x5 x6 x7 x8 x9 x10 x11 x12 x13 x14 x15) x1 x16 x17 x18 x19 := rfl

/-- The second layer on the second edge list, rectified. -/
theorem v107_bridge :
    val_main_v107 (F := Ideal) x0 x1 x2 x4 x5 x6 x7 x8 x9 x10 x11 x12 x13 x14 x15 x20 x21 x22 x23
      = hostConv32 (val_main_v57 (F := Ideal) x0 x1 x2 x4 x5 x6 x7 x8 x9 x10 x11 x12 x13 x14 x15) x2 x20 x21 x22 x23 := rfl

/-- The second mixing layer. -/
theorem v117_bridge :
    val_main_v117 (F := Ideal) x0 x1 x2 x4 x5 x6 x7 x8 x9 x10 x11 x12 x13 x14 x15 x16 x17 x18 x19 x20 x21 x22 x23 x24 x25 x26 x27
      = hostMix (val_main_v82 (F := Ideal) x0 x1 x2 x4 x5 x6 x7 x8 x9 x10 x11 x12 x13 x14 x15 x16 x17 x18 x19) (val_main_v107 (F := Ideal) x0 x1 x2 x4 x5 x6 x7 x8 x9 x10 x11 x12 x13 x14 x15 x20 x21 x22 x23) x24 x25 x26 x27 := rfl

/-- The result: the per-graph sums of the mixed features, read out. -/
theorem v125_bridge :
    val_main_v125 (F := Ideal) x0 x1 x2 x3 x4 x5 x6 x7 x8 x9 x10 x11 x12 x13 x14 x15 x16 x17 x18 x19 x20 x21 x22 x23 x24 x25 x26 x27 x28 x29
      = hostReadout (hostPool x3 (val_main_v117 (F := Ideal) x0 x1 x2 x4 x5 x6 x7 x8 x9 x10 x11 x12 x13 x14 x15 x16 x17 x18 x19 x20 x21 x22 x23 x24 x25 x26 x27)) x28 x29 := rfl

end Stages

/-! ## Each building block as a function on rows -/

/-- An index of a 100000-row, 32-column array is a row and a column. -/
theorem exists_ix2 (i : S100000x32.Idx) : ∃ (p : Fin 100000) (q : Fin 32), i = ix2 p q :=
  ⟨i 0, i 1, eq_ix2 i⟩

/-- The perceptron on a sum of two arrays of 64 features is the graph-isomorphism layer of the two. -/
theorem hostMlp64_add_eq (x a : Arr S100000x64 .f32) (W1 : Arr S64x32 .f32) (b1 : Arr S32 .f32) (W2 : Arr S32x32 .f32) (b2 : Arr S32 .f32) :
    hostMlp64 (addf (F := Ideal) (φ := .f32) x a) W1 b1 W2 b2 = Cert.Spec.gin (N := 100000) (K := 64) x a W1 b1 W2 b2 := by
  funext i
  obtain ⟨p, q, rfl⟩ := exists_ix2 i
  exact (hostMlp64_apply (addf (F := Ideal) (φ := .f32) x a) W1 b1 W2 b2 p q).trans
    (Cert.Spec.gin_apply (N := 100000) (K := 64) x a W1 b1 W2 b2 p q).symm

/-- The same on 32 features. -/
theorem hostMlp32_add_eq (h a : Arr S100000x32 .f32) (W1 : Arr S32x32 .f32) (b1 : Arr S32 .f32) (W2 : Arr S32x32 .f32) (b2 : Arr S32 .f32) :
    hostMlp32 (addf (F := Ideal) (φ := .f32) h a) W1 b1 W2 b2 = Cert.Spec.gin (N := 100000) (K := 32) h a W1 b1 W2 b2 := by
  funext i
  obtain ⟨p, q, rfl⟩ := exists_ix2 i
  exact (hostMlp32_apply (addf (F := Ideal) (φ := .f32) h a) W1 b1 W2 b2 p q).trans
    (Cert.Spec.gin_apply (N := 100000) (K := 32) h a W1 b1 W2 b2 p q).symm

theorem hostGin64_eq (x : Arr S100000x64 .f32) (e : Arr S2x1600000 .i32) (W1 : Arr S64x32 .f32) (b1 : Arr S32 .f32) (W2 : Arr S32x32 .f32) (b2 : Arr S32 .f32) :
    hostGin64 x e W1 b1 W2 b2 = Cert.Spec.gin (N := 100000) (K := 64) x (agg64 x e) W1 b1 W2 b2 :=
  hostMlp64_add_eq x (agg64 x e) W1 b1 W2 b2

/-- The perceptron on two joined branches is the mixing layer: row by row, the joined row is the two rows side by side. -/
theorem hostMix_eq (y1 y2 : Arr S100000x32 .f32) (W1 : Arr S64x32 .f32) (b1 : Arr S32 .f32) (W2 : Arr S32x32 .f32) (b2 : Arr S32 .f32) :
    hostMix y1 y2 W1 b1 W2 b2 = Cert.Spec.mixing (N := 100000) y1 y2 W1 b1 W2 b2 := by
  funext i
  obtain ⟨p, q, rfl⟩ := exists_ix2 i
  refine (hostMlp64_apply (hostConcat y1 y2) W1 b1 W2 b2 p q).trans ?_
  refine Eq.trans ?_ (Cert.Spec.mixing_apply (N := 100000) y1 y2 W1 b1 W2 b2 p q).symm
  exact congrArg (fun r => Cert.Spec.mlp r W1 b1 W2 b2 q) (funext fun l => hostConcat_apply y1 y2 p l)

theorem hostConv32_eq (h : Arr S100000x32 .f32) (e : Arr S2x1600000 .i32) (W1 : Arr S32x32 .f32) (b1 : Arr S32 .f32) (W2 : Arr S32x32 .f32) (b2 : Arr S32 .f32) :
    hostConv32 h e W1 b1 W2 b2
      = Cert.Spec.relu (N := 100000) (C := 32) (Cert.Spec.gin (N := 100000) (K := 32) h (agg32 h e) W1 b1 W2 b2) :=
  (hostRelu_eq _).trans (congrArg (Cert.Spec.relu (N := 100000) (C := 32)) (hostMlp32_add_eq h (agg32 h e) W1 b1 W2 b2))

/-! ## The network from its stages -/

/-- Six arrays that satisfy the network's six defining equations, pooled and read out, are the network. -/
theorem network_of_stages
    (A64 : Cert.Spec.Mat 100000 64 → Cert.Spec.Edges → Cert.Spec.Mat 100000 64) (A32 : Cert.Spec.Mat 100000 32 → Cert.Spec.Edges → Cert.Spec.Mat 100000 32)
    (x : Cert.Spec.Mat 100000 64) (eL eG : Cert.Spec.Edges) (bt : (⟨1, ![100000]⟩ : Shape).Idx → BitVec 32)
    (c11W1 : Cert.Spec.Mat 64 32) (c11b1 : Cert.Spec.Vect 32) (c11W2 : Cert.Spec.Mat 32 32) (c11b2 : Cert.Spec.Vect 32)
    (c12W1 : Cert.Spec.Mat 64 32) (c12b1 : Cert.Spec.Vect 32) (c12W2 : Cert.Spec.Mat 32 32) (c12b2 : Cert.Spec.Vect 32)
    (m1W1 : Cert.Spec.Mat 64 32) (m1b1 : Cert.Spec.Vect 32) (m1W2 : Cert.Spec.Mat 32 32) (m1b2 : Cert.Spec.Vect 32)
    (c21W1 : Cert.Spec.Mat 32 32) (c21b1 : Cert.Spec.Vect 32) (c21W2 : Cert.Spec.Mat 32 32) (c21b2 : Cert.Spec.Vect 32)
    (c22W1 : Cert.Spec.Mat 32 32) (c22b1 : Cert.Spec.Vect 32) (c22W2 : Cert.Spec.Mat 32 32) (c22b2 : Cert.Spec.Vect 32)
    (m2W1 : Cert.Spec.Mat 64 32) (m2b1 : Cert.Spec.Vect 32) (m2W2 : Cert.Spec.Mat 32 32) (m2b2 : Cert.Spec.Vect 32)
    (linW : Cert.Spec.Mat 32 1) (linb : Cert.Spec.Vect 1)
    (X1 X2 H Y1 Y2 H2 : Cert.Spec.Mat 100000 32)
    (h1 : X1 = Cert.Spec.gin x (A64 x eL) c11W1 c11b1 c11W2 c11b2)
    (h2 : X2 = Cert.Spec.gin x (A64 x eG) c12W1 c12b1 c12W2 c12b2)
    (h3 : H = Cert.Spec.mixing X1 X2 m1W1 m1b1 m1W2 m1b2)
    (h4 : Y1 = Cert.Spec.relu (Cert.Spec.gin H (A32 H eL) c21W1 c21b1 c21W2 c21b2))
    (h5 : Y2 = Cert.Spec.relu (Cert.Spec.gin H (A32 H eG) c22W1 c22b1 c22W2 c22b2))
    (h6 : H2 = Cert.Spec.mixing Y1 Y2 m2W1 m2b1 m2W2 m2b2) :
    Cert.Spec.readout (Cert.Spec.pool bt H2) linW linb
      = Cert.Spec.network A64 A32 x eL eG bt c11W1 c11b1 c11W2 c11b2 c12W1 c12b1 c12W2 c12b2 m1W1 m1b1 m1W2 m1b2
          c21W1 c21b1 c21W2 c21b2 c22W1 c22b1 c22W2 c22b2 m2W1 m2b1 m2W2 m2b2 linW linb := by
  subst h6 h5 h4 h3 h2 h1
  rfl

/-- THE REFERENCE'S RESULT is the network function of its arguments, over its own aggregations. -/
theorem ref_value
    (x0 : (⟨S100000x64, .f32⟩ : BufTy).Contents (Elt Ideal)) (x1 x2 : (⟨S2x1600000, .i32⟩ : BufTy).Contents (Elt Ideal))
    (x3 : (⟨S100000, .i32⟩ : BufTy).Contents (Elt Ideal))
    (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (x8 : (⟨S64x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal))
    (x12 : (⟨S64x32, .f32⟩ : BufTy).Contents (Elt Ideal)) (x13 : (⟨S32, .f32⟩ : BufTy).Contents (Elt Ideal)) (x14 : (⟨S32x32, .f32⟩ : BufTy).Contents (Elt Ideal)) (x15 : (⟨S32, .f32⟩ : BufTy).Contents (Elt Ideal))
    (x16 : (⟨S32x32, .f32⟩ : BufTy).Contents (Elt Ideal)) (x17 : (⟨S32, .f32⟩ : BufTy).Contents (Elt Ideal)) (x18 : (⟨S32x32, .f32⟩ : BufTy).Contents (Elt Ideal)) (x19 : (⟨S32, .f32⟩ : BufTy).Contents (Elt Ideal))
    (x20 : (⟨S32x32, .f32⟩ : BufTy).Contents (Elt Ideal)) (x21 : (⟨S32, .f32⟩ : BufTy).Contents (Elt Ideal)) (x22 : (⟨S32x32, .f32⟩ : BufTy).Contents (Elt Ideal)) (x23 : (⟨S32, .f32⟩ : BufTy).Contents (Elt Ideal))
    (x24 : (⟨S64x32, .f32⟩ : BufTy).Contents (Elt Ideal)) (x25 : (⟨S32, .f32⟩ : BufTy).Contents (Elt Ideal)) (x26 : (⟨S32x32, .f32⟩ : BufTy).Contents (Elt Ideal)) (x27 : (⟨S32, .f32⟩ : BufTy).Contents (Elt Ideal))
    (x28 : (⟨S32x1, .f32⟩ : BufTy).Contents (Elt Ideal)) (x29 : (⟨S1, .f32⟩ : BufTy).Contents (Elt Ideal)) :
    val_main_v125 (F := Ideal) x0 x1 x2 x3 x4 x5 x6 x7 x8 x9 x10 x11 x12 x13 x14 x15 x16 x17 x18 x19 x20 x21 x22 x23 x24 x25 x26 x27 x28 x29
      = Cert.Spec.network agg64 agg32 x0 x1 x2 x3 x4 x5 x6 x7 x8 x9 x10 x11 x12 x13 x14 x15 x16 x17 x18 x19 x20 x21 x22 x23 x24 x25 x26 x27 x28 x29 := by
  have h1 := (v23_bridge x0 x1 x4 x5 x6 x7).trans (hostGin64_eq x0 x1 x4 x5 x6 x7)
  have h2 := (v47_bridge x0 x2 x8 x9 x10 x11).trans (hostGin64_eq x0 x2 x8 x9 x10 x11)
  have h3 := (v57_bridge x0 x1 x2 x4 x5 x6 x7 x8 x9 x10 x11 x12 x13 x14 x15).trans (hostMix_eq _ _ x12 x13 x14 x15)
  have h4 := (v82_bridge x0 x1 x2 x4 x5 x6 x7 x8 x9 x10 x11 x12 x13 x14 x15 x16 x17 x18 x19).trans (hostConv32_eq _ x1 x16 x17 x18 x19)
  have h5 := (v107_bridge x0 x1 x2 x4 x5 x6 x7 x8 x9 x10 x11 x12 x13 x14 x15 x20 x21 x22 x23).trans (hostConv32_eq _ x2 x20 x21 x22 x23)
  have h6 := (v117_bridge x0 x1 x2 x4 x5 x6 x7 x8 x9 x10 x11 x12 x13 x14 x15 x16 x17 x18 x19 x20 x21 x22 x23 x24 x25 x26 x27).trans (hostMix_eq _ _ x24 x25 x26 x27)
  rw [v125_bridge, hostReadout_eq, hostPool_eq]
  exact network_of_stages agg64 agg32 x0 x1 x2 x3 x4 x5 x6 x7 x8 x9 x10 x11 x12 x13 x14 x15 x16 x17 x18 x19 x20 x21 x22 x23 x24 x25 x26 x27 x28 x29 _ _ _ _ _ _ h1 h2 h3 h4 h5 h6

end Cert.ReferenceIdeal.RefValue

end
-- ==== Proof.RefOpsAll.lean ====
/-
  The reference's @main as the concatenation of its eleven stretches, and the buffers after two stretches run one
  after the other: the second's fold over the first's.
-/
import proofs.«412192_j67508295958858_4_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All 155 operations of @main: the eleven stretches in order. -/
abbrev opsAll : List (HloOp τ sig (Elt F)) :=
  ops1 ++ (ops2 ++ (ops3 ++ (ops4 ++ (ops5 ++ (ops6 ++ (ops7 ++ (ops8 ++ (ops9 ++ (ops10 ++ ops11)))))))))

/-- The buffers after `l₁ ++ l₂` are the buffers after `l₂` from the buffers after `l₁`. -/
theorem after_append {nD : Nat} {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.ReferenceIdeal.RefRun

end
-- ==== Proof.RefSeq.lean ====
/-
  The reference's @main — three windows of statements run one after the other, each call of @relu standing for the
  three operations of its body — is the same program as the straight line `seq opsAll`: binding associates, so both
  sides unfold to one chain of `hlo` steps ending in the return, and the concatenation of the eleven literal
  stretches unfolds to the one list of 155 operations. Two facts about every operation of the line come from the
  same facts per stretch, since a property of all members of `l₁ ++ l₂` is that property of all members of `l₁` and
  of `l₂`: each operation touches TensorCore buffers only, and none allocates (each determines its results). From
  these, every weakly fair execution terminates and leaves each buffer at the fold `after opsAll` of its contents.
-/
import proofs.«412192_j67508295958858_4_alg».proof.Proof.RefOpsAll
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- @main is the straight line of all its operations. -/
theorem main_eq (c : Dev nD) : main (F := F) c = seq opsAll := rfl

/-- A property of every operation of two lines holds of every operation of their concatenation. -/
theorem sub_append {p : HloOp τ sig (Elt F) → Prop} {l₁ l₂ : List (HloOp τ sig (Elt F))}
    (h₁ : l₁.Forall p) (h₂ : l₂.Forall p) : (l₁ ++ l₂).Forall p :=
  List.forall_append.2 ⟨h₁, h₂⟩

/-- Every operation touches TensorCore buffers only. -/
theorem opsAll_sub : (opsAll : List (HloOp τ sig (Elt F))).Forall fun op => op.bufs ⊆ tcRefs τ sig :=
  (sub_append ops1_sub (sub_append ops2_sub (sub_append ops3_sub (sub_append ops4_sub (sub_append ops5_sub (sub_append ops6_sub (sub_append ops7_sub (sub_append ops8_sub (sub_append ops9_sub (sub_append ops10_sub ops11_sub))))))))))

/-- If no operation of either line allocates, none of their concatenation does. -/
theorem fresh_append {l₁ l₂ : List (HloOp τ sig (Elt F))}
    (h₁ : ∀ op ∈ l₁, op.fresh = ∅) (h₂ : ∀ op ∈ l₂, op.fresh = ∅) : ∀ op ∈ l₁ ++ l₂, op.fresh = ∅ :=
  fun op h => (List.mem_append.1 h).elim (h₁ op) (h₂ op)

theorem ops1_fresh : ∀ op ∈ (ops1 : List (HloOp τ sig (Elt F))), op.fresh = ∅ := by
  intro op h; (repeat (cases h with | head => rfl | tail _ h => ?_)); exact nomatch h
theorem ops2_fresh : ∀ op ∈ (ops2 : List (HloOp τ sig (Elt F))), op.fresh = ∅ := by
  intro op h; (repeat (cases h with | head => rfl | tail _ h => ?_)); exact nomatch h
theorem ops3_fresh : ∀ op ∈ (ops3 : List (HloOp τ sig (Elt F))), op.fresh = ∅ := by
  intro op h; (repeat (cases h with | head => rfl | tail _ h => ?_)); exact nomatch h
theorem ops4_fresh : ∀ op ∈ (ops4 : List (HloOp τ sig (Elt F))), op.fresh = ∅ := by
  intro op h; (repeat (cases h with | head => rfl | tail _ h => ?_)); exact nomatch h
theorem ops5_fresh : ∀ op ∈ (ops5 : List (HloOp τ sig (Elt F))), op.fresh = ∅ := by
  intro op h; (repeat (cases h with | head => rfl | tail _ h => ?_)); exact nomatch h
theorem ops6_fresh : ∀ op ∈ (ops6 : List (HloOp τ sig (Elt F))), op.fresh = ∅ := by
  intro op h; (repeat (cases h with | head => rfl | tail _ h => ?_)); exact nomatch h
theorem ops7_fresh : ∀ op ∈ (ops7 : List (HloOp τ sig (Elt F))), op.fresh = ∅ := by
  intro op h; (repeat (cases h with | head => rfl | tail _ h => ?_)); exact nomatch h
theorem ops8_fresh : ∀ op ∈ (ops8 : List (HloOp τ sig (Elt F))), op.fresh = ∅ := by
  intro op h; (repeat (cases h with | head => rfl | tail _ h => ?_)); exact nomatch h
theorem ops9_fresh : ∀ op ∈ (ops9 : List (HloOp τ sig (Elt F))), op.fresh = ∅ := by
  intro op h; (repeat (cases h with | head => rfl | tail _ h => ?_)); exact nomatch h
theorem ops10_fresh : ∀ op ∈ (ops10 : List (HloOp τ sig (Elt F))), op.fresh = ∅ := by
  intro op h; (repeat (cases h with | head => rfl | tail _ h => ?_)); exact nomatch h
theorem ops11_fresh : ∀ op ∈ (ops11 : List (HloOp τ sig (Elt F))), op.fresh = ∅ := by
  intro op h; (repeat (cases h with | head => rfl | tail _ h => ?_)); exact nomatch h

/-- Every operation determines its results (none allocates). -/
theorem opsAll_fresh : ∀ op ∈ (opsAll : List (HloOp τ sig (Elt F))), op.fresh = ∅ :=
  (fresh_append ops1_fresh (fresh_append ops2_fresh (fresh_append ops3_fresh (fresh_append ops4_fresh (fresh_append ops5_fresh (fresh_append ops6_fresh (fresh_append ops7_fresh (fresh_append ops8_fresh (fresh_append ops9_fresh (fresh_append ops10_fresh ops11_fresh))))))))))

/-- Every weakly fair execution terminates, nothing faulting, with every TensorCore buffer at the operations' fold
    over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

end Cert.ReferenceIdeal.RefRun

end
-- ==== Proof.RefBack.lean ====
/-
  The reference's buffers after all its operations, read back. The 155 operations run as eleven stretches, each ending where
  a layer of the network is complete; a stretch, from any contents, leaves in its buffer a fixed function of the few buffers
  it reads (the arguments and one or two earlier layers). No operation writes an argument, and a finished layer is not
  written again, so folding the stretches in order the result buffer holds the result stage of the arguments' contents,
  and every argument ends as it was.
-/
import proofs.«412192_j67508295958858_4_alg».proof.Proof.RefOpsAll
import proofs.«412192_j67508295958858_4_alg».proof.Proof.RefRead
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo Cert.ReferenceIdeal.RefRead

variable {F : FTy → Type} [FloatOps F]

/-! ## Which references the operations write -/

/-- The references written by each stretch, in order. -/
def wr1 : List (Ref sig .tc) :=
  [main_v0, main_v1, main_c, main_v2, main_v3, main_c_0, main_v4, main_v5, main_v6, main_v7, main_v8, main_v9, main_v10,
   main_cst, main_v11, main_v12, main_v13]
def wr2 : List (Ref sig .tc) :=
  [main_v14, main_v15, main_v16, main_v17, main_v18, main_call0_cst, main_call0_v0, main_v19, main_v20, main_v21, main_v22,
   main_v23]
def wr3 : List (Ref sig .tc) :=
  [main_v24, main_v25, main_c_1, main_v26, main_v27, main_c_2, main_v28, main_v29, main_v30, main_v31, main_v32, main_v33,
   main_v34, main_cst_3, main_v35, main_v36, main_v37]
def wr4 : List (Ref sig .tc) :=
  [main_v38, main_v39, main_v40, main_v41, main_v42, main_call1_cst, main_call1_v0, main_v43, main_v44, main_v45, main_v46,
   main_v47]
def wr5 : List (Ref sig .tc) :=
  [main_v48, main_v49, main_v50, main_v51, main_v52, main_call2_cst, main_call2_v0, main_v53, main_v54, main_v55, main_v56,
   main_v57]
def wr6 : List (Ref sig .tc) :=
  [main_v58, main_v59, main_c_4, main_v60, main_v61, main_c_5, main_v62, main_v63, main_v64, main_v65, main_v66, main_v67,
   main_v68, main_cst_6, main_v69, main_v70, main_v71]
def wr7 : List (Ref sig .tc) :=
  [main_v72, main_v73, main_v74, main_v75, main_v76, main_call3_cst, main_call3_v0, main_v77, main_v78, main_v79, main_v80,
   main_v81, main_call4_cst, main_call4_v0, main_v82]
def wr8 : List (Ref sig .tc) :=
  [main_v83, main_v84, main_c_7, main_v85, main_v86, main_c_8, main_v87, main_v88, main_v89, main_v90, main_v91, main_v92,
   main_v93, main_cst_9, main_v94, main_v95, main_v96]
def wr9 : List (Ref sig .tc) :=
  [main_v97, main_v98, main_v99, main_v100, main_v101, main_call5_cst, main_call5_v0, main_v102, main_v103, main_v104,
   main_v105, main_v106, main_call6_cst, main_call6_v0, main_v107]
def wr10 : List (Ref sig .tc) :=
  [main_v108, main_v109, main_v110, main_v111, main_v112, main_call7_cst, main_call7_v0, main_v113, main_v114, main_v115,
   main_v116, main_v117]
def wr11 : List (Ref sig .tc) :=
  [main_cst_10, main_v118, main_v119, main_v120, main_v121, main_v122, main_v123, main_v124, main_v125]

/-- Every reference some operation writes. No argument is among them. -/
def written : List (Ref sig .tc) :=
  wr1 ++ (wr2 ++ (wr3 ++ (wr4 ++ (wr5 ++ (wr6 ++ (wr7 ++ (wr8 ++ (wr9 ++ (wr10 ++ wr11)))))))))

/-- A reference outside `written` is outside each stretch's list. -/
theorem not_mem_wr {r : Ref sig .tc} (hr : r ∉ written) :
    r ∉ wr1 ∧ r ∉ wr2 ∧ r ∉ wr3 ∧ r ∉ wr4 ∧ r ∉ wr5 ∧ r ∉ wr6 ∧ r ∉ wr7 ∧ r ∉ wr8 ∧ r ∉ wr9 ∧ r ∉ wr10 ∧ r ∉ wr11 := by
  simpa only [written, List.mem_append, not_or] using hr

/-- The one-buffer set of a reference of a list lies among the list's buffers. -/
theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

/-- `L` holds every reference the operations `ops` write. -/
abbrev WritesIn (ops : List (HloOp τ sig (Elt F))) (L : List (Ref sig .tc)) : Prop :=
  ops.Forall fun op => op.writes ⊆ (L.map (Proc.devRef (τ := τ) .tc)).toFinset

theorem writes1 : WritesIn (F := F) ops1 wr1 := by
  simp only [ops1, List.Forall]; repeat' apply And.intro
  all_goals exact single_sub_of_mem (by decide)
theorem writes2 : WritesIn (F := F) ops2 wr2 := by
  simp only [ops2, List.Forall]; repeat' apply And.intro
  all_goals exact single_sub_of_mem (by decide)
theorem writes3 : WritesIn (F := F) ops3 wr3 := by
  simp only [ops3, List.Forall]; repeat' apply And.intro
  all_goals exact single_sub_of_mem (by decide)
theorem writes4 : WritesIn (F := F) ops4 wr4 := by
  simp only [ops4, List.Forall]; repeat' apply And.intro
  all_goals exact single_sub_of_mem (by decide)
theorem writes5 : WritesIn (F := F) ops5 wr5 := by
  simp only [ops5, List.Forall]; repeat' apply And.intro
  all_goals exact single_sub_of_mem (by decide)
theorem writes6 : WritesIn (F := F) ops6 wr6 := by
  simp only [ops6, List.Forall]; repeat' apply And.intro
  all_goals exact single_sub_of_mem (by decide)
theorem writes7 : WritesIn (F := F) ops7 wr7 := by
  simp only [ops7, List.Forall]; repeat' apply And.intro
  all_goals exact single_sub_of_mem (by decide)
theorem writes8 : WritesIn (F := F) ops8 wr8 := by
  simp only [ops8, List.Forall]; repeat' apply And.intro
  all_goals exact single_sub_of_mem (by decide)
theorem writes9 : WritesIn (F := F) ops9 wr9 := by
  simp only [ops9, List.Forall]; repeat' apply And.intro
  all_goals exact single_sub_of_mem (by decide)
theorem writes10 : WritesIn (F := F) ops10 wr10 := by
  simp only [ops10, List.Forall]; repeat' apply And.intro
  all_goals exact single_sub_of_mem (by decide)
theorem writes11 : WritesIn (F := F) ops11 wr11 := by
  simp only [ops11, List.Forall]; repeat' apply And.intro
  all_goals exact single_sub_of_mem (by decide)

/-- `V` holds at every never-written reference (so at every argument) what `W` holds there. -/
def Agree (W V : Valuation τ sig (Elt F)) : Prop :=
  ∀ r : Ref sig .tc, r ∉ written → V (Proc.devRef .tc r) = W (Proc.devRef .tc r)

/-- Operations that write only inside `written` keep the agreement. -/
theorem Agree.after {W V : Valuation τ sig (Elt F)} (h : Agree W V) {ops : List (HloOp τ sig (Elt F))} {L : List (Ref sig .tc)}
    (hw : WritesIn ops L) (hL : ∀ r : Ref sig .tc, r ∉ written → r ∉ L) : Agree W (after ops V) :=
  fun r hr => (after_of_writes_sub ops V hw (hL r hr)).trans (h r hr)

/-! ## The stretches as functions of the buffers they read -/

/-- Node features of width 64 and 32, the two weight shapes, a bias row, an edge list. -/
abbrev N64 (F : FTy → Type) [FloatOps F] : Type := (⟨S100000x64, .f32⟩ : BufTy).Contents (Elt F)
abbrev N32 (F : FTy → Type) [FloatOps F] : Type := (⟨S100000x32, .f32⟩ : BufTy).Contents (Elt F)
abbrev W64 (F : FTy → Type) [FloatOps F] : Type := (⟨S64x32, .f32⟩ : BufTy).Contents (Elt F)
abbrev W32 (F : FTy → Type) [FloatOps F] : Type := (⟨S32x32, .f32⟩ : BufTy).Contents (Elt F)
abbrev B32 (F : FTy → Type) [FloatOps F] : Type := (⟨S32, .f32⟩ : BufTy).Contents (Elt F)
abbrev Edges (F : FTy → Type) [FloatOps F] : Type := (⟨S2x1600000, .i32⟩ : BufTy).Contents (Elt F)

/-- A bias row laid under every node. -/
def biasRows (b : B32 F) : N32 F :=
  broadcastInDim S100000x32 ![0, 1] bcast_S1x32_S100000x32_0_1 (broadcastInDim S1x32 ![1] bcast_S32_S1x32_1 b)

/-- The all-zero node features: the rectifier's other operand, and what an aggregation starts from. -/
def zeroRows : N32 F :=
  broadcastInDim S100000x32 ![] bcast_S_S100000x32 (constant S_ .f32 0x00000000#32)

/-- The two-layer perceptron on 64 input features: `max (h·w + b) 0 · w' + b'`. -/
def perceptron64 (h : N64 F) (w : W64 F) (b : B32 F) (w' : W32 F) (b' : B32 F) : N32 F :=
  addf (Host.dotGeneral dot_S100000x32_S32x32_S100000x32_1_0_0_1_n_n none
    (maximumf (addf (Host.dotGeneral dot_S100000x64_S64x32_S100000x32_1_0_0_1_n_n none h w) (biasRows b)) zeroRows) w') (biasRows b')

/-- The same on 32 input features. -/
def perceptron32 (h : N32 F) (w : W32 F) (b : B32 F) (w' : W32 F) (b' : B32 F) : N32 F :=
  addf (Host.dotGeneral dot_S100000x32_S32x32_S100000x32_1_0_0_1_n_n none
    (maximumf (addf (Host.dotGeneral dot_S100000x32_S32x32_S100000x32_1_0_0_1_n_n none h w) (biasRows b)) zeroRows) w') (biasRows b')

/-- Two blocks of 32 features side by side. -/
def beside32 (a b : N32 F) : N64 F :=
  concatenate S100000x64 1 [⟨S100000x32, a⟩, ⟨S100000x32, b⟩] concatenates_S100000x32_S100000x32_S100000x64_d1

/-- Neighbour aggregation of 32 features over an edge list: each edge's row of `y`, read at the edge's first end (a
    negative index counted from the end), added into the row of its second end, from zero. The two index columns are the
    ones the first aggregation of the program builds from its edge list. -/
def aggregate32 (y : N32 F) (e : Edges F) : N32 F :=
  Host.scatterAdd scatter_S100000x32_S1600000x1_S1600000x32_1_0_0_1 zeroRows (val_main_v12 e)
    (Host.gather gather_S100000x32_S1600000x1_S1600000x32_1_0_n_n_0_1_132 y (val_main_v7 e))

/-- Pooling and read-out: the rows of `y` added into their graph's row from zero, times the read-out column, plus the
    read-out bias, as a vector. -/
def readout (y : N32 F) (g : (⟨S100000, .i32⟩ : BufTy).Contents (Elt F)) (w : (⟨S32x1, .f32⟩ : BufTy).Contents (Elt F))
    (c : (⟨S1, .f32⟩ : BufTy).Contents (Elt F)) : (⟨S1000, .f32⟩ : BufTy).Contents (Elt F) :=
  shapeCast _ (addf (Host.dotGeneral dot_S1000x32_S32x1_S1000x1_1_0_0_1_n_n none
      (Host.scatterAdd scatter_S1000x32_S100000x1_S100000x32_1_0_0_1 (val_main_v118 (F := F)) (val_main_v119 g) y) w)
    (val_main_v123 c)) shapeCasts_S1000x1_S1000

section Stretches

variable (V : Valuation τ sig (Elt F))

set_option maxHeartbeats 4000000 in
theorem stretch1 : after ops1 V (Proc.devRef .tc main_v13)
    = val_main_v13 (V (Proc.devRef .tc main_arg0)) (V (Proc.devRef .tc main_arg1)) := by
  after_results; rfl

set_option maxHeartbeats 4000000 in
theorem stretch2 : after ops2 V (Proc.devRef .tc main_v23)
    = perceptron64 (addf (V (Proc.devRef .tc main_arg0)) (V (Proc.devRef .tc main_v13))) (V (Proc.devRef .tc main_arg4))
        (V (Proc.devRef .tc main_arg5)) (V (Proc.devRef .tc main_arg6)) (V (Proc.devRef .tc main_arg7)) := by
  after_results; rfl

set_option maxHeartbeats 4000000 in
theorem stretch3 : after ops3 V (Proc.devRef .tc main_v37)
    = val_main_v37 (V (Proc.devRef .tc main_arg0)) (V (Proc.devRef .tc main_arg2)) := by
  after_results; rfl

set_option maxHeartbeats 4000000 in
theorem stretch4 : after ops4 V (Proc.devRef .tc main_v47)
    = perceptron64 (addf (V (Proc.devRef .tc main_arg0)) (V (Proc.devRef .tc main_v37))) (V (Proc.devRef .tc main_arg8))
        (V (Proc.devRef .tc main_arg9)) (V (Proc.devRef .tc main_arg10)) (V (Proc.devRef .tc main_arg11)) := by
  after_results; rfl

set_option maxHeartbeats 4000000 in
theorem stretch5 : after ops5 V (Proc.devRef .tc main_v57)
    = perceptron64 (beside32 (V (Proc.devRef .tc main_v23)) (V (Proc.devRef .tc main_v47))) (V (Proc.devRef .tc main_arg12))
        (V (Proc.devRef .tc main_arg13)) (V (Proc.devRef .tc main_arg14)) (V (Proc.devRef .tc main_arg15)) := by
  after_results; rfl

set_option maxHeartbeats 4000000 in
theorem stretch6 : after ops6 V (Proc.devRef .tc main_v71)
    = aggregate32 (V (Proc.devRef .tc main_v57)) (V (Proc.devRef .tc main_arg1)) := by
  after_results; rfl

set_option maxHeartbeats 4000000 in
theorem stretch7 : after ops7 V (Proc.devRef .tc main_v82)
    = maximumf (perceptron32 (addf (V (Proc.devRef .tc main_v57)) (V (Proc.devRef .tc main_v71))) (V (Proc.devRef .tc main_arg16))
        (V (Proc.devRef .tc main_arg17)) (V (Proc.devRef .tc main_arg18)) (V (Proc.devRef .tc main_arg19))) zeroRows := by
  after_results; rfl

set_option maxHeartbeats 4000000 in
theorem stretch8 : after ops8 V (Proc.devRef .tc main_v96)
    = aggregate32 (V (Proc.devRef .tc main_v57)) (V (Proc.devRef .tc main_arg2)) := by
  after_results; rfl

set_option maxHeartbeats 4000000 in
theorem stretch9 : after ops9 V (Proc.devRef .tc main_v107)
    = maximumf (perceptron32 (addf (V (Proc.devRef .tc main_v57)) (V (Proc.devRef .tc main_v96))) (V (Proc.devRef .tc main_arg20))
        (V (Proc.devRef .tc main_arg21)) (V (Proc.devRef .tc main_arg22)) (V (Proc.devRef .tc main_arg23))) zeroRows := by
  after_results; rfl

set_option maxHeartbeats 4000000 in
theorem stretch10 : after ops10 V (Proc.devRef .tc main_v117)
    = perceptron64 (beside32 (V (Proc.devRef .tc main_v82)) (V (Proc.devRef .tc main_v107))) (V (Proc.devRef .tc main_arg24))
        (V (Proc.devRef .tc main_arg25)) (V (Proc.devRef .tc main_arg26)) (V (Proc.devRef .tc main_arg27)) := by
  after_results; rfl

set_option maxHeartbeats 4000000 in
theorem stretch11 : after ops11 V (Proc.devRef .tc main_v125)
    = readout (V (Proc.devRef .tc main_v117)) (V (Proc.devRef .tc main_arg3)) (V (Proc.devRef .tc main_arg28))
        (V (Proc.devRef .tc main_arg29)) := by
  after_results; rfl

end Stretches

/-! ## The stages from the arguments -/

section Stages

variable (W : Valuation τ sig (Elt F))

/-- Each layer's value at the arguments' contents in `W`. -/
def st13 := val_main_v13 (W (Proc.devRef .tc main_arg0)) (W (Proc.devRef .tc main_arg1))
def st23 := val_main_v23 (W (Proc.devRef .tc main_arg0)) (W (Proc.devRef .tc main_arg1)) (W (Proc.devRef .tc main_arg4)) (W (Proc.devRef .tc main_arg5)) (W (Proc.devRef .tc main_arg6)) (W (Proc.devRef .tc main_arg7))
def st37 := val_main_v37 (W (Proc.devRef .tc main_arg0)) (W (Proc.devRef .tc main_arg2))
def st47 := val_main_v47 (W (Proc.devRef .tc main_arg0)) (W (Proc.devRef .tc main_arg2)) (W (Proc.devRef .tc main_arg8)) (W (Proc.devRef .tc main_arg9)) (W (Proc.devRef .tc main_arg10)) (W (Proc.devRef .tc main_arg11))
def st57 := val_main_v57 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))
def st71 := val_main_v71 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))
def st82 := val_main_v82 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19))
def st96 := val_main_v96 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))
def st107 := val_main_v107 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg20)) (W (Proc.devRef .tc main_arg21)) (W (Proc.devRef .tc main_arg22)) (W (Proc.devRef .tc main_arg23))
def st117 := val_main_v117 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27))
def st125 := val_main_v125 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) (W (Proc.devRef .tc main_arg28)) (W (Proc.devRef .tc main_arg29))

variable {W} {V : Valuation τ sig (Elt F)}

/-! One stretch at a time, from ANY contents `V` that agree with `W` on the arguments and hold the earlier layers the
    stretch reads: the stretch's buffer then holds its layer. The stretch's function at the earlier layers' values is the
    layer's value by unfolding that one layer's operations; the earlier layers stay closed. -/

theorem layer13 (hA : Agree W V) : after ops1 V (Proc.devRef .tc main_v13) = st13 W := by
  rw [stretch1 V, hA main_arg0 (by decide), hA main_arg1 (by decide)]
  rfl

theorem layer23 (hA : Agree W V) (h13 : V (Proc.devRef .tc main_v13) = st13 W) :
    after ops2 V (Proc.devRef .tc main_v23) = st23 W := by
  rw [stretch2 V, h13, hA main_arg0 (by decide), hA main_arg4 (by decide), hA main_arg5 (by decide), hA main_arg6 (by decide), hA main_arg7 (by decide)]
  rfl

theorem layer37 (hA : Agree W V) : after ops3 V (Proc.devRef .tc main_v37) = st37 W := by
  rw [stretch3 V, hA main_arg0 (by decide), hA main_arg2 (by decide)]
  rfl

theorem layer47 (hA : Agree W V) (h37 : V (Proc.devRef .tc main_v37) = st37 W) :
    after ops4 V (Proc.devRef .tc main_v47) = st47 W := by
  rw [stretch4 V, h37, hA main_arg0 (by decide), hA main_arg8 (by decide), hA main_arg9 (by decide), hA main_arg10 (by decide), hA main_arg11 (by decide)]
  rfl

theorem layer57 (hA : Agree W V) (h23 : V (Proc.devRef .tc main_v23) = st23 W) (h47 : V (Proc.devRef .tc main_v47) = st47 W) :
    after ops5 V (Proc.devRef .tc main_v57) = st57 W := by
  rw [stretch5 V, h23, h47, hA main_arg12 (by decide), hA main_arg13 (by decide), hA main_arg14 (by decide), hA main_arg15 (by decide)]
  rfl

theorem layer71 (hA : Agree W V) (h57 : V (Proc.devRef .tc main_v57) = st57 W) :
    after ops6 V (Proc.devRef .tc main_v71) = st71 W := by
  rw [stretch6 V, h57, hA main_arg1 (by decide)]
  rfl

theorem layer82 (hA : Agree W V) (h57 : V (Proc.devRef .tc main_v57) = st57 W) (h71 : V (Proc.devRef .tc main_v71) = st71 W) :
    after ops7 V (Proc.devRef .tc main_v82) = st82 W := by
  rw [stretch7 V, h57, h71, hA main_arg16 (by decide), hA main_arg17 (by decide), hA main_arg18 (by decide), hA main_arg19 (by decide)]
  rfl

theorem layer96 (hA : Agree W V) (h57 : V (Proc.devRef .tc main_v57) = st57 W) :
    after ops8 V (Proc.devRef .tc main_v96) = st96 W := by
  rw [stretch8 V, h57, hA main_arg2 (by decide)]
  rfl

theorem layer107 (hA : Agree W V) (h57 : V (Proc.devRef .tc main_v57) = st57 W) (h96 : V (Proc.devRef .tc main_v96) = st96 W) :
    after ops9 V (Proc.devRef .tc main_v107) = st107 W := by
  rw [stretch9 V, h57, h96, hA main_arg20 (by decide), hA main_arg21 (by decide), hA main_arg22 (by decide), hA main_arg23 (by decide)]
  rfl

theorem layer117 (hA : Agree W V) (h82 : V (Proc.devRef .tc main_v82) = st82 W) (h107 : V (Proc.devRef .tc main_v107) = st107 W) :
    after ops10 V (Proc.devRef .tc main_v117) = st117 W := by
  rw [stretch10 V, h82, h107, hA main_arg24 (by decide), hA main_arg25 (by decide), hA main_arg26 (by decide), hA main_arg27 (by decide)]
  rfl

theorem layer125 (hA : Agree W V) (h117 : V (Proc.devRef .tc main_v117) = st117 W) :
    after ops11 V (Proc.devRef .tc main_v125) = st125 W := by
  rw [stretch11 V, h117, hA main_arg3 (by decide), hA main_arg28 (by decide), hA main_arg29 (by decide)]
  rfl

end Stages

/-! ## All the stretches in order -/

section Whole

variable (W : Valuation τ sig (Elt F))

/-- The buffers after the first `k` stretches. -/
def run1 := after ops1 W
def run2 := after ops2 (run1 W)
def run3 := after ops3 (run2 W)
def run4 := after ops4 (run3 W)
def run5 := after ops5 (run4 W)
def run6 := after ops6 (run5 W)
def run7 := after ops7 (run6 W)
def run8 := after ops8 (run7 W)
def run9 := after ops9 (run8 W)
def run10 := after ops10 (run9 W)
def run11 := after ops11 (run10 W)

/-- All the operations are the eleven stretches one after the other. -/
theorem after_opsAll : after opsAll W = run11 W := by
  unfold run11 run10 run9 run8 run7 run6 run5 run4 run3 run2 run1
  simp only [opsAll, after_append (nD := nD)]

/-- After each stretch the arguments are as they were. -/
theorem agree1 : Agree W (run1 W) := Agree.after (fun _ _ => rfl) writes1 fun _ hr => (not_mem_wr hr).1
theorem agree2 : Agree W (run2 W) := (agree1 W).after writes2 fun _ hr => (not_mem_wr hr).2.1
theorem agree3 : Agree W (run3 W) := (agree2 W).after writes3 fun _ hr => (not_mem_wr hr).2.2.1
theorem agree4 : Agree W (run4 W) := (agree3 W).after writes4 fun _ hr => (not_mem_wr hr).2.2.2.1
theorem agree5 : Agree W (run5 W) := (agree4 W).after writes5 fun _ hr => (not_mem_wr hr).2.2.2.2.1
theorem agree6 : Agree W (run6 W) := (agree5 W).after writes6 fun _ hr => (not_mem_wr hr).2.2.2.2.2.1
theorem agree7 : Agree W (run7 W) := (agree6 W).after writes7 fun _ hr => (not_mem_wr hr).2.2.2.2.2.2.1
theorem agree8 : Agree W (run8 W) := (agree7 W).after writes8 fun _ hr => (not_mem_wr hr).2.2.2.2.2.2.2.1
theorem agree9 : Agree W (run9 W) := (agree8 W).after writes9 fun _ hr => (not_mem_wr hr).2.2.2.2.2.2.2.2.1
theorem agree10 : Agree W (run10 W) := (agree9 W).after writes10 fun _ hr => (not_mem_wr hr).2.2.2.2.2.2.2.2.2.1
theorem agree11 : Agree W (run11 W) := (agree10 W).after writes11 fun _ hr => (not_mem_wr hr).2.2.2.2.2.2.2.2.2.2

/-- The layers, each in its buffer once its stretch has run, and still there when a later stretch reads it: the stretches
    in between do not write it. -/
theorem run1_v13 : run1 W (Proc.devRef .tc main_v13) = st13 W := layer13 (fun _ _ => rfl)
theorem run2_v23 : run2 W (Proc.devRef .tc main_v23) = st23 W := layer23 (agree1 W) (run1_v13 W)
theorem run3_v23 : run3 W (Proc.devRef .tc main_v23) = st23 W :=
  (after_of_writes_sub ops3 (run2 W) writes3 (by decide)).trans (run2_v23 W)
theorem run3_v37 : run3 W (Proc.devRef .tc main_v37) = st37 W := layer37 (agree2 W)
theorem run4_v23 : run4 W (Proc.devRef .tc main_v23) = st23 W :=
  (after_of_writes_sub ops4 (run3 W) writes4 (by decide)).trans (run3_v23 W)
theorem run4_v47 : run4 W (Proc.devRef .tc main_v47) = st47 W := layer47 (agree3 W) (run3_v37 W)
theorem run5_v57 : run5 W (Proc.devRef .tc main_v57) = st57 W := layer57 (agree4 W) (run4_v23 W) (run4_v47 W)
theorem run6_v57 : run6 W (Proc.devRef .tc main_v57) = st57 W :=
  (after_of_writes_sub ops6 (run5 W) writes6 (by decide)).trans (run5_v57 W)
theorem run6_v71 : run6 W (Proc.devRef .tc main_v71) = st71 W := layer71 (agree5 W) (run5_v57 W)
theorem run7_v57 : run7 W (Proc.devRef .tc main_v57) = st57 W :=
  (after_of_writes_sub ops7 (run6 W) writes7 (by decide)).trans (run6_v57 W)
theorem run7_v82 : run7 W (Proc.devRef .tc main_v82) = st82 W := layer82 (agree6 W) (run6_v57 W) (run6_v71 W)
theorem run8_v57 : run8 W (Proc.devRef .tc main_v57) = st57 W :=
  (after_of_writes_sub ops8 (run7 W) writes8 (by decide)).trans (run7_v57 W)
theorem run8_v82 : run8 W (Proc.devRef .tc main_v82) = st82 W :=
  (after_of_writes_sub ops8 (run7 W) writes8 (by decide)).trans (run7_v82 W)
theorem run8_v96 : run8 W (Proc.devRef .tc main_v96) = st96 W := layer96 (agree7 W) (run7_v57 W)
theorem run9_v82 : run9 W (Proc.devRef .tc main_v82) = st82 W :=
  (after_of_writes_sub ops9 (run8 W) writes9 (by decide)).trans (run8_v82 W)
theorem run9_v107 : run9 W (Proc.devRef .tc main_v107) = st107 W := layer107 (agree8 W) (run8_v57 W) (run8_v96 W)
theorem run10_v117 : run10 W (Proc.devRef .tc main_v117) = st117 W := layer117 (agree9 W) (run9_v82 W) (run9_v107 W)
theorem run11_v125 : run11 W (Proc.devRef .tc main_v125) = st125 W := layer125 (agree10 W) (run10_v117 W)

end Whole

/-- THE RESULT: from ANY contents `W`, after all the operations the result buffer holds the result stage of the
    arguments' contents in `W`. -/
theorem read_result (W : Valuation τ sig (Elt F)) :
    after opsAll W (Proc.devRef .tc main_v125) = val_main_v125 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) (W (Proc.devRef .tc main_arg28)) (W (Proc.devRef .tc main_arg29)) := by
  rw [after_opsAll W]
  exact run11_v125 W

/-- No operation writes an argument: each ends as it was. -/
theorem read_arg (W : Valuation τ sig (Elt F)) :
    after opsAll W (Proc.devRef .tc main_arg0) = W (Proc.devRef .tc main_arg0)
    ∧ after opsAll W (Proc.devRef .tc main_arg1) = W (Proc.devRef .tc main_arg1)
    ∧ after opsAll W (Proc.devRef .tc main_arg2) = W (Proc.devRef .tc main_arg2)
    ∧ after opsAll W (Proc.devRef .tc main_arg3) = W (Proc.devRef .tc main_arg3)
    ∧ after opsAll W (Proc.devRef .tc main_arg4) = W (Proc.devRef .tc main_arg4)
    ∧ after opsAll W (Proc.devRef .tc main_arg5) = W (Proc.devRef .tc main_arg5)
    ∧ after opsAll W (Proc.devRef .tc main_arg6) = W (Proc.devRef .tc main_arg6)
    ∧ after opsAll W (Proc.devRef .tc main_arg7) = W (Proc.devRef .tc main_arg7)
    ∧ after opsAll W (Proc.devRef .tc main_arg8) = W (Proc.devRef .tc main_arg8)
    ∧ after opsAll W (Proc.devRef .tc main_arg9) = W (Proc.devRef .tc main_arg9)
    ∧ after opsAll W (Proc.devRef .tc main_arg10) = W (Proc.devRef .tc main_arg10)
    ∧ after opsAll W (Proc.devRef .tc main_arg11) = W (Proc.devRef .tc main_arg11)
    ∧ after opsAll W (Proc.devRef .tc main_arg12) = W (Proc.devRef .tc main_arg12)
    ∧ after opsAll W (Proc.devRef .tc main_arg13) = W (Proc.devRef .tc main_arg13)
    ∧ after opsAll W (Proc.devRef .tc main_arg14) = W (Proc.devRef .tc main_arg14)
    ∧ after opsAll W (Proc.devRef .tc main_arg15) = W (Proc.devRef .tc main_arg15)
    ∧ after opsAll W (Proc.devRef .tc main_arg16) = W (Proc.devRef .tc main_arg16)
    ∧ after opsAll W (Proc.devRef .tc main_arg17) = W (Proc.devRef .tc main_arg17)
    ∧ after opsAll W (Proc.devRef .tc main_arg18) = W (Proc.devRef .tc main_arg18)
    ∧ after opsAll W (Proc.devRef .tc main_arg19) = W (Proc.devRef .tc main_arg19)
    ∧ after opsAll W (Proc.devRef .tc main_arg20) = W (Proc.devRef .tc main_arg20)
    ∧ after opsAll W (Proc.devRef .tc main_arg21) = W (Proc.devRef .tc main_arg21)
    ∧ after opsAll W (Proc.devRef .tc main_arg22) = W (Proc.devRef .tc main_arg22)
    ∧ after opsAll W (Proc.devRef .tc main_arg23) = W (Proc.devRef .tc main_arg23)
    ∧ after opsAll W (Proc.devRef .tc main_arg24) = W (Proc.devRef .tc main_arg24)
    ∧ after opsAll W (Proc.devRef .tc main_arg25) = W (Proc.devRef .tc main_arg25)
    ∧ after opsAll W (Proc.devRef .tc main_arg26) = W (Proc.devRef .tc main_arg26)
    ∧ after opsAll W (Proc.devRef .tc main_arg27) = W (Proc.devRef .tc main_arg27)
    ∧ after opsAll W (Proc.devRef .tc main_arg28) = W (Proc.devRef .tc main_arg28)
    ∧ after opsAll W (Proc.devRef .tc main_arg29) = W (Proc.devRef .tc main_arg29) := by
  rw [after_opsAll W]
  have h := agree11 W
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact h _ (by decide)

end Cert.ReferenceIdeal.RefRun

end
-- ==== Proof.RefRun.lean ====
/-
  The reference program's run.

  Its @main is a straight line of 155 host operations, so every weakly fair execution terminates with each buffer at
  the operations' fold over its launch contents; read back stretch by stretch, the result buffer holds the result
  stage of the arguments and no operation writes an argument.
-/
import proofs.«412192_j67508295958858_4_alg».proof.Proof.RefSeq
import proofs.«412192_j67508295958858_4_alg».proof.Proof.RefBack
import proofs.«412192_j67508295958858_4_alg».proof.Proof.RefRead
import Idealize.ShloMosaic.Lib.StableHlo.Run

set_option maxRecDepth 16384

noncomputable section

namespace Cert.ReferenceIdeal.RefRun

open Cert.ReferenceIdeal Cert.ReferenceIdeal.Gen Cert.ReferenceIdeal.RefRead Idealize.ShloMosaic Idealize.ShloMosaic.TcCoe Idealize.SL.Sem Idealize.ShloMosaic.StableHlo

variable {F : FTy → Type} [FloatOps F]

/-- The reference's result stage at the launch contents of the arguments on core `c`. -/
def result (m : (ℓ : Loc nD τ sig) → Buf (Elt F) ℓ) (c : Dev nD) : Buf (Elt F) ((c.tc : Thread nD τ).loc main_v125) :=
  val_main_v125 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))

/-- Every weakly fair execution of the reference program terminates, nothing faulting, with the result buffer at
    the result stage of the arguments and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) := by
  refine (θ_run defs _ _).mono (fun r h c => ?_) (run_all m ρ)
  obtain ⟨a0, a1, a2, a3, a4, a5, a6, a7, a8, a9, a10, a11, a12, a13, a14, a15, a16, a17, a18, a19, a20, a21, a22, a23, a24, a25, a26, a27, a28, a29⟩ := read_arg (F := F) (launchContents m c)
  exact ⟨(h c main_v125).trans (read_result (launchContents m c)),
    (h c main_arg0).trans a0,
    (h c main_arg1).trans a1,
    (h c main_arg2).trans a2,
    (h c main_arg3).trans a3,
    (h c main_arg4).trans a4,
    (h c main_arg5).trans a5,
    (h c main_arg6).trans a6,
    (h c main_arg7).trans a7,
    (h c main_arg8).trans a8,
    (h c main_arg9).trans a9,
    (h c main_arg10).trans a10,
    (h c main_arg11).trans a11,
    (h c main_arg12).trans a12,
    (h c main_arg13).trans a13,
    (h c main_arg14).trans a14,
    (h c main_arg15).trans a15,
    (h c main_arg16).trans a16,
    (h c main_arg17).trans a17,
    (h c main_arg18).trans a18,
    (h c main_arg19).trans a19,
    (h c main_arg20).trans a20,
    (h c main_arg21).trans a21,
    (h c main_arg22).trans a22,
    (h c main_arg23).trans a23,
    (h c main_arg24).trans a24,
    (h c main_arg25).trans a25,
    (h c main_arg26).trans a26,
    (h c main_arg27).trans a27,
    (h c main_arg28).trans a28,
    (h c main_arg29).trans a29⟩

end Cert.ReferenceIdeal.RefRun

end
-- ==== Proof.lean ====
/-
  A graph network on 100000 nodes and 1000 graphs — two graph-isomorphism layers per edge list, each mixed by a
  perceptron, pooled per graph and read out — written as seven pallas_calls with the neighbour aggregation on the
  host, against the same network written in plain array operations.

  Over the extended reals the two programs compute one function of their thirty arguments. The aggregations are
  the same host operations on both sides and stay a parameter. Each graph-isomorphism call applies the
  two-layer perceptron to a block of 2000 rows at a time, and a row's result depends on that row alone. The
  mixing calls contract the two branches against the two halves of the first weight matrix instead of joining
  the branches and contracting once: a sum over 64 positions is the sum over the first 32 plus the sum over the
  last 32. The pooling call multiplies, block by block, the indicator matrix of the graph words into the node
  features and accumulates over its 50 blocks: entry by entry that is the sum of the rows whose word is the row's
  number, which is what the reference's scatter-add leaves, rows it drops being rows the kernel slices off. None
  of these steps needs the inputs to be finite, so the precondition is never opened. The three frames are the
  generated ones for the two kernel programs; the reference's is its run, read back stretch by stretch, with the result dropped, and the ideal pass recorded no
  rewrite, so there is nothing to preserve.
-/
import proofs.«412192_j67508295958858_4_alg».proof.Defs
import proofs.«412192_j67508295958858_4_alg».proof.Proof.Gen.Kernel
import proofs.«412192_j67508295958858_4_alg».proof.Proof.Gen.Kernel.Skeleton
import proofs.«412192_j67508295958858_4_alg».proof.Proof.Gen.Kernel.Launch
import proofs.«412192_j67508295958858_4_alg».proof.Proof.Gen.Kernel.Points
import proofs.«412192_j67508295958858_4_alg».proof.Proof.Gen.Kernel.Frame
import proofs.«412192_j67508295958858_4_alg».proof.Proof.Gen.KernelIdeal
import proofs.«412192_j67508295958858_4_alg».proof.Proof.Gen.KernelIdeal.Skeleton
import proofs.«412192_j67508295958858_4_alg».proof.Proof.Gen.KernelIdeal.Launch
import proofs.«412192_j67508295958858_4_alg».proof.Proof.Gen.KernelIdeal.Points
import proofs.«412192_j67508295958858_4_alg».proof.Proof.Gen.KernelIdeal.Frame
import proofs.«412192_j67508295958858_4_alg».proof.Proof.Gen.ReferenceIdeal
import proofs.«412192_j67508295958858_4_alg».proof.Proof.Gen.Pre_finite_inputs
import proofs.«412192_j67508295958858_4_alg».proof.Proof.KValue
import proofs.«412192_j67508295958858_4_alg».proof.Proof.RefValue
import proofs.«412192_j67508295958858_4_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass recorded no rewrite. -/
theorem preserves : Cert.preserves_Kernel_KernelIdeal := trivial

/-- The two programs aggregate the neighbours' 64 features by the same host operations. -/
theorem agg64_eq : Cert.ReferenceIdeal.RefValue.agg64 = Cert.KernelIdeal.Val.agg64 := by
  funext x e
  rfl

/-- … and the 32 features. -/
theorem agg32_eq : Cert.ReferenceIdeal.RefValue.agg32 = Cert.KernelIdeal.Val.agg32 := by
  funext h e
  rfl

set_option maxHeartbeats 8000000 in
/-- Both programs end at the network function of the arguments. -/
theorem algebraic : Cert.algebraic_KernelIdeal_ReferenceIdeal := by
  intro m ρ m' ρ' _ hagree
  refine ⟨Cert.KernelIdeal.Val.result m, Cert.KernelIdeal.Val.kernel_run m ρ, ?_⟩
  refine (θ_run Cert.ReferenceIdeal.defs _ _).mono (fun _ h c => ⟨(h c).1.trans ?_, (h c).2⟩)
    (Cert.ReferenceIdeal.RefRun.run (F := Ideal) m' ρ')
  unfold Cert.ReferenceIdeal.RefRun.result
  rw [Cert.ReferenceIdeal.RefValue.ref_value]
  obtain ⟨e0, e1, e2, e3, e4, e5, e6, e7, e8, e9, e10, e11, e12, e13, e14, e15, e16, e17, e18, e19, e20, e21, e22, e23, e24, e25, e26, e27, e28, e29⟩ := hagree c
  rw [e0, e1, e2, e3, e4, e5, e6, e7, e8, e9, e10, e11, e12, e13, e14, e15, e16, e17, e18, e19, e20, e21, e22, e23, e24, e25, e26, e27, e28, e29, agg64_eq, agg32_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
